-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg23 : FVec F S64 .f32) (main_arg24 : FVec F S64 .f32) (main_arg25 : FVec F S64x1 .f32) (main_arg26 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg25
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg26
  fn_part7 (F := F) main_v118 main_v119

def fn_part5 {F : FTy → Type} [FloatOps F] (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S32x32 .f32) (main_arg14 : FVec F S32 .f32) (main_arg15 : FVec F S32x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x64 .f32 := Host.absf main_arg15
  let main_cst_24 : FVec F S_ .f32 := constant S_ .f32 0x7F800000#32
  let main_v65 : FVec F S32x64 .f32 := broadcastInDim S32x64 ![] bcast_S_S32x64 main_cst_24
  let main_v66 : IVec S32x64 1 := cmpf .olt main_v64 main_v65
  let main_c_25 : IVec S_ 1 := constantI S_ 1 1#1
  let main_v67 : IVec S_ 1 := (fun x v => Host.reduce IntOp.andi x v reducesTo_S32x64_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S32 .f32) (main_arg7 : FVec F S64x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x64 .f32) (main_arg1 : IVec S2x1000000 32) (main_arg2 : IVec S2x1000000 32) (main_arg3 : FVec F S64x32 .f32) (main_arg4 : FVec F S32 .f32) (main_arg5 : FVec F S64x32 .f32) (main_arg6 : FVec F S32 .f32) (main_arg7 : FVec F S64x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x64 .f32) (main_arg16 : FVec F S64 .f32) (main_arg17 : FVec F S64x64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64x1 .f32) (main_arg26 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x64 : Shape := ⟨2, ![100000, 64]⟩
abbrev S2x1000000 : Shape := ⟨2, ![2, 1000000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x32 : Shape := ⟨2, ![1, 32]⟩
abbrev S25000x64 : Shape := ⟨2, ![25000, 64]⟩
abbrev S25000x32 : Shape := ⟨2, ![25000, 32]⟩
abbrev S100000x32 : Shape := ⟨2, ![100000, 32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x32 : Shape := ⟨2, ![1000000, 32]⟩
abbrev S1x64 : Shape := ⟨2, ![1, 64]⟩
abbrev S1x1 : Shape := ⟨2, ![1, 1]⟩
abbrev S100000x1 : Shape := ⟨2, ![100000, 1]⟩
abbrev S25000x1 : Shape := ⟨2, ![25000, 1]⟩

abbrev nBuf : Space → Nat
  | .hbm => 183
  | .vmem => 64
  | .smem => 0
  | _ => 0

abbrev hbmTy0_0 (i : Nat) : BufTy := match i % 128 with
  | 0 => ⟨S100000x64, .f32⟩
  | 1 => ⟨S2x1000000, .i32⟩
  | 2 => ⟨S2x1000000, .i32⟩
  | 3 => ⟨S64x32, .f32⟩
  | 4 => ⟨S32, .f32⟩
  | 5 => ⟨S64x32, .f32⟩
  | 6 => ⟨S32, .f32⟩
  | 7 => ⟨S64x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x64, .f32⟩
  | 22 => ⟨S64, .f32⟩
  | 23 => ⟨S64, .f32⟩
  | 24 => ⟨S64, .f32⟩
  | 25 => ⟨S64x1, .f32⟩
  | 26 => ⟨S1, .f32⟩
  | 27 => ⟨S1x32, .f32⟩
  | 28 => ⟨S1x32, .f32⟩
  | 29 => ⟨S100000x64, .f32⟩
  | 30 => ⟨S100000x32, .f32⟩
  | 31 => ⟨S100000x32, .f32⟩
  | 32 => ⟨S1x1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x32, .f32⟩
  | 43 => ⟨S1x1000000, .i32⟩
  | 44 => ⟨S1000000, .i32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x32, .f32⟩
  | 54 => ⟨S1x1000000, .i32⟩
  | 55 => ⟨S1000000, .i32⟩
  | 56 => ⟨S_, .f32⟩
  | 57 => ⟨S100000x32, .f32⟩
  | 58 => ⟨S1000000x1, .i32⟩
  | 59 => ⟨S100000x32, .f32⟩
  | 60 => ⟨S1x1000000, .i32⟩
  | 61 => ⟨S1000000, .i32⟩
  | 62 => ⟨S_, .f32⟩
  | 63 => ⟨S100000x32, .f32⟩
  | 64 => ⟨S1000000x1, .i32⟩
  | 65 => ⟨S100000x32, .f32⟩
  | 66 => ⟨S100000x32, .f32⟩
  | 67 => ⟨S1x32, .f32⟩
  | 68 => ⟨S100000x32, .f32⟩
  | 69 => ⟨S1x32, .f32⟩
  | 70 => ⟨S1x32, .f32⟩
  | 71 => ⟨S100000x64, .f32⟩
  | 72 => ⟨S100000x32, .f32⟩
  | 73 => ⟨S100000x32, .f32⟩
  | 74 => ⟨S1x1000000, .i32⟩
  | 75 => ⟨S1000000, .i32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x32, .f32⟩
  | 85 => ⟨S1x1000000, .i32⟩
  | 86 => ⟨S1000000, .i32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x32, .f32⟩
  | 96 => ⟨S1x1000000, .i32⟩
  | 97 => ⟨S1000000, .i32⟩
  | 98 => ⟨S_, .f32⟩
  | 99 => ⟨S100000x32, .f32⟩
  | 100 => ⟨S1000000x1, .i32⟩
  | 101 => ⟨S100000x32, .f32⟩
  | 102 => ⟨S1x1000000, .i32⟩
  | 103 => ⟨S1000000, .i32⟩
  | 104 => ⟨S_, .f32⟩
  | 105 => ⟨S100000x32, .f32⟩
  | 106 => ⟨S1000000x1, .i32⟩
  | 107 => ⟨S100000x32, .f32⟩
  | 108 => ⟨S100000x32, .f32⟩
  | 109 => ⟨S1x32, .f32⟩
  | 110 => ⟨S100000x32, .f32⟩
  | 111 => ⟨S1x64, .f32⟩
  | 112 => ⟨S100000x64, .f32⟩
  | 113 => ⟨S1x64, .f32⟩
  | 114 => ⟨S100000x64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S100000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S1x64, .f32⟩
  | 51 => ⟨S1x64, .f32⟩
  | 52 => ⟨S1x64, .f32⟩
  | 53 => ⟨S1x1, .f32⟩
  | 54 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S25000x64, .f32⟩
  | .local _ .vmem, ⟨1, _⟩ => ⟨S25000x64, .f32⟩
  | .local _ .vmem, ⟨2, _⟩ => ⟨S64x32, .f32⟩
  | .local _ .vmem, ⟨3, _⟩ => ⟨S1x32, .f32⟩
  | .local _ .vmem, ⟨4, _⟩ => ⟨S64x32, .f32⟩
  | .local _ .vmem, ⟨5, _⟩ => ⟨S1x32, .f32⟩
  | .local _ .vmem, ⟨6, _⟩ => ⟨S25000x64, .f32⟩
  | .local _ .vmem, ⟨7, _⟩ => ⟨S25000x64, .f32⟩
  | .local _ .vmem, ⟨8, _⟩ => ⟨S25000x32, .f32⟩
  | .local _ .vmem, ⟨9, _⟩ => ⟨S25000x32, .f32⟩
  | .local _ .vmem, ⟨10, _⟩ => ⟨S25000x64, .f32⟩
  | .local _ .vmem, ⟨11, _⟩ => ⟨S25000x64, .f32⟩
  | .local _ .vmem, ⟨12, _⟩ => ⟨S64x32, .f32⟩
  | .local _ .vmem, ⟨13, _⟩ => ⟨S1x32, .f32⟩
  | .local _ .vmem, ⟨14, _⟩ => ⟨S25000x32, .f32⟩
  | .local _ .vmem, ⟨15, _⟩ => ⟨S25000x32, .f32⟩
  | .local _ .vmem, ⟨16, _⟩ => ⟨S25000x32, .f32⟩
  | .local _ .vmem, ⟨17, _⟩ => ⟨S25000x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S25000x64, .f32⟩
  | .local _ .vmem, ⟨23, _⟩ => ⟨S25000x64, .f32⟩
  | .local _ .vmem, ⟨24, _⟩ => ⟨S25000x32, .f32⟩
  | .local _ .vmem, ⟨25, _⟩ => ⟨S25000x32, .f32⟩
  | .local _ .vmem, ⟨26, _⟩ => ⟨S25000x32, .f32⟩
  | .local _ .vmem, ⟨27, _⟩ => ⟨S25000x32, .f32⟩
  | .local _ .vmem, ⟨28, _⟩ => ⟨S32x32, .f32⟩
  | .local _ .vmem, ⟨29, _⟩ => ⟨S1x32, .f32⟩
  | .local _ .vmem, ⟨30, _⟩ => ⟨S25000x32, .f32⟩
  | .local _ .vmem, ⟨31, _⟩ => ⟨S25000x32, .f32⟩
  | .local _ .vmem, ⟨32, _⟩ => ⟨S25000x32, .f32⟩
  | .local _ .vmem, ⟨33, _⟩ => ⟨S25000x32, .f32⟩
  | .local _ .vmem, ⟨34, _⟩ => ⟨S32x64, .f32⟩
  | .local _ .vmem, ⟨35, _⟩ => ⟨S1x64, .f32⟩
  | .local _ .vmem, ⟨36, _⟩ => ⟨S25000x64, .f32⟩
  | .local _ .vmem, ⟨37, _⟩ => ⟨S25000x64, .f32⟩
  | .local _ .vmem, ⟨38, _⟩ => ⟨S25000x64, .f32⟩
  | .local _ .vmem, ⟨39, _⟩ => ⟨S25000x64, .f32⟩
  | .local _ .vmem, ⟨40, _⟩ => ⟨S64x64, .f32⟩
  | .local _ .vmem, ⟨41, _⟩ => ⟨S1x64, .f32⟩
  | .local _ .vmem, ⟨42, _⟩ => ⟨S25000x64, .f32⟩
  | .local _ .vmem, ⟨43, _⟩ => ⟨S25000x64, .f32⟩
  | .local _ .vmem, ⟨44, _⟩ => ⟨S25000x64, .f32⟩
  | .local _ .vmem, ⟨45, _⟩ => ⟨S25000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S25000x64, .f32⟩
  | .local _ .vmem, ⟨53, _⟩ => ⟨S25000x64, .f32⟩
  | .local _ .vmem, ⟨54, _⟩ => ⟨S25000x64, .f32⟩
  | .local _ .vmem, ⟨55, _⟩ => ⟨S25000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S25000x1, .f32⟩
  | .local _ .vmem, ⟨63, _⟩ => ⟨S25000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c : Ref sig .tc := ⟨.hbm, 34, rfl⟩
abbrev main_v7 : Ref sig .tc := ⟨.hbm, 35, rfl⟩
abbrev main_v8 : Ref sig .tc := ⟨.hbm, 36, rfl⟩
abbrev main_c_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_1 : Ref sig .tc := ⟨.hbm, 45, rfl⟩
abbrev main_v16 : Ref sig .tc := ⟨.hbm, 46, rfl⟩
abbrev main_v17 : Ref sig .tc := ⟨.hbm, 47, rfl⟩
abbrev main_c_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_4 : Ref sig .tc := ⟨.hbm, 76, rfl⟩
abbrev main_v43 : Ref sig .tc := ⟨.hbm, 77, rfl⟩
abbrev main_v44 : Ref sig .tc := ⟨.hbm, 78, rfl⟩
abbrev main_c_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_6 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_10 : Ref sig .tc := ⟨.hbm, 115, rfl⟩
abbrev main_v76 : Ref sig .tc := ⟨.hbm, 116, rfl⟩
abbrev main_cst_11 : Ref sig .tc := ⟨.hbm, 117, rfl⟩
abbrev main_v77 : Ref sig .tc := ⟨.hbm, 118, rfl⟩
abbrev main_v78 : Ref sig .tc := ⟨.hbm, 119, rfl⟩
abbrev main_c_12 : Ref sig .tc := ⟨.hbm, 120, rfl⟩
abbrev main_call0_cst : Ref sig .tc := ⟨.hbm, 121, rfl⟩
abbrev main_call0_v0 : Ref sig .tc := ⟨.hbm, 122, rfl⟩
abbrev main_call0_v1 : Ref sig .tc := ⟨.hbm, 123, rfl⟩
abbrev main_call0_cst_0 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_v5 : Ref sig .tc := ⟨.hbm, 128, rfl⟩
abbrev main_call0_v6 : Ref sig .tc := ⟨.hbm, 129, rfl⟩
abbrev main_call0_v7 : Ref sig .tc := ⟨.hbm, 130, rfl⟩
abbrev main_call0_cst_1 : Ref sig .tc := ⟨.hbm, 131, rfl⟩
abbrev main_call0_v8 : Ref sig .tc := ⟨.hbm, 132, rfl⟩
abbrev main_call0_cst_2 : Ref sig .tc := ⟨.hbm, 133, rfl⟩
abbrev main_call0_v9 : Ref sig .tc := ⟨.hbm, 134, rfl⟩
abbrev main_call0_v10 : Ref sig .tc := ⟨.hbm, 135, rfl⟩
abbrev main_call0_v11 : Ref sig .tc := ⟨.hbm, 136, rfl⟩
abbrev main_call0_cst_3 : Ref sig .tc := ⟨.hbm, 137, rfl⟩
abbrev main_call0_v12 : Ref sig .tc := ⟨.hbm, 138, rfl⟩
abbrev main_call0_cst_4 : Ref sig .tc := ⟨.hbm, 139, rfl⟩
abbrev main_call0_call0_v0 : Ref sig .tc := ⟨.hbm, 140, rfl⟩
abbrev main_call0_call0_v1 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_13 : Ref sig .tc := ⟨.hbm, 149, rfl⟩
abbrev main_v86 : Ref sig .tc := ⟨.hbm, 150, rfl⟩
abbrev main_cst_14 : Ref sig .tc := ⟨.hbm, 151, rfl⟩
abbrev main_v87 : Ref sig .tc := ⟨.hbm, 152, rfl⟩
abbrev main_v88 : Ref sig .tc := ⟨.hbm, 153, rfl⟩
abbrev main_c_15 : Ref sig .tc := ⟨.hbm, 154, rfl⟩
abbrev main_call1_cst : Ref sig .tc := ⟨.hbm, 155, rfl⟩
abbrev main_call1_v0 : Ref sig .tc := ⟨.hbm, 156, rfl⟩
abbrev main_call1_v1 : Ref sig .tc := ⟨.hbm, 157, rfl⟩
abbrev main_call1_cst_0 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_cst_1 : Ref sig .tc := ⟨.hbm, 165, rfl⟩
abbrev main_call1_v8 : Ref sig .tc := ⟨.hbm, 166, rfl⟩
abbrev main_call1_cst_2 : Ref sig .tc := ⟨.hbm, 167, rfl⟩
abbrev main_call1_v9 : Ref sig .tc := ⟨.hbm, 168, rfl⟩
abbrev main_call1_v10 : Ref sig .tc := ⟨.hbm, 169, rfl⟩
abbrev main_call1_v11 : Ref sig .tc := ⟨.hbm, 170, rfl⟩
abbrev main_call1_cst_3 : Ref sig .tc := ⟨.hbm, 171, rfl⟩
abbrev main_call1_v12 : Ref sig .tc := ⟨.hbm, 172, rfl⟩
abbrev main_call1_cst_4 : Ref sig .tc := ⟨.hbm, 173, rfl⟩
abbrev main_call1_call0_v0 : Ref sig .tc := ⟨.hbm, 174, rfl⟩
abbrev main_call1_call0_v1 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg7_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem7_0 : DmaSem sig := 52
abbrev cc6_sem7_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem6_0 : DmaSem sig := 61
abbrev cc7_sem7_0 : DmaSem sig := 62
abbrev cc7_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S25000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S25000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S25000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S25000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S25000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S25000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S25000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S25000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S25000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S25000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S25000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S25000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  shapeCasts_S32_S1x32 : S32.ShapeCasts S1x32
  inb_S25000x64_S25000x64_0_0 : ∀ a, (![0, 0] : Fin 2 → Nat) a + S25000x64.size a ≤ S25000x64.size a
  h_S25000x64 : 0 < S25000x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S25000x32 : S1x32.Broadcasts S25000x32
  inb_S25000x64_S25000x32_0_0 : ∀ a, (![0, 0] : Fin 2 → Nat) a + S25000x32.size a ≤ S25000x64.size a
  h_S25000x32 : 0 < S25000x32.numel
  inb_S25000x64_S25000x32_0_32 : ∀ a, (![0, 32] : Fin 2 → Nat) a + S25000x32.size a ≤ S25000x64.size a
  slices_S100000x64_S100000x32_0_0 : S100000x64.Slices ![0, 0] S100000x32
  slices_S100000x64_S100000x32_0_32 : S100000x64.Slices ![0, 32] S100000x32
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x32 : S_.BroadcastsInDim S100000x32 (![] : Fin 0 → Fin S100000x32.rank)
  inb_S25000x32_S25000x32_0_0 : ∀ a, (![0, 0] : Fin 2 → Nat) a + S25000x32.size a ≤ S25000x32.size a
  shapeCasts_S25000x32_S25000x32 : S25000x32.ShapeCasts S25000x32
  inb_S32x32_S32x32_0_0 : ∀ a, (![0, 0] : Fin 2 → Nat) a + S32x32.size a ≤ S32x32.size a
  h_S32x32 : 0 < S32x32.numel
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  shapeCasts_S25000x64_S25000x64 : S25000x64.ShapeCasts S25000x64
  inb_S64x64_S64x64_0_0 : ∀ a, (![0, 0] : Fin 2 → Nat) a + S64x64.size a ≤ S64x64.size a
  h_S64x64 : 0 < S64x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S25000x1 : S1x1.Broadcasts S25000x1
  inb_S25000x1_S25000x1_0_0 : ∀ a, (![0, 0] : Fin 2 → Nat) a + S25000x1.size a ≤ S25000x1.size a
  h_S25000x1 : 0 < S25000x1.numel
  dot_S25000x64_S64x32_S25000x32_1_0_0_1_n_n_wf : DotDims.WF S25000x64 S64x32 S25000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S25000x32_S32x32_S25000x32_1_0_0_1_n_n_wf : DotDims.WF S25000x32 S32x32 S25000x32 [1] [0] [0] [1] [] []
  dot_S25000x32_S32x64_S25000x64_1_0_0_1_n_n_wf : DotDims.WF S25000x32 S32x64 S25000x64 [1] [0] [0] [1] [] []
  dot_S25000x64_S64x64_S25000x64_1_0_0_1_n_n_wf : DotDims.WF S25000x64 S64x64 S25000x64 [1] [0] [0] [1] [] []
  dot_S25000x64_S64x1_S25000x1_1_0_0_1_n_n_wf : DotDims.WF S25000x64 S64x1 S25000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S100000x64.size a
  hwx0_0 : ∀ i : grid0.Coords, EltTy.bits .f32 = 32 ∨ (Rect.block (s := S100000x64) S25000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S25000x64.size a ≤ S100000x64.size a
  hwx0_5 : ∀ i : grid0.Coords, EltTy.bits .f32 = 32 ∨ (Rect.block (s := S100000x64) S25000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x32.size a ≤ S100000x32.size a
  hwx1_0 : ∀ i : grid1.Coords, EltTy.bits .f32 = 32 ∨ (Rect.block (s := S100000x32) S25000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S25000x64.size a ≤ S100000x64.size a
  hwx1_1 : ∀ i : grid1.Coords, EltTy.bits .f32 = 32 ∨ (Rect.block (s := S100000x64) S25000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S25000x32.size a ≤ S100000x32.size a
  hwx1_4 : ∀ i : grid1.Coords, EltTy.bits .f32 = 32 ∨ (Rect.block (s := S100000x32) S25000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x32.size a ≤ S100000x32.size a
  hwx2_0 : ∀ i : grid2.Coords, EltTy.bits .f32 = 32 ∨ (Rect.block (s := S100000x32) S25000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S25000x64.size a ≤ S100000x64.size a
  hwx2_5 : ∀ i : grid2.Coords, EltTy.bits .f32 = 32 ∨ (Rect.block (s := S100000x64) S25000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x32.size a ≤ S100000x32.size a
  hwx3_0 : ∀ i : grid3.Coords, EltTy.bits .f32 = 32 ∨ (Rect.block (s := S100000x32) S25000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S25000x32.size a ≤ S100000x32.size a
  hwx3_1 : ∀ i : grid3.Coords, EltTy.bits .f32 = 32 ∨ (Rect.block (s := S100000x32) S25000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S25000x32.size a ≤ S100000x32.size a
  hwx3_4 : ∀ i : grid3.Coords, EltTy.bits .f32 = 32 ∨ (Rect.block (s := S100000x32) S25000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25000x32.size a ≤ S100000x32.size a
  hwx4_0 : ∀ i : grid4.Coords, EltTy.bits .f32 = 32 ∨ (Rect.block (s := S100000x32) S25000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S25000x64.size a ≤ S100000x64.size a
  hwx4_3 : ∀ i : grid4.Coords, EltTy.bits .f32 = 32 ∨ (Rect.block (s := S100000x64) S25000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S25000x64.size a ≤ S100000x64.size a
  hwx5_0 : ∀ i : grid5.Coords, EltTy.bits .f32 = 32 ∨ (Rect.block (s := S100000x64) S25000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S25000x64.size a ≤ S100000x64.size a
  hwx5_3 : ∀ i : grid5.Coords, EltTy.bits .f32 = 32 ∨ (Rect.block (s := S100000x64) S25000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S25000x64.size a ≤ S100000x64.size a
  hwx6_0 : ∀ i : grid6.Coords, EltTy.bits .f32 = 32 ∨ (Rect.block (s := S100000x64) S25000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S25000x64.size a ≤ S100000x64.size a
  hwx6_7 : ∀ i : grid6.Coords, EltTy.bits .f32 = 32 ∨ (Rect.block (s := S100000x64) S25000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S25000x64.size a ≤ S100000x64.size a
  hwx7_0 : ∀ i : grid7.Coords, EltTy.bits .f32 = 32 ∨ (Rect.block (s := S100000x64) S25000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S25000x1.size a ≤ S100000x1.size a
  hwx7_7 : ∀ i : grid7.Coords, EltTy.bits .f32 = 32 ∨ (Rect.block (s := S100000x1) S25000x1.size (cc7_transform_7 i) (hinb7_7 i)).WholeWords (EltTy.packing .f32)

variable [Facts₀]

def dot_S25000x64_S64x32_S25000x32_1_0_0_1_n_n : DotDims S25000x64 S64x32 S25000x32 where
  lhsContracting := [1]
  rhsContracting := [0]
  lhsNonContracting := [0]
  rhsNonContracting := [1]
  lhsBatch := []
  rhsBatch := []
  wf := dot_S25000x64_S64x32_S25000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S25000x32_S32x32_S25000x32_1_0_0_1_n_n : DotDims S25000x32 S32x32 S25000x32 where
  lhsContracting := [1]
  rhsContracting := [0]
  lhsNonContracting := [0]
  rhsNonContracting := [1]
  lhsBatch := []
  rhsBatch := []
  wf := dot_S25000x32_S32x32_S25000x32_1_0_0_1_n_n_wf
def dot_S25000x32_S32x64_S25000x64_1_0_0_1_n_n : DotDims S25000x32 S32x64 S25000x64 where
  lhsContracting := [1]
  rhsContracting := [0]
  lhsNonContracting := [0]
  rhsNonContracting := [1]
  lhsBatch := []
  rhsBatch := []
  wf := dot_S25000x32_S32x64_S25000x64_1_0_0_1_n_n_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def dot_S25000x64_S64x1_S25000x1_1_0_0_1_n_n : DotDims S25000x64 S64x1 S25000x1 where
  lhsContracting := [1]
  rhsContracting := [0]
  lhsNonContracting := [0]
  rhsNonContracting := [1]
  lhsBatch := []
  rhsBatch := []
  wf := dot_S25000x64_S64x1_S25000x1_1_0_0_1_n_n_wf

abbrev win0_0 : Pipeline.Window sig grid0 :=
  Pipeline.Window.ofSpec (Memref.whole main_arg0) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S25000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S25000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S25000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S25000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S25000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S25000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S25000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S25000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S25000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S25000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S25000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S25000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S25000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v75) S25000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg21) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v84) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v85) S25000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v85) S25000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v91) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg25) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v94) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v95) S25000x1.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x32 : Shape := ⟨2, ![1000000, 32]⟩
abbrev S1x32 : Shape := ⟨2, ![1, 32]⟩
abbrev S100000x32 : Shape := ⟨2, ![100000, 32]⟩
abbrev S1x64 : Shape := ⟨2, ![1, 64]⟩
abbrev S100000x1 : Shape := ⟨2, ![100000, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S100000x64, .f32⟩
  | 1 => ⟨S2x1000000, .i32⟩
  | 2 => ⟨S2x1000000, .i32⟩
  | 3 => ⟨S64x32, .f32⟩
  | 4 => ⟨S32, .f32⟩
  | 5 => ⟨S64x32, .f32⟩
  | 6 => ⟨S32, .f32⟩
  | 7 => ⟨S64x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x64, .f32⟩
  | 22 => ⟨S64, .f32⟩
  | 23 => ⟨S64, .f32⟩
  | 24 => ⟨S64, .f32⟩
  | 25 => ⟨S64x1, .f32⟩
  | 26 => ⟨S1, .f32⟩
  | 27 => ⟨S1x1000000, .i32⟩
  | 28 => ⟨S1000000, .i32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1000000x32, .f32⟩
  | 39 => ⟨S1x32, .f32⟩
  | 40 => ⟨S1000000x32, .f32⟩
  | 41 => ⟨S1000000x32, .f32⟩
  | 42 => ⟨S1x1000000, .i32⟩
  | 43 => ⟨S1000000, .i32⟩
  | 44 => ⟨S_, .f32⟩
  | 45 => ⟨S100000x32, .f32⟩
  | 46 => ⟨S1000000x1, .i32⟩
  | 47 => ⟨S100000x32, .f32⟩
  | 48 => ⟨S1x1000000, .i32⟩
  | 49 => ⟨S1000000, .i32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S1000000x32, .f32⟩
  | 60 => ⟨S1x32, .f32⟩
  | 61 => ⟨S1000000x32, .f32⟩
  | 62 => ⟨S1000000x32, .f32⟩
  | 63 => ⟨S1x1000000, .i32⟩
  | 64 => ⟨S1000000, .i32⟩
  | 65 => ⟨S_, .f32⟩
  | 66 => ⟨S100000x32, .f32⟩
  | 67 => ⟨S1000000x1, .i32⟩
  | 68 => ⟨S100000x32, .f32⟩
  | 69 => ⟨S100000x32, .f32⟩
  | 70 => ⟨S100000x32, .f32⟩
  | 71 => ⟨S100000x32, .f32⟩
  | 72 => ⟨S1x32, .f32⟩
  | 73 => ⟨S100000x32, .f32⟩
  | 74 => ⟨S100000x32, .f32⟩
  | 75 => ⟨S100000x32, .f32⟩
  | 76 => ⟨S1x1000000, .i32⟩
  | 77 => ⟨S1000000, .i32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x32, .f32⟩
  | 87 => ⟨S1000000x32, .f32⟩
  | 88 => ⟨S1x32, .f32⟩
  | 89 => ⟨S1000000x32, .f32⟩
  | 90 => ⟨S1000000x32, .f32⟩
  | 91 => ⟨S1x1000000, .i32⟩
  | 92 => ⟨S1000000, .i32⟩
  | 93 => ⟨S_, .f32⟩
  | 94 => ⟨S100000x32, .f32⟩
  | 95 => ⟨S1000000x1, .i32⟩
  | 96 => ⟨S100000x32, .f32⟩
  | 97 => ⟨S1x1000000, .i32⟩
  | 98 => ⟨S1000000, .i32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x32, .f32⟩
  | 108 => ⟨S1000000x32, .f32⟩
  | 109 => ⟨S1x32, .f32⟩
  | 110 => ⟨S1000000x32, .f32⟩
  | 111 => ⟨S1000000x32, .f32⟩
  | 112 => ⟨S1x1000000, .i32⟩
  | 113 => ⟨S1000000, .i32⟩
  | 114 => ⟨S_, .f32⟩
  | 115 => ⟨S100000x32, .f32⟩
  | 116 => ⟨S1000000x1, .i32⟩
  | 117 => ⟨S100000x32, .f32⟩
  | 118 => ⟨S100000x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S100000x32, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x1, .f32⟩
  | 105 => ⟨S1x1, .f32⟩
  | 106 => ⟨S100000x1, .f32⟩
  | 107 => ⟨S100000x1, .f32⟩
  | 108 => ⟨S100000x1, .f32⟩
  | 109 => ⟨S100000x1, .f32⟩
  | 110 => ⟨S_, .f32⟩
  | 111 => ⟨S100000x1, .f32⟩
  | 112 => ⟨S100000x1, .f32⟩
  | 113 => ⟨S_, .f32⟩
  | 114 => ⟨S100000x1, .f32⟩
  | 115 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_1 : Ref sig .tc := ⟨.hbm, 50, rfl⟩
abbrev main_v20 : Ref sig .tc := ⟨.hbm, 51, rfl⟩
abbrev main_v21 : Ref sig .tc := ⟨.hbm, 52, rfl⟩
abbrev main_c_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_4 : Ref sig .tc := ⟨.hbm, 78, rfl⟩
abbrev main_v45 : Ref sig .tc := ⟨.hbm, 79, rfl⟩
abbrev main_v46 : Ref sig .tc := ⟨.hbm, 80, rfl⟩
abbrev main_c_5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_7 : Ref sig .tc := ⟨.hbm, 99, rfl⟩
abbrev main_v63 : Ref sig .tc := ⟨.hbm, 100, rfl⟩
abbrev main_v64 : Ref sig .tc := ⟨.hbm, 101, rfl⟩
abbrev main_c_8 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_9 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_10 : Ref sig .tc := ⟨.hbm, 134, rfl⟩
abbrev main_v95 : Ref sig .tc := ⟨.hbm, 135, rfl⟩
abbrev main_cst_11 : Ref sig .tc := ⟨.hbm, 136, rfl⟩
abbrev main_v96 : Ref sig .tc := ⟨.hbm, 137, rfl⟩
abbrev main_v97 : Ref sig .tc := ⟨.hbm, 138, rfl⟩
abbrev main_c_12 : Ref sig .tc := ⟨.hbm, 139, rfl⟩
abbrev main_call0_cst : Ref sig .tc := ⟨.hbm, 140, rfl⟩
abbrev main_call0_v0 : Ref sig .tc := ⟨.hbm, 141, rfl⟩
abbrev main_call0_v1 : Ref sig .tc := ⟨.hbm, 142, rfl⟩
abbrev main_call0_cst_0 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_v5 : Ref sig .tc := ⟨.hbm, 147, rfl⟩
abbrev main_call0_v6 : Ref sig .tc := ⟨.hbm, 148, rfl⟩
abbrev main_call0_v7 : Ref sig .tc := ⟨.hbm, 149, rfl⟩
abbrev main_call0_cst_1 : Ref sig .tc := ⟨.hbm, 150, rfl⟩
abbrev main_call0_v8 : Ref sig .tc := ⟨.hbm, 151, rfl⟩
abbrev main_call0_cst_2 : Ref sig .tc := ⟨.hbm, 152, rfl⟩
abbrev main_call0_v9 : Ref sig .tc := ⟨.hbm, 153, rfl⟩
abbrev main_call0_v10 : Ref sig .tc := ⟨.hbm, 154, rfl⟩
abbrev main_call0_v11 : Ref sig .tc := ⟨.hbm, 155, rfl⟩
abbrev main_call0_cst_3 : Ref sig .tc := ⟨.hbm, 156, rfl⟩
abbrev main_call0_v12 : Ref sig .tc := ⟨.hbm, 157, rfl⟩
abbrev main_call0_cst_4 : Ref sig .tc := ⟨.hbm, 158, rfl⟩
abbrev main_call0_call0_v0 : Ref sig .tc := ⟨.hbm, 159, rfl⟩
abbrev main_call0_call0_v1 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_13 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_call1_cst : Ref sig .tc := ⟨.hbm, 178, rfl⟩
abbrev main_call1_v0 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_14 : Ref sig .tc := ⟨.hbm, 185, rfl⟩
abbrev main_v119 : Ref sig .tc := ⟨.hbm, 186, rfl⟩
abbrev main_cst_15 : Ref sig .tc := ⟨.hbm, 187, rfl⟩
abbrev main_v120 : Ref sig .tc := ⟨.hbm, 188, rfl⟩
abbrev main_v121 : Ref sig .tc := ⟨.hbm, 189, rfl⟩
abbrev main_c_16 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_cst_0 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_call2_v5 : Ref sig .tc := ⟨.hbm, 198, rfl⟩
abbrev main_call2_v6 : Ref sig .tc := ⟨.hbm, 199, rfl⟩
abbrev main_call2_v7 : Ref sig .tc := ⟨.hbm, 200, rfl⟩
abbrev main_call2_cst_1 : Ref sig .tc := ⟨.hbm, 201, rfl⟩
abbrev main_call2_v8 : Ref sig .tc := ⟨.hbm, 202, rfl⟩
abbrev main_call2_cst_2 : Ref sig .tc := ⟨.hbm, 203, rfl⟩
abbrev main_call2_v9 : Ref sig .tc := ⟨.hbm, 204, rfl⟩
abbrev main_call2_v10 : Ref sig .tc := ⟨.hbm, 205, rfl⟩
abbrev main_call2_v11 : Ref sig .tc := ⟨.hbm, 206, rfl⟩
abbrev main_call2_cst_3 : Ref sig .tc := ⟨.hbm, 207, rfl⟩
abbrev main_call2_v12 : Ref sig .tc := ⟨.hbm, 208, rfl⟩
abbrev main_call2_cst_4 : Ref sig .tc := ⟨.hbm, 209, rfl⟩
abbrev main_call2_call0_v0 : Ref sig .tc := ⟨.hbm, 210, rfl⟩
abbrev main_call2_call0_v1 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_17 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_call3_cst : Ref sig .tc := ⟨.hbm, 229, rfl⟩
abbrev main_call3_v0 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_cst_18 : Ref sig .tc := ⟨.hbm, 238, rfl⟩
abbrev main_v145 : Ref sig .tc := ⟨.hbm, 239, rfl⟩
abbrev main_v146 : Ref sig .tc := ⟨.hbm, 240, rfl⟩
abbrev main_cst_19 : Ref sig .tc := ⟨.hbm, 241, rfl⟩
abbrev main_v147 : Ref sig .tc := ⟨.hbm, 242, rfl⟩
abbrev main_v148 : Ref sig .tc := ⟨.hbm, 243, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  slices_S2x1000000_S1x1000000_1_0 : S2x1000000.Slices ![1, 0] S1x1000000
  bcast_S_S100000x32 : S_.BroadcastsInDim S100000x32 (![] : Fin 0 → Fin S100000x32.rank)
  bcast_S1x32_S100000x32_0_1 : S1x32.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1000000x1_S1000000x64_1_0_n_n_0_1_164_wf : GatherDims.WF S100000x64 S1000000x1 S1000000x64 [1] [0] [] [0] [] 1 ![1, 64]
  dot_S1000000x64_S64x32_S1000000x32_1_0_0_1_n_n_wf : DotDims.WF S1000000x64 S64x32 S1000000x32 [1] [0] [0] [1] [] []
  scatter_S100000x32_S1000000x1_S1000000x32_1_0_0_1_wf : ScatterDims.WF S100000x32 S1000000x1 S1000000x32 [1] [0] [0] 1
  dot_S100000x64_S64x32_S100000x32_1_0_0_1_n_n_wf : DotDims.WF S100000x64 S64x32 S100000x32 [1] [0] [0] [1] [] []
  gather_S100000x32_S1000000x1_S1000000x32_1_0_n_n_0_1_132_wf : GatherDims.WF S100000x32 S1000000x1 S1000000x32 [1] [0] [] [0] [] 1 ![1, 32]
  dot_S1000000x32_S32x32_S1000000x32_1_0_0_1_n_n_wf : DotDims.WF S1000000x32 S32x32 S1000000x32 [1] [0] [0] [1] [] []
  dot_S100000x32_S32x32_S100000x32_1_0_0_1_n_n_wf : DotDims.WF S100000x32 S32x32 S100000x32 [1] [0] [0] [1] [] []
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic

/-!
# The layers of the network as functions of whole arrays, index by index

Every array is a function from its indices to the extended reals. A matrix with `r` rows and `c` columns is
indexed by the pairs `ix2 p n`; a bias, a mean, a variance, a scale or a shift over `c` features is carried as a
matrix of ONE row. The layers:

* `affine x W b` — `x · W + b`: at (p, n) the sum over q of x(p, q) · W(q, n), plus b(0, n);
* `sideBySide a b` — two matrices of 32 columns laid side by side into one of 64;
* `combine agg x W b` — `tanh (agg + x · W + b)`, the sums taken in that order;
* `denseTanh x W b` — `tanh (x · W + b)`;
* `bnRelu h mean var g beta` — `max ((h − mean) · rsqrt (var + ε) · g + beta) 0`, feature by feature;
* `bnDense`, `bnDenseSig` — the affine layer after `bnRelu`, and its logistic.
-/

noncomputable section

open scoped BigOperators

namespace Cert.Spec

open Idealize.ShloMosaic Idealize.ShloMosaic.ValueIdx

/-- A matrix of extended reals with `r` rows and `c` columns. -/
abbrev Mat (r c : Nat) : Type := (⟨2, ![r, c]⟩ : Shape).Idx → EReal

/-- A vector of extended reals with `c` entries. -/
abbrev Row (c : Nat) : Type := (⟨1, ![c]⟩ : Shape).Idx → EReal

/-- The row coordinate of a matrix index. -/
def row {r c : Nat} (i : (⟨2, ![r, c]⟩ : Shape).Idx) : Fin r := i 0

/-- The column coordinate of a matrix index. -/
def col {r c : Nat} (i : (⟨2, ![r, c]⟩ : Shape).Idx) : Fin c := i 1

/-- A vector laid out as a matrix of one row. -/
def asRow {c : Nat} (b : Row c) : Mat 1 c := fun i => b (ix1 (col i))

/-- `x · W + b`: at (p, n) the sum over q of x(p, q) · W(q, n), plus b(0, n). -/
def affine {R K C : Nat} (x : Mat R K) (W : Mat K C) (b : Mat 1 C) : Mat R C :=
  fun i => (∑ q : Fin K, x (ix2 (row i) q) * W (ix2 q (col i))) + b (ix2 0 (col i))

/-- Two matrices of 32 columns side by side: columns 0–31 are `a`'s, columns 32–63 are `b`'s. -/
def sideBySide {R : Nat} (a b : Mat R 32) : Mat R 64 :=
  fun i => if h : (col i).val < 32 then a (ix2 (row i) ⟨(col i).val, h⟩)
    else b (ix2 (row i) ⟨(col i).val - 32, by have := (col i).isLt; omega⟩)

/-- `tanh ((agg + x · W) + b)`. -/
def combine {R K C : Nat} (agg : Mat R C) (x : Mat R K) (W : Mat K C) (b : Mat 1 C) : Mat R C :=
  fun i => Ideal.tanh ((agg i + ∑ q : Fin K, x (ix2 (row i) q) * W (ix2 q (col i))) + b (ix2 0 (col i)))

/-- `tanh (x · W + b)`. -/
def denseTanh {R K C : Nat} (x : Mat R K) (W : Mat K C) (b : Mat 1 C) : Mat R C :=
  fun i => Ideal.tanh (affine x W b i)

/-- The batch-norm epsilon: the float nearest 1e-5, as its exact binary value. -/
def eps : EReal := Ideal.ofBits .f32 0x3727C5AC#32

/-- `max (((h − mean) · rsqrt (var + ε)) · g + beta) 0`, feature by feature. -/
def bnRelu {R C : Nat} (h : Mat R C) (mean var g beta : Mat 1 C) : Mat R C :=
  fun i => max ((((h i - mean (ix2 0 (col i))) * Ideal.rsqrt (var (ix2 0 (col i)) + eps)) * g (ix2 0 (col i)))
    + beta (ix2 0 (col i))) 0

/-- The affine layer after `bnRelu`. -/
def bnDense {R K C : Nat} (h : Mat R K) (mean var g beta : Mat 1 K) (W : Mat K C) (b : Mat 1 C) : Mat R C :=
  affine (bnRelu h mean var g beta) W b

/-- The logistic of the affine layer after `bnRelu`. -/
def bnDenseSig {R K C : Nat} (h : Mat R K) (mean var g beta : Mat 1 K) (W : Mat K C) (b : Mat 1 C) : Mat R C :=
  fun i => Ideal.logistic (bnDense h mean var g beta W b i)

end Cert.Spec

end
-- ==== Proof.KRegStmt.lean ====
import proofs.«401691_j50775103373990_2_alg».proof.Proof.Gen.KernelIdeal.Frame
import proofs.«401691_j50775103373990_2_alg».proof.Proof.Spec

/-! The values of the eight regions, as one record of statements: what each region's output array holds after the
region, as a layer of the arrays it read, for ANY contents `V` at the region's entry. -/

set_option maxRecDepth 16384

noncomputable section

namespace Cert.KernelIdeal.Regions

open Cert.KernelIdeal Cert.KernelIdeal.Gen Idealize.ShloMosaic Idealize.ShloMosaic.TcCoe Idealize.SL.Sem

/-- Each region's output array, after the region, is its layer of the region's input arrays as entered. -/
structure Values : Prop where
  v0 : ∀ (V : (c : Dev nD) → (b : Ref sig .tc) → Buf (Elt Ideal) ((c : Thread nD τ).loc b)) (c : Dev nD),
    (dat0 (F := Ideal) V c).arrAt 5 cfg0.N
      = Cert.Spec.sideBySide (Cert.Spec.affine (V c main_arg0) (V c main_arg3) (V c main_v0)) (Cert.Spec.affine (V c main_arg0) (V c main_arg5) (V c main_v1))
  v1 : ∀ (V : (c : Dev nD) → (b : Ref sig .tc) → Buf (Elt Ideal) ((c : Thread nD τ).loc b)) (c : Dev nD),
    (dat1 (F := Ideal) V c).arrAt 4 cfg1.N = Cert.Spec.combine (V c main_v33) (V c main_arg0) (V c main_arg7) (V c main_v34)
  v2 : ∀ (V : (c : Dev nD) → (b : Ref sig .tc) → Buf (Elt Ideal) ((c : Thread nD τ).loc b)) (c : Dev nD),
    (dat2 (F := Ideal) V c).arrAt 5 cfg2.N
      = Cert.Spec.sideBySide (Cert.Spec.affine (V c main_v35) (V c main_arg9) (V c main_v36)) (Cert.Spec.affine (V c main_v35) (V c main_arg11) (V c main_v37))
  v3 : ∀ (V : (c : Dev nD) → (b : Ref sig .tc) → Buf (Elt Ideal) ((c : Thread nD τ).loc b)) (c : Dev nD),
    (dat3 (F := Ideal) V c).arrAt 4 cfg3.N = Cert.Spec.combine (V c main_v69) (V c main_v35) (V c main_arg13) (V c main_v70)
  v4 : ∀ (V : (c : Dev nD) → (b : Ref sig .tc) → Buf (Elt Ideal) ((c : Thread nD τ).loc b)) (c : Dev nD),
    (dat4 (F := Ideal) V c).arrAt 3 cfg4.N = Cert.Spec.denseTanh (V c main_v71) (V c main_arg15) (V c main_v72)
  v5 : ∀ (V : (c : Dev nD) → (b : Ref sig .tc) → Buf (Elt Ideal) ((c : Thread nD τ).loc b)) (c : Dev nD),
    (dat5 (F := Ideal) V c).arrAt 3 cfg5.N = Cert.Spec.affine (V c main_v73) (V c main_arg17) (V c main_v74)
  v6 : ∀ (V : (c : Dev nD) → (b : Ref sig .tc) → Buf (Elt Ideal) ((c : Thread nD τ).loc b)) (c : Dev nD),
    (dat6 (F := Ideal) V c).arrAt 7 cfg6.N
      = Cert.Spec.bnDense (V c main_v75) (V c main_v80) (V c main_v81) (V c main_v82) (V c main_v83) (V c main_arg21) (V c main_v84)
  v7 : ∀ (V : (c : Dev nD) → (b : Ref sig .tc) → Buf (Elt Ideal) ((c : Thread nD τ).loc b)) (c : Dev nD),
    (dat7 (F := Ideal) V c).arrAt 7 cfg7.N
      = Cert.Spec.bnDenseSig (V c main_v85) (V c main_v90) (V c main_v91) (V c main_v92) (V c main_v93) (V c main_arg25) (V c main_v94)

end Cert.KernelIdeal.Regions

end
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.KReg0.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# Region 0: the first layer's two projections, side by side

The region takes a 100000 × 64 input x, two 64 × 32 weights and two 1 × 32 biases, and leaves the 100000 × 64
array whose columns 0–31 are x · Wp + bp and whose columns 32–63 are x · Wn + bn. It works on four blocks of
25000 rows. Read here, index by index, on the extended reals:

* each product of a block at (p, n) is the sum over q of x(p, q) · W(q, n), plus b(0, n) (the accumulator is zero);
* the block a grid point leaves is the two affine layers of its 25000 rows, side by side;
* rows k · 25000 … k · 25000 + 24999 of the layer of the whole input are the layer of those rows;
* the block of row r is block r / 25000, so the four blocks cover the array, and the array after the region is
  `sideBySide (affine x Wp bp) (affine x Wn bn)` of the arrays as the region finds them (`value0`).
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Project0

/-- The zero offsets of a whole block. -/
theorem zero_offsets : (![0, 0] : Fin 2 → Nat) = fun _ => 0 := funext fun a => by fin_cases a <;> rfl

/-! ## The two products of a block, read at an index -/

/-- The first product of a block read at (p, n): the sum over q of x(p, q) · W(q, n), plus b(0, n). -/
theorem proj1_apply (x : Vec Ideal S25000x64 .f32) (w : Vec Ideal S64x32 .f32) (b : Vec Ideal S1x32 .f32)
    (p : Fin 25000) (n : Fin 32) :
    k0_pay1 (F := Ideal) x w b (ix2 p n) = (∑ q : Fin 64, x (ix2 p q) * w (ix2 q n)) + b (ix2 0 n) := by
  unfold k0_pay1
  simp only [shapeCast_self]
  rw [addf_apply]
  have hm := Cert.MatmulPlain.matmul_plain_apply dot_S25000x64_S64x32_S25000x32_1_0_0_1_n_n rfl rfl rfl rfl rfl rfl
    (φ₁ := .f32) (φ₂ := .f32) none x w (constant (F := Ideal) S25000x32 .f32 0x00000000#32) p n
  rw [constant_apply, Ideal.ofBits_zero_f32, zero_add] at hm
  have hb := broadcastTo_apply b broadcasts_S1x32_S25000x32 (ix2 p n) (ix2 0 n) (fun a => by
    match a with
    | ⟨0, _⟩ => rfl
    | ⟨1, _⟩ => rfl)
  exact congrArg₂ (· + ·) hm hb

/-- The second product of a block read at (p, n): the same sum with the second weight and bias. -/
theorem proj2_apply (x : Vec Ideal S25000x64 .f32) (w : Vec Ideal S64x32 .f32) (b : Vec Ideal S1x32 .f32)
    (p : Fin 25000) (n : Fin 32) :
    k0_pay2 (F := Ideal) x w b (ix2 p n) = (∑ q : Fin 64, x (ix2 p q) * w (ix2 q n)) + b (ix2 0 n) := by
  unfold k0_pay2
  simp only [shapeCast_self]
  rw [addf_apply]
  have hm := Cert.MatmulPlain.matmul_plain_apply dot_S25000x64_S64x32_S25000x32_1_0_0_1_n_n rfl rfl rfl rfl rfl rfl
    (φ₁ := .f32) (φ₂ := .f32) none x w (constant (F := Ideal) S25000x32 .f32 0x00000000#32) p n
  rw [constant_apply, Ideal.ofBits_zero_f32, zero_add] at hm
  have hb := broadcastTo_apply b broadcasts_S1x32_S25000x32 (ix2 p n) (ix2 0 n) (fun a => by
    match a with
    | ⟨0, _⟩ => rfl
    | ⟨1, _⟩ => rfl)
  exact congrArg₂ (· + ·) hm hb

/-! ## Two matrices side by side, read in either half -/

/-- In columns 0–31 the side-by-side matrix is its left part. -/
theorem sideBySide_left {R : Nat} (a b : Cert.Spec.Mat R 32) (i : (⟨2, ![R, 64]⟩ : Shape).Idx) (p : Fin R) (n : Fin 32)
    (hr : (i 0).val = p.val) (hc : (i 1).val = n.val) : Cert.Spec.sideBySide a b i = a (ix2 p n) := by
  unfold Cert.Spec.sideBySide
  have hn := n.isLt
  rw [dif_pos (show (Cert.Spec.col i).val < 32 from by show (i 1).val < 32; omega)]
  exact congrArg a (congrArg₂ ix2 (Fin.ext hr) (Fin.ext hc))

/-- In columns 32–63 it is its right part, 32 columns back. -/
theorem sideBySide_right {R : Nat} (a b : Cert.Spec.Mat R 32) (i : (⟨2, ![R, 64]⟩ : Shape).Idx) (p : Fin R) (n : Fin 32)
    (hr : (i 0).val = p.val) (hc : (i 1).val = 32 + n.val) : Cert.Spec.sideBySide a b i = b (ix2 p n) := by
  unfold Cert.Spec.sideBySide
  rw [dif_neg (show ¬ (Cert.Spec.col i).val < 32 from by show ¬ (i 1).val < 32; omega)]
  exact congrArg b (congrArg₂ ix2 (Fin.ext hr) (Fin.ext (by show (i 1).val - 32 = n.val; omega)))

/-- The affine layer at a matrix index. -/
theorem affine_ix2 {R K C : Nat} (x : Cert.Spec.Mat R K) (W : Cert.Spec.Mat K C) (b : Cert.Spec.Mat 1 C) (p : Fin R) (n : Fin C) :
    Cert.Spec.affine x W b (ix2 p n) = (∑ q : Fin K, x (ix2 p q) * W (ix2 q n)) + b (ix2 0 n) := rfl

/-! ## What the body leaves in its block -/

/-- The body's block: the two affine layers of the input block, side by side. The first product fills columns 0–31,
    the second columns 32–63. -/
theorem body_block (x0 : Vec Ideal S25000x64 .f32) (x1 : Vec Ideal S64x32 .f32) (x2 : Vec Ideal S1x32 .f32)
    (x3 : Vec Ideal S64x32 .f32) (x4 : Vec Ideal S1x32 .f32) :
    out0_5 (F := Ideal) x0 x1 x2 x3 x4
      = Cert.Spec.sideBySide (Cert.Spec.affine x0 x1 x2) (Cert.Spec.affine x0 x3 x4) := by
  funext y
  unfold out0_5
  simp only [View.ld_unit_zero (S := S25000x64) zero_offsets, View.ld_unit_zero (S := S64x32) zero_offsets,
    View.ld_unit_zero (S := S1x32) zero_offsets]
  refine View.canon_apply_of_pieces (Val := Elt Ideal) (S := S25000x64) (e := .f32)
    (Cert.Spec.sideBySide (Cert.Spec.affine x0 x1 x2) (Cert.Spec.affine x0 x3 x4)) _ ?_ y (cover0_5 _ _ y)
  intro pc hpc
  rcases List.mem_cons.mp hpc with rfl | hpc
  · intro x
    obtain ⟨p, n, rfl⟩ : ∃ (p : Fin 25000) (n : Fin 32), x = ix2 p n := ⟨x 0, x 1, eq_ix2 x⟩
    show k0_pay2 (F := Ideal) x0 x3 x4 (ix2 p n) = Cert.Spec.sideBySide _ _ (r0_4.emb (ix2 p n))
    rw [proj2_apply, sideBySide_right _ _ _ p n (by show 0 + 1 * p.val = p.val; omega)
      (by show 32 + 1 * n.val = 32 + n.val; omega)]
    rfl
  · obtain rfl : pc = ⟨r0_3, k0_pay1 (F := Ideal) x0 x1 x2⟩ := List.mem_singleton.mp hpc
    intro x
    obtain ⟨p, n, rfl⟩ : ∃ (p : Fin 25000) (n : Fin 32), x = ix2 p n := ⟨x 0, x 1, eq_ix2 x⟩
    show k0_pay1 (F := Ideal) x0 x1 x2 (ix2 p n) = Cert.Spec.sideBySide _ _ (r0_3.emb (ix2 p n))
    rw [proj1_apply, sideBySide_left _ _ _ p n (by show 0 + 1 * p.val = p.val; omega)
      (by show 0 + 1 * n.val = n.val; omega)]
    rfl

/-! ## A block of the layer is the layer of the block -/

/-- Rows k · 25000 … k · 25000 + 24999 of the layer of the whole input are the layer of those rows of the input. -/
theorem layer_rows (X : Cert.Spec.Mat 100000 64) (Wp Wn : Cert.Spec.Mat 64 32) (bp bn : Cert.Spec.Mat 1 32) (k : Nat)
    (x0 : Cert.Spec.Mat 25000 64)
    (hx : ∀ (p : Fin 25000) (q : Fin 64) (r : Fin 100000), r.val = k * 25000 + p.val → x0 (ix2 p q) = X (ix2 r q))
    (j : (⟨2, ![25000, 64]⟩ : Shape).Idx) (i : (⟨2, ![100000, 64]⟩ : Shape).Idx)
    (h0 : (i 0).val = k * 25000 + (j 0).val) (h1 : (i 1).val = (j 1).val) :
    Cert.Spec.sideBySide (Cert.Spec.affine x0 Wp bp) (Cert.Spec.affine x0 Wn bn) j
      = Cert.Spec.sideBySide (Cert.Spec.affine X Wp bp) (Cert.Spec.affine X Wn bn) i := by
  obtain ⟨p, m, rfl⟩ : ∃ (p : Fin 25000) (m : Fin 64), j = ix2 p m := ⟨j 0, j 1, eq_ix2 j⟩
  obtain ⟨r, m', rfl⟩ : ∃ (r : Fin 100000) (m' : Fin 64), i = ix2 r m' := ⟨i 0, i 1, eq_ix2 i⟩
  have h0' : r.val = k * 25000 + p.val := h0
  have h1' : m'.val = m.val := h1
  have hm := m.isLt
  by_cases hc : m.val < 32
  · rw [sideBySide_left _ _ (ix2 p m) p ⟨m.val, hc⟩ rfl rfl, sideBySide_left _ _ (ix2 r m') r ⟨m.val, hc⟩ rfl h1',
      affine_ix2, affine_ix2]
    exact congrArg (· + _) (Finset.sum_congr rfl fun q _ => by rw [hx p q r h0'])
  · have hn : m.val - 32 < 32 := by omega
    rw [sideBySide_right _ _ (ix2 p m) p ⟨m.val - 32, hn⟩ rfl (by show m.val = 32 + (m.val - 32); omega),
      sideBySide_right _ _ (ix2 r m') r ⟨m.val - 32, hn⟩ rfl (by show m'.val = 32 + (m.val - 32); omega),
      affine_ix2, affine_ix2]
    exact congrArg (· + _) (Finset.sum_congr rfl fun q _ => by rw [hx p q r h0'])

/-! ## The blocks the body reads, as parts of their arrays -/

/-- The index maps over the four grid points: the input and the output sit at block (t, 0), the weights and the biases
    at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input's block at point t is rows t · 25000 … t · 25000 + 24999 of the input. -/
theorem input_block (c : Dev nD) (t : Fin cfg0.N) (p : Fin 25000) (q : Fin 64) (r : Fin 100000)
    (hr : r.val = t.val * 25000 + p.val) :
    (iblk0 (F := Ideal) V c 0 t : Vec Ideal S25000x64 .f32) (ix2 p q)
      = (V c main_arg0 : S100000x64.Idx → Elt Ideal .f32) (ix2 r q) := by
  obtain ⟨e0, e1, -⟩ := idx_facts t
  show V c main_arg0 (((cfg0.win 0).blk t).view.emb (ix2 p q)) = V c main_arg0 (ix2 r q)
  refine congrArg (V c main_arg0) (funext fun a => Fin.ext ?_)
  match a with
  | ⟨0, _⟩ => show win0_0.index t (0 : Fin 2) * 25000 + 1 * p.val = r.val; rw [e0, hr]; omega
  | ⟨1, _⟩ => show win0_0.index t (1 : Fin 2) * 64 + 1 * q.val = q.val; rw [e1]; omega

/-- The first weight is read whole: its block at any point is the array. -/
theorem wp_block (c : Dev nD) (t : Fin cfg0.N) :
    (iblk0 (F := Ideal) V c 1 t : Vec Ideal S64x32 .f32) = (V c main_arg3 : S64x32.Idx → Elt Ideal .f32) := by
  obtain ⟨-, -, e0, e1, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 64 + 1 * (y 0).val = (y 0).val; rw [e0]; omega
  | ⟨1, _⟩ => show win0_1.index t (1 : Fin 2) * 32 + 1 * (y 1).val = (y 1).val; rw [e1]; omega

/-- So is the first bias. -/
theorem bp_block (c : Dev nD) (t : Fin cfg0.N) :
    (iblk0 (F := Ideal) V c 2 t : Vec Ideal S1x32 .f32) = (V c main_v0 : S1x32.Idx → Elt Ideal .f32) := by
  obtain ⟨-, -, -, -, e0, e1, -⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- So is the second weight. -/
theorem wn_block (c : Dev nD) (t : Fin cfg0.N) :
    (iblk0 (F := Ideal) V c 3 t : Vec Ideal S64x32 .f32) = (V c main_arg5 : S64x32.Idx → Elt Ideal .f32) := by
  obtain ⟨-, -, -, -, -, -, e0, e1, -⟩ := idx_facts t
  funext y
  show V c main_arg5 (((cfg0.win 3).blk t).view.emb y) = V c main_arg5 y
  refine congrArg (V c main_arg5) (funext fun a => Fin.ext ?_)
  match a with
  | ⟨0, _⟩ => show win0_3.index t (0 : Fin 2) * 64 + 1 * (y 0).val = (y 0).val; rw [e0]; omega
  | ⟨1, _⟩ => show win0_3.index t (1 : Fin 2) * 32 + 1 * (y 1).val = (y 1).val; rw [e1]; omega

/-- So is the second bias. -/
theorem bn_block (c : Dev nD) (t : Fin cfg0.N) :
    (iblk0 (F := Ideal) V c 4 t : Vec Ideal S1x32 .f32) = (V c main_v1 : S1x32.Idx → Elt Ideal .f32) := by
  obtain ⟨-, -, -, -, -, -, -, -, e0, e1, -⟩ := idx_facts t
  funext y
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-! ## What each point writes back, and the array -/

/-- Point t writes back block t of the layer of the arrays as the region finds them. -/
theorem flushed_eq (c : Dev nD) (t : Fin cfg0.N) :
    (dat0 (F := Ideal) V c).flushed 5 t = ((cfg0.win 5).blk t).view.read (Elt Ideal)
      (Cert.Spec.sideBySide (Cert.Spec.affine (V c main_arg0) (V c main_arg3) (V c main_v0))
        (Cert.Spec.affine (V c main_arg0) (V c main_arg5) (V c main_v1))) := by
  show (cfg0.win 5).cut (grid0.coords t) ((dat0 V c).after 5 t) = _
  rw [after0_5]
  obtain ⟨-, -, -, -, -, -, -, -, -, -, e0, e1⟩ := idx_facts t
  funext j
  show out0_5 (F := Ideal) (iblk0 V c 0 t) (iblk0 V c 1 t) (iblk0 V c 2 t) (iblk0 V c 3 t) (iblk0 V c 4 t) j
    = Cert.Spec.sideBySide (Cert.Spec.affine (V c main_arg0) (V c main_arg3) (V c main_v0))
        (Cert.Spec.affine (V c main_arg0) (V c main_arg5) (V c main_v1)) (((cfg0.win 5).blk t).view.emb j)
  rw [body_block (iblk0 V c 0 t) (iblk0 V c 1 t) (iblk0 V c 2 t) (iblk0 V c 3 t) (iblk0 V c 4 t),
    wp_block V c t, bp_block V c t, wn_block V c t, bn_block V c t]
  refine layer_rows _ _ _ _ _ t.val _ (fun p q r hr => input_block V c t p q r hr) j _ ?_ ?_
  · show win0_5.index t (0 : Fin 2) * 25000 + 1 * (j 0).val = _; rw [e0]; omega
  · show win0_5.index t (1 : Fin 2) * 64 + 1 * (j 1).val = _; rw [e1]; omega

/-- An index of the array is in point t's block iff each coordinate is in the block's range on its axis. -/
theorem mem_blk (t : Fin cfg0.N) (i : S100000x64.Idx) :
    i ∈ ((cfg0.win 5).blk t).view.set ↔ ∀ a : Fin 2, win0_5.index t a * S25000x64.size a ≤ (i a).val
      ∧ (i a).val < win0_5.index t a * S25000x64.size a + S25000x64.size a := by
  show i ∈ ((View.whole main_v2).slice (win0_5.rect t)).set ↔ _
  rw [View.set_slice_whole, Rect.mem_set_unit]
  exact Iff.rfl

/-- Row r is in the block of point r / 25000, whatever the column. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 4 := N_0
  have ht : (i 0).val / 25000 < cfg0.N := by rw [hN]; omega
  obtain ⟨-, -, -, -, -, -, -, -, -, -, e0, e1⟩ := idx_facts ⟨(i 0).val / 25000, ht⟩
  refine ⟨⟨(i 0).val / 25000, ht⟩, flush0_5 _, ?_⟩
  rw [mem_blk]
  intro a
  match a with
  | ⟨0, _⟩ =>
    show win0_5.index ⟨(i 0).val / 25000, ht⟩ (0 : Fin 2) * 25000 ≤ (i 0).val
      ∧ (i 0).val < win0_5.index ⟨(i 0).val / 25000, ht⟩ (0 : Fin 2) * 25000 + 25000
    rw [e0]; show (i 0).val / 25000 * 25000 ≤ (i 0).val ∧ (i 0).val < (i 0).val / 25000 * 25000 + 25000; omega
  | ⟨1, _⟩ =>
    show win0_5.index ⟨(i 0).val / 25000, ht⟩ (1 : Fin 2) * 64 ≤ (i 1).val
      ∧ (i 1).val < win0_5.index ⟨(i 0).val / 25000, ht⟩ (1 : Fin 2) * 64 + 64
    rw [e1]; omega

end Project0

/-- THE ARRAY after region 0: the two affine layers of the input features, side by side. -/
theorem value0 (c : Dev nD) : (dat0 (F := Ideal) V c).arrAt 5 cfg0.N
      = Cert.Spec.sideBySide (Cert.Spec.affine (V c main_arg0) (V c main_arg3) (V c main_v0)) (Cert.Spec.affine (V c main_arg0) (V c main_arg5) (V c main_v1)) :=
  (dat0 (F := Ideal) V c).arrAt_eq_of_cover 5 _ (fun t _ => Project0.flushed_eq V c t) Project0.covered

end Cert.KernelIdeal.Regions

end
-- ==== Proof.KReg1.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# Region 1: the combine layer, tanh ((agg + x · W) + b), as one function of whole arrays

The region walks the 100000 rows in four blocks of 25000. At each block it reads the aggregate's rows and x's rows of
that block, the whole 64×32 weight matrix and the whole one-row bias, and stores, at (p, n),
tanh ((agg(p, n) + ∑ q, x(p, q) · W(q, n)) + b(0, n)): the matrix unit's product into a zero accumulator is the plain
sum over the 64 contracted positions. Row p of block t is row 25000·t + p of the arrays, the four blocks tile the output,
so the output array after the region is the layer `Cert.Spec.combine` of the arrays the region found, entry by entry.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offsets of a load or store of a whole block are zero on both axes. -/
theorem zeroOffsets1 : (![0, 0] : Fin 2 → Nat) = fun _ => 0 :=
  funext fun a => by match a with | ⟨0, _⟩ => rfl | ⟨1, _⟩ => rfl

/-- THE BODY'S STORE AT (p, n), from the four loaded blocks: tanh of the aggregate's entry plus the sum over q of
    x(p, q) · W(q, n), plus the bias's entry n. The matrix unit's product into a zero accumulator is that sum. -/
theorem combineBlock1_apply (a : Vec Ideal S25000x32 .f32) (x : Vec Ideal S25000x64 .f32) (w : Vec Ideal S64x32 .f32)
    (b : Vec Ideal S1x32 .f32) (p : Fin 25000) (n : Fin 32) :
    k1_pay1 (F := Ideal) a x w b (ix2 p n)
      = Ideal.tanh ((a (ix2 p n) + ∑ q : Fin 64, x (ix2 p q) * w (ix2 q n)) + b (ix2 0 n)) := by
  unfold k1_pay1
  show Ideal.tanh ((shapeCast S25000x32 a _ (ix2 p n)
      + FloatOps.matmul dot_S25000x64_S64x32_S25000x32_1_0_0_1_n_n none x w (constant (F := Ideal) S25000x32 .f32 0x00000000#32) (ix2 p n))
      + broadcastTo S25000x32 (shapeCast S1x32 b _) _ (ix2 p n)) = _
  rw [shapeCast_self, shapeCast_self,
    Cert.MatmulPlain.matmul_plain_apply dot_S25000x64_S64x32_S25000x32_1_0_0_1_n_n rfl rfl rfl rfl rfl rfl,
    constant_apply, Ideal.ofBits_zero_f32, zero_add]
  have hb : broadcastTo S25000x32 b broadcasts_S1x32_S25000x32 (ix2 p n) = b (ix2 0 n) :=
    broadcastTo_apply b _ (ix2 p n) (ix2 0 n) fun d => by
      match d with
      | ⟨0, _⟩ => rfl
      | ⟨1, _⟩ => rfl
  rw [hb]

/-- The store at (p, n) is the layer at (r, n) whenever the loaded blocks hold the arrays' entries the layer reads there:
    row r of the aggregate and of x, column n of the weights, entry n of the bias. -/
theorem combineBlock1_eq (A : Cert.Spec.Mat 100000 32) (X : Cert.Spec.Mat 100000 64) (W : Cert.Spec.Mat 64 32)
    (B : Cert.Spec.Mat 1 32) (a : Vec Ideal S25000x32 .f32) (x : Vec Ideal S25000x64 .f32) (w : Vec Ideal S64x32 .f32)
    (b : Vec Ideal S1x32 .f32) (p : Fin 25000) (n : Fin 32) (r : Fin 100000)
    (ha : a (ix2 p n) = A (ix2 r n)) (hx : ∀ q : Fin 64, x (ix2 p q) = X (ix2 r q))
    (hw : ∀ q : Fin 64, w (ix2 q n) = W (ix2 q n)) (hb : b (ix2 0 n) = B (ix2 0 n)) :
    k1_pay1 (F := Ideal) a x w b (ix2 p n) = Cert.Spec.combine A X W B (ix2 r n) := by
  rw [combineBlock1_apply, ha, hb]
  show _ = Ideal.tanh ((A (ix2 r n) + ∑ q : Fin 64, X (ix2 r q) * W (ix2 q n)) + B (ix2 0 n))
  rw [Finset.sum_congr rfl fun q _ => by rw [hx q, hw q]]

/-- The printed index maps over the four grid points: the row-blocked windows (aggregate, x, output) are at row block t,
    the weights and the bias at block 0; every window's column block is 0. -/
theorem blockIndices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t, at (p, n), is the aggregate's array at row 25000·t + p, column n. -/
theorem aggBlock1 (c : Dev nD) (t : Fin cfg1.N) (p : Fin 25000) (n : Fin 32) (r : Fin 100000)
    (hr : r.val = t.val * 25000 + p.val) :
    (iblk1 V c 0 t : Vec Ideal S25000x32 .f32) (ix2 p n) = (V c main_v33 : S100000x32.Idx → EReal) (ix2 r n) := by
  obtain ⟨e0, e1, -⟩ := blockIndices1 t
  show V c main_v33 (((cfg1.win 0).blk t).view.emb (ix2 p n)) = V c main_v33 (ix2 r n)
  refine congrArg (V c main_v33) (funext fun d => Fin.ext ?_)
  match d with
  | ⟨0, _⟩ => show win1_0.index t (0 : Fin 2) * 25000 + 1 * p.val = r.val; omega
  | ⟨1, _⟩ => show win1_0.index t (1 : Fin 2) * 32 + 1 * n.val = n.val; omega

/-- x's block at point t, at (p, q), is x's array at row 25000·t + p, column q. -/
theorem xBlock1 (c : Dev nD) (t : Fin cfg1.N) (p : Fin 25000) (q : Fin 64) (r : Fin 100000)
    (hr : r.val = t.val * 25000 + p.val) :
    (iblk1 V c 1 t : Vec Ideal S25000x64 .f32) (ix2 p q) = (V c main_arg0 : S100000x64.Idx → EReal) (ix2 r q) := by
  obtain ⟨-, -, e0, e1, -⟩ := blockIndices1 t
  show V c main_arg0 (((cfg1.win 1).blk t).view.emb (ix2 p q)) = V c main_arg0 (ix2 r q)
  refine congrArg (V c main_arg0) (funext fun d => Fin.ext ?_)
  match d with
  | ⟨0, _⟩ => show win1_1.index t (0 : Fin 2) * 25000 + 1 * p.val = r.val; omega
  | ⟨1, _⟩ => show win1_1.index t (1 : Fin 2) * 64 + 1 * q.val = q.val; omega

/-- The weights' block at every point is the weights' whole array. -/
theorem weightBlock1 (c : Dev nD) (t : Fin cfg1.N) (q : Fin 64) (n : Fin 32) :
    (iblk1 V c 2 t : Vec Ideal S64x32 .f32) (ix2 q n) = (V c main_arg7 : S64x32.Idx → EReal) (ix2 q n) := by
  obtain ⟨-, -, -, -, e0, e1, -⟩ := blockIndices1 t
  show V c main_arg7 (((cfg1.win 2).blk t).view.emb (ix2 q n)) = V c main_arg7 (ix2 q n)
  refine congrArg (V c main_arg7) (funext fun d => Fin.ext ?_)
  match d with
  | ⟨0, _⟩ => show win1_2.index t (0 : Fin 2) * 64 + 1 * q.val = q.val; omega
  | ⟨1, _⟩ => show win1_2.index t (1 : Fin 2) * 32 + 1 * n.val = n.val; omega

/-- The bias's block at every point is the bias's whole one-row array. -/
theorem biasBlock1 (c : Dev nD) (t : Fin cfg1.N) (n : Fin 32) :
    (iblk1 V c 3 t : Vec Ideal S1x32 .f32) (ix2 0 n) = (V c main_v34 : S1x32.Idx → EReal) (ix2 0 n) := by
  obtain ⟨-, -, -, -, -, -, e0, e1, -⟩ := blockIndices1 t
  show V c main_v34 (((cfg1.win 3).blk t).view.emb (ix2 0 n)) = V c main_v34 (ix2 0 n)
  refine congrArg (V c main_v34) (funext fun d => Fin.ext ?_)
  match d with
  | ⟨0, _⟩ => show win1_3.index t (0 : Fin 2) * 1 + 1 * 0 = 0; omega
  | ⟨1, _⟩ => show win1_3.index t (1 : Fin 2) * 32 + 1 * n.val = n.val; omega

/-- WHAT POINT t WRITES BACK is block t of the layer of the arrays as the region finds them: the one store's payload,
    read where the output block's rectangle says (row 25000·t + p of the aggregate and of x, the whole weights and bias). -/
theorem flushed1 (c : Dev nD) (t : Fin cfg1.N) :
    (dat1 (F := Ideal) V c).flushed 4 t = ((cfg1.win 4).blk t).view.read (Elt Ideal)
      (Cert.Spec.combine (V c main_v33) (V c main_arg0) (V c main_arg7) (V c main_v34)) := by
  show (cfg1.win 4).cut (grid1.coords t) ((dat1 V c).after 4 t) = _
  rw [after1_4]
  unfold out1_4
  rw [View.canon_unit_zero zeroOffsets1]
  simp only [View.ld_unit_zero (S := S25000x32) zeroOffsets1, View.ld_unit_zero (S := S25000x64) zeroOffsets1,
    View.ld_unit_zero (S := S64x32) zeroOffsets1, View.ld_unit_zero (S := S1x32) zeroOffsets1]
  obtain ⟨-, -, -, -, -, -, -, -, e0, e1⟩ := blockIndices1 t
  refine funext fun (j : S25000x32.Idx) => ?_
  have hN : cfg1.N = 4 := N_1
  have ht : t.val < 4 := hN ▸ t.isLt
  have hj : (j 0).val < 25000 := (j 0).isLt
  have hemb : ((cfg1.win 4).blk t).view.emb j = ix2 (⟨t.val * 25000 + (j 0).val, by omega⟩ : Fin 100000) (j 1) := by
    funext d; apply Fin.ext
    match d with
    | ⟨0, _⟩ => show win1_4.index t (0 : Fin 2) * 25000 + 1 * (j 0).val = t.val * 25000 + (j 0).val; omega
    | ⟨1, _⟩ => show win1_4.index t (1 : Fin 2) * 32 + 1 * (j 1).val = (j 1).val; omega
  show k1_pay1 (F := Ideal) (iblk1 V c 0 t) (iblk1 V c 1 t) (iblk1 V c 2 t) (iblk1 V c 3 t) j
    = Cert.Spec.combine (V c main_v33) (V c main_arg0) (V c main_arg7) (V c main_v34) (((cfg1.win 4).blk t).view.emb j)
  rw [hemb]
  refine (congrArg (k1_pay1 (F := Ideal) (iblk1 V c 0 t) (iblk1 V c 1 t) (iblk1 V c 2 t) (iblk1 V c 3 t)) (eq_ix2 j)).trans ?_
  exact combineBlock1_eq (V c main_v33) (V c main_arg0) (V c main_arg7) (V c main_v34)
    (iblk1 V c 0 t) (iblk1 V c 1 t) (iblk1 V c 2 t) (iblk1 V c 3 t) (j 0) (j 1) ⟨t.val * 25000 + (j 0).val, by omega⟩
    (aggBlock1 V c t (j 0) (j 1) _ rfl) (fun q => xBlock1 V c t (j 0) q _ rfl)
    (fun q => weightBlock1 V c t q (j 1)) (biasBlock1 V c t (j 1))

/-- An index of the output array is in point t's block iff each coordinate is in the block's range on its axis. -/
theorem mem_outBlock1 (t : Fin cfg1.N) (i : S100000x32.Idx) :
    i ∈ ((cfg1.win 4).blk t).view.set ↔ ∀ a : Fin 2, win1_4.index t a * S25000x32.size a ≤ (i a).val
      ∧ (i a).val < win1_4.index t a * S25000x32.size a + S25000x32.size a := by
  show i ∈ ((View.whole main_v35).slice (win1_4.rect t)).set ↔ _
  rw [View.set_slice_whole, Rect.mem_set_unit]
  exact Iff.rfl

/-- Every entry of the output array is written back: row r is in the block of point r / 25000, every column. -/
theorem outCovered1 (i : S100000x32.Idx) :
    ∃ t : Fin cfg1.N, (cfg1.win 4).flush t = true ∧ i ∈ ((cfg1.win 4).blk t).view.set := by
  have hN : cfg1.N = 4 := N_1
  have hi0 : (i 0).val < 100000 := (i 0).isLt
  have hi1 : (i 1).val < 32 := (i 1).isLt
  let t : Fin cfg1.N := ⟨(i 0).val / 25000, by omega⟩
  have htv : t.val = (i 0).val / 25000 := rfl
  obtain ⟨-, -, -, -, -, -, -, -, e0, e1⟩ := blockIndices1 t
  refine ⟨t, flush1_4 t, ?_⟩
  rw [mem_outBlock1]
  intro a
  match a with
  | ⟨0, _⟩ =>
    show win1_4.index t (0 : Fin 2) * 25000 ≤ (i 0).val ∧ (i 0).val < win1_4.index t (0 : Fin 2) * 25000 + 25000
    omega
  | ⟨1, _⟩ =>
    show win1_4.index t (1 : Fin 2) * 32 ≤ (i 1).val ∧ (i 1).val < win1_4.index t (1 : Fin 2) * 32 + 32
    omega

/-- THE OUTPUT ARRAY AFTER THE REGION: tanh ((agg + x · W) + b) of the arrays as the region finds them, entry by entry. -/
theorem value1 (c : Dev nD) : (dat1 (F := Ideal) V c).arrAt 4 cfg1.N
    = Cert.Spec.combine (V c main_v33) (V c main_arg0) (V c main_arg7) (V c main_v34) :=
  (dat1 (F := Ideal) V c).arrAt_eq_of_cover 4 _ (fun t _ => flushed1 V c t) outCovered1

end Cert.KernelIdeal.Regions

end
-- ==== Proof.KReg2.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# Region 2: the second layer's two projections, side by side

The region takes a 100000 × 32 input x, two 32 × 32 weights and two 1 × 32 biases, and leaves the 100000 × 64
array whose columns 0–31 are x · Wp + bp and whose columns 32–63 are x · Wn + bn. It works on four blocks of
25000 rows. Read here, index by index, on the extended reals:

* each product of a block at (p, n) is the sum over q of x(p, q) · W(q, n), plus b(0, n) (the accumulator is zero);
* the block a grid point leaves is the two affine layers of its 25000 rows, side by side;
* rows k · 25000 … k · 25000 + 24999 of the layer of the whole input are the layer of those rows;
* the block of row r is block r / 25000, so the four blocks cover the array, and the array after the region is
  `sideBySide (affine x Wp bp) (affine x Wn bn)` of the arrays as the region finds them (`value2`).
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Project2

/-- The zero offsets of a whole block. -/
theorem zero_offsets : (![0, 0] : Fin 2 → Nat) = fun _ => 0 := funext fun a => by fin_cases a <;> rfl

/-! ## The two products of a block, read at an index -/

/-- The first product of a block read at (p, n): the sum over q of x(p, q) · W(q, n), plus b(0, n). -/
theorem proj1_apply (x : Vec Ideal S25000x32 .f32) (w : Vec Ideal S32x32 .f32) (b : Vec Ideal S1x32 .f32)
    (p : Fin 25000) (n : Fin 32) :
    k2_pay1 (F := Ideal) x w b (ix2 p n) = (∑ q : Fin 32, x (ix2 p q) * w (ix2 q n)) + b (ix2 0 n) := by
  unfold k2_pay1
  simp only [shapeCast_self]
  rw [addf_apply]
  have hm := Cert.MatmulPlain.matmul_plain_apply dot_S25000x32_S32x32_S25000x32_1_0_0_1_n_n rfl rfl rfl rfl rfl rfl
    (φ₁ := .f32) (φ₂ := .f32) none x w (constant (F := Ideal) S25000x32 .f32 0x00000000#32) p n
  rw [constant_apply, Ideal.ofBits_zero_f32, zero_add] at hm
  have hb := broadcastTo_apply b broadcasts_S1x32_S25000x32 (ix2 p n) (ix2 0 n) (fun a => by
    match a with
    | ⟨0, _⟩ => rfl
    | ⟨1, _⟩ => rfl)
  exact congrArg₂ (· + ·) hm hb

/-- The second product of a block read at (p, n): the same sum with the second weight and bias. -/
theorem proj2_apply (x : Vec Ideal S25000x32 .f32) (w : Vec Ideal S32x32 .f32) (b : Vec Ideal S1x32 .f32)
    (p : Fin 25000) (n : Fin 32) :
    k2_pay2 (F := Ideal) x w b (ix2 p n) = (∑ q : Fin 32, x (ix2 p q) * w (ix2 q n)) + b (ix2 0 n) := by
  unfold k2_pay2
  simp only [shapeCast_self]
  rw [addf_apply]
  have hm := Cert.MatmulPlain.matmul_plain_apply dot_S25000x32_S32x32_S25000x32_1_0_0_1_n_n rfl rfl rfl rfl rfl rfl
    (φ₁ := .f32) (φ₂ := .f32) none x w (constant (F := Ideal) S25000x32 .f32 0x00000000#32) p n
  rw [constant_apply, Ideal.ofBits_zero_f32, zero_add] at hm
  have hb := broadcastTo_apply b broadcasts_S1x32_S25000x32 (ix2 p n) (ix2 0 n) (fun a => by
    match a with
    | ⟨0, _⟩ => rfl
    | ⟨1, _⟩ => rfl)
  exact congrArg₂ (· + ·) hm hb

/-! ## Two matrices side by side, read in either half -/

/-- In columns 0–31 the side-by-side matrix is its left part. -/
theorem sideBySide_left {R : Nat} (a b : Cert.Spec.Mat R 32) (i : (⟨2, ![R, 64]⟩ : Shape).Idx) (p : Fin R) (n : Fin 32)
    (hr : (i 0).val = p.val) (hc : (i 1).val = n.val) : Cert.Spec.sideBySide a b i = a (ix2 p n) := by
  unfold Cert.Spec.sideBySide
  have hn := n.isLt
  rw [dif_pos (show (Cert.Spec.col i).val < 32 from by show (i 1).val < 32; omega)]
  exact congrArg a (congrArg₂ ix2 (Fin.ext hr) (Fin.ext hc))

/-- In columns 32–63 it is its right part, 32 columns back. -/
theorem sideBySide_right {R : Nat} (a b : Cert.Spec.Mat R 32) (i : (⟨2, ![R, 64]⟩ : Shape).Idx) (p : Fin R) (n : Fin 32)
    (hr : (i 0).val = p.val) (hc : (i 1).val = 32 + n.val) : Cert.Spec.sideBySide a b i = b (ix2 p n) := by
  unfold Cert.Spec.sideBySide
  rw [dif_neg (show ¬ (Cert.Spec.col i).val < 32 from by show ¬ (i 1).val < 32; omega)]
  exact congrArg b (congrArg₂ ix2 (Fin.ext hr) (Fin.ext (by show (i 1).val - 32 = n.val; omega)))

/-- The affine layer at a matrix index. -/
theorem affine_ix2 {R K C : Nat} (x : Cert.Spec.Mat R K) (W : Cert.Spec.Mat K C) (b : Cert.Spec.Mat 1 C) (p : Fin R) (n : Fin C) :
    Cert.Spec.affine x W b (ix2 p n) = (∑ q : Fin K, x (ix2 p q) * W (ix2 q n)) + b (ix2 0 n) := rfl

/-! ## What the body leaves in its block -/

/-- The body's block: the two affine layers of the input block, side by side. The first product fills columns 0–31,
    the second columns 32–63. -/
theorem body_block (x0 : Vec Ideal S25000x32 .f32) (x1 : Vec Ideal S32x32 .f32) (x2 : Vec Ideal S1x32 .f32)
    (x3 : Vec Ideal S32x32 .f32) (x4 : Vec Ideal S1x32 .f32) :
    out2_5 (F := Ideal) x0 x1 x2 x3 x4
      = Cert.Spec.sideBySide (Cert.Spec.affine x0 x1 x2) (Cert.Spec.affine x0 x3 x4) := by
  funext y
  unfold out2_5
  simp only [View.ld_unit_zero (S := S25000x32) zero_offsets, View.ld_unit_zero (S := S32x32) zero_offsets,
    View.ld_unit_zero (S := S1x32) zero_offsets]
  refine View.canon_apply_of_pieces (Val := Elt Ideal) (S := S25000x64) (e := .f32)
    (Cert.Spec.sideBySide (Cert.Spec.affine x0 x1 x2) (Cert.Spec.affine x0 x3 x4)) _ ?_ y (cover2_5 _ _ y)
  intro pc hpc
  rcases List.mem_cons.mp hpc with rfl | hpc
  · intro x
    obtain ⟨p, n, rfl⟩ : ∃ (p : Fin 25000) (n : Fin 32), x = ix2 p n := ⟨x 0, x 1, eq_ix2 x⟩
    show k2_pay2 (F := Ideal) x0 x3 x4 (ix2 p n) = Cert.Spec.sideBySide _ _ (r2_4.emb (ix2 p n))
    rw [proj2_apply, sideBySide_right _ _ _ p n (by show 0 + 1 * p.val = p.val; omega)
      (by show 32 + 1 * n.val = 32 + n.val; omega)]
    rfl
  · obtain rfl : pc = ⟨r2_3, k2_pay1 (F := Ideal) x0 x1 x2⟩ := List.mem_singleton.mp hpc
    intro x
    obtain ⟨p, n, rfl⟩ : ∃ (p : Fin 25000) (n : Fin 32), x = ix2 p n := ⟨x 0, x 1, eq_ix2 x⟩
    show k2_pay1 (F := Ideal) x0 x1 x2 (ix2 p n) = Cert.Spec.sideBySide _ _ (r2_3.emb (ix2 p n))
    rw [proj1_apply, sideBySide_left _ _ _ p n (by show 0 + 1 * p.val = p.val; omega)
      (by show 0 + 1 * n.val = n.val; omega)]
    rfl

/-! ## A block of the layer is the layer of the block -/

/-- Rows k · 25000 … k · 25000 + 24999 of the layer of the whole input are the layer of those rows of the input. -/
theorem layer_rows (X : Cert.Spec.Mat 100000 32) (Wp Wn : Cert.Spec.Mat 32 32) (bp bn : Cert.Spec.Mat 1 32) (k : Nat)
    (x0 : Cert.Spec.Mat 25000 32)
    (hx : ∀ (p : Fin 25000) (q : Fin 32) (r : Fin 100000), r.val = k * 25000 + p.val → x0 (ix2 p q) = X (ix2 r q))
    (j : (⟨2, ![25000, 64]⟩ : Shape).Idx) (i : (⟨2, ![100000, 64]⟩ : Shape).Idx)
    (h0 : (i 0).val = k * 25000 + (j 0).val) (h1 : (i 1).val = (j 1).val) :
    Cert.Spec.sideBySide (Cert.Spec.affine x0 Wp bp) (Cert.Spec.affine x0 Wn bn) j
      = Cert.Spec.sideBySide (Cert.Spec.affine X Wp bp) (Cert.Spec.affine X Wn bn) i := by
  obtain ⟨p, m, rfl⟩ : ∃ (p : Fin 25000) (m : Fin 64), j = ix2 p m := ⟨j 0, j 1, eq_ix2 j⟩
  obtain ⟨r, m', rfl⟩ : ∃ (r : Fin 100000) (m' : Fin 64), i = ix2 r m' := ⟨i 0, i 1, eq_ix2 i⟩
  have h0' : r.val = k * 25000 + p.val := h0
  have h1' : m'.val = m.val := h1
  have hm := m.isLt
  by_cases hc : m.val < 32
  · rw [sideBySide_left _ _ (ix2 p m) p ⟨m.val, hc⟩ rfl rfl, sideBySide_left _ _ (ix2 r m') r ⟨m.val, hc⟩ rfl h1',
      affine_ix2, affine_ix2]
    exact congrArg (· + _) (Finset.sum_congr rfl fun q _ => by rw [hx p q r h0'])
  · have hn : m.val - 32 < 32 := by omega
    rw [sideBySide_right _ _ (ix2 p m) p ⟨m.val - 32, hn⟩ rfl (by show m.val = 32 + (m.val - 32); omega),
      sideBySide_right _ _ (ix2 r m') r ⟨m.val - 32, hn⟩ rfl (by show m'.val = 32 + (m.val - 32); omega),
      affine_ix2, affine_ix2]
    exact congrArg (· + _) (Finset.sum_congr rfl fun q _ => by rw [hx p q r h0'])

/-! ## The blocks the body reads, as parts of their arrays -/

/-- The index maps over the four grid points: the input and the output sit at block (t, 0), the weights and the biases
    at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The input's block at point t is rows t · 25000 … t · 25000 + 24999 of the input. -/
theorem input_block (c : Dev nD) (t : Fin cfg2.N) (p : Fin 25000) (q : Fin 32) (r : Fin 100000)
    (hr : r.val = t.val * 25000 + p.val) :
    (iblk2 (F := Ideal) V c 0 t : Vec Ideal S25000x32 .f32) (ix2 p q)
      = (V c main_v35 : S100000x32.Idx → Elt Ideal .f32) (ix2 r q) := by
  obtain ⟨e0, e1, -⟩ := idx_facts t
  show V c main_v35 (((cfg2.win 0).blk t).view.emb (ix2 p q)) = V c main_v35 (ix2 r q)
  refine congrArg (V c main_v35) (funext fun a => Fin.ext ?_)
  match a with
  | ⟨0, _⟩ => show win2_0.index t (0 : Fin 2) * 25000 + 1 * p.val = r.val; rw [e0, hr]; omega
  | ⟨1, _⟩ => show win2_0.index t (1 : Fin 2) * 32 + 1 * q.val = q.val; rw [e1]; omega

/-- The first weight is read whole: its block at any point is the array. -/
theorem wp_block (c : Dev nD) (t : Fin cfg2.N) :
    (iblk2 (F := Ideal) V c 1 t : Vec Ideal S32x32 .f32) = (V c main_arg9 : S32x32.Idx → Elt Ideal .f32) := by
  obtain ⟨-, -, e0, e1, -⟩ := idx_facts t
  funext y
  show V c main_arg9 (((cfg2.win 1).blk t).view.emb y) = V c main_arg9 y
  refine congrArg (V c main_arg9) (funext fun a => Fin.ext ?_)
  match a with
  | ⟨0, _⟩ => show win2_1.index t (0 : Fin 2) * 32 + 1 * (y 0).val = (y 0).val; rw [e0]; omega
  | ⟨1, _⟩ => show win2_1.index t (1 : Fin 2) * 32 + 1 * (y 1).val = (y 1).val; rw [e1]; omega

/-- So is the first bias. -/
theorem bp_block (c : Dev nD) (t : Fin cfg2.N) :
    (iblk2 (F := Ideal) V c 2 t : Vec Ideal S1x32 .f32) = (V c main_v36 : S1x32.Idx → Elt Ideal .f32) := by
  obtain ⟨-, -, -, -, e0, e1, -⟩ := idx_facts t
  funext y
  show V c main_v36 (((cfg2.win 2).blk t).view.emb y) = V c main_v36 y
  refine congrArg (V c main_v36) (funext fun a => Fin.ext ?_)
  match a with
  | ⟨0, _⟩ => show win2_2.index t (0 : Fin 2) * 1 + 1 * (y 0).val = (y 0).val; rw [e0]; omega
  | ⟨1, _⟩ => show win2_2.index t (1 : Fin 2) * 32 + 1 * (y 1).val = (y 1).val; rw [e1]; omega

/-- So is the second weight. -/
theorem wn_block (c : Dev nD) (t : Fin cfg2.N) :
    (iblk2 (F := Ideal) V c 3 t : Vec Ideal S32x32 .f32) = (V c main_arg11 : S32x32.Idx → Elt Ideal .f32) := by
  obtain ⟨-, -, -, -, -, -, e0, e1, -⟩ := idx_facts t
  funext y
  show V c main_arg11 (((cfg2.win 3).blk t).view.emb y) = V c main_arg11 y
  refine congrArg (V c main_arg11) (funext fun a => Fin.ext ?_)
  match a with
  | ⟨0, _⟩ => show win2_3.index t (0 : Fin 2) * 32 + 1 * (y 0).val = (y 0).val; rw [e0]; omega
  | ⟨1, _⟩ => show win2_3.index t (1 : Fin 2) * 32 + 1 * (y 1).val = (y 1).val; rw [e1]; omega

/-- So is the second bias. -/
theorem bn_block (c : Dev nD) (t : Fin cfg2.N) :
    (iblk2 (F := Ideal) V c 4 t : Vec Ideal S1x32 .f32) = (V c main_v37 : S1x32.Idx → Elt Ideal .f32) := by
  obtain ⟨-, -, -, -, -, -, -, -, e0, e1, -⟩ := idx_facts t
  funext y
  show V c main_v37 (((cfg2.win 4).blk t).view.emb y) = V c main_v37 y
  refine congrArg (V c main_v37) (funext fun a => Fin.ext ?_)
  match a with
  | ⟨0, _⟩ => show win2_4.index t (0 : Fin 2) * 1 + 1 * (y 0).val = (y 0).val; rw [e0]; omega
  | ⟨1, _⟩ => show win2_4.index t (1 : Fin 2) * 32 + 1 * (y 1).val = (y 1).val; rw [e1]; omega

/-! ## What each point writes back, and the array -/

/-- Point t writes back block t of the layer of the arrays as the region finds them. -/
theorem flushed_eq (c : Dev nD) (t : Fin cfg2.N) :
    (dat2 (F := Ideal) V c).flushed 5 t = ((cfg2.win 5).blk t).view.read (Elt Ideal)
      (Cert.Spec.sideBySide (Cert.Spec.affine (V c main_v35) (V c main_arg9) (V c main_v36))
        (Cert.Spec.affine (V c main_v35) (V c main_arg11) (V c main_v37))) := by
  show (cfg2.win 5).cut (grid2.coords t) ((dat2 V c).after 5 t) = _
  rw [after2_5]
  obtain ⟨-, -, -, -, -, -, -, -, -, -, e0, e1⟩ := idx_facts t
  funext j
  show out2_5 (F := Ideal) (iblk2 V c 0 t) (iblk2 V c 1 t) (iblk2 V c 2 t) (iblk2 V c 3 t) (iblk2 V c 4 t) j
    = Cert.Spec.sideBySide (Cert.Spec.affine (V c main_v35) (V c main_arg9) (V c main_v36))
        (Cert.Spec.affine (V c main_v35) (V c main_arg11) (V c main_v37)) (((cfg2.win 5).blk t).view.emb j)
  rw [body_block (iblk2 V c 0 t) (iblk2 V c 1 t) (iblk2 V c 2 t) (iblk2 V c 3 t) (iblk2 V c 4 t),
    wp_block V c t, bp_block V c t, wn_block V c t, bn_block V c t]
  refine layer_rows _ _ _ _ _ t.val _ (fun p q r hr => input_block V c t p q r hr) j _ ?_ ?_
  · show win2_5.index t (0 : Fin 2) * 25000 + 1 * (j 0).val = _; rw [e0]; omega
  · show win2_5.index t (1 : Fin 2) * 64 + 1 * (j 1).val = _; rw [e1]; omega

/-- An index of the array is in point t's block iff each coordinate is in the block's range on its axis. -/
theorem mem_blk (t : Fin cfg2.N) (i : S100000x64.Idx) :
    i ∈ ((cfg2.win 5).blk t).view.set ↔ ∀ a : Fin 2, win2_5.index t a * S25000x64.size a ≤ (i a).val
      ∧ (i a).val < win2_5.index t a * S25000x64.size a + S25000x64.size a := by
  show i ∈ ((View.whole main_v38).slice (win2_5.rect t)).set ↔ _
  rw [View.set_slice_whole, Rect.mem_set_unit]
  exact Iff.rfl

/-- Row r is in the block of point r / 25000, whatever the column. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 4 := N_2
  have ht : (i 0).val / 25000 < cfg2.N := by rw [hN]; omega
  obtain ⟨-, -, -, -, -, -, -, -, -, -, e0, e1⟩ := idx_facts ⟨(i 0).val / 25000, ht⟩
  refine ⟨⟨(i 0).val / 25000, ht⟩, flush2_5 _, ?_⟩
  rw [mem_blk]
  intro a
  match a with
  | ⟨0, _⟩ =>
    show win2_5.index ⟨(i 0).val / 25000, ht⟩ (0 : Fin 2) * 25000 ≤ (i 0).val
      ∧ (i 0).val < win2_5.index ⟨(i 0).val / 25000, ht⟩ (0 : Fin 2) * 25000 + 25000
    rw [e0]; show (i 0).val / 25000 * 25000 ≤ (i 0).val ∧ (i 0).val < (i 0).val / 25000 * 25000 + 25000; omega
  | ⟨1, _⟩ =>
    show win2_5.index ⟨(i 0).val / 25000, ht⟩ (1 : Fin 2) * 64 ≤ (i 1).val
      ∧ (i 1).val < win2_5.index ⟨(i 0).val / 25000, ht⟩ (1 : Fin 2) * 64 + 64
    rw [e1]; omega

end Project2

/-- THE ARRAY after region 2: the two affine layers of the first layer's output, side by side. -/
theorem value2 (c : Dev nD) : (dat2 (F := Ideal) V c).arrAt 5 cfg2.N
      = Cert.Spec.sideBySide (Cert.Spec.affine (V c main_v35) (V c main_arg9) (V c main_v36)) (Cert.Spec.affine (V c main_v35) (V c main_arg11) (V c main_v37)) :=
  (dat2 (F := Ideal) V c).arrAt_eq_of_cover 5 _ (fun t _ => Project2.flushed_eq V c t) Project2.covered

end Cert.KernelIdeal.Regions

end
-- ==== Proof.KReg3.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# Region 3: the combine layer, tanh ((agg + x · W) + b), as one function of whole arrays

The region walks the 100000 rows in four blocks of 25000. At each block it reads the aggregate's rows and x's rows of
that block, the whole 32×32 weight matrix and the whole one-row bias, and stores, at (p, n),
tanh ((agg(p, n) + ∑ q, x(p, q) · W(q, n)) + b(0, n)): the matrix unit's product into a zero accumulator is the plain
sum over the 32 contracted positions. Row p of block t is row 25000·t + p of the arrays, the four blocks tile the output,
so the output array after the region is the layer `Cert.Spec.combine` of the arrays the region found, entry by entry.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offsets of a load or store of a whole block are zero on both axes. -/
theorem zeroOffsets3 : (![0, 0] : Fin 2 → Nat) = fun _ => 0 :=
  funext fun a => by match a with | ⟨0, _⟩ => rfl | ⟨1, _⟩ => rfl

/-- THE BODY'S STORE AT (p, n), from the four loaded blocks: tanh of the aggregate's entry plus the sum over q of
    x(p, q) · W(q, n), plus the bias's entry n. The matrix unit's product into a zero accumulator is that sum. -/
theorem combineBlock3_apply (a : Vec Ideal S25000x32 .f32) (x : Vec Ideal S25000x32 .f32) (w : Vec Ideal S32x32 .f32)
    (b : Vec Ideal S1x32 .f32) (p : Fin 25000) (n : Fin 32) :
    k3_pay1 (F := Ideal) a x w b (ix2 p n)
      = Ideal.tanh ((a (ix2 p n) + ∑ q : Fin 32, x (ix2 p q) * w (ix2 q n)) + b (ix2 0 n)) := by
  unfold k3_pay1
  show Ideal.tanh ((shapeCast S25000x32 a _ (ix2 p n)
      + FloatOps.matmul dot_S25000x32_S32x32_S25000x32_1_0_0_1_n_n none (shapeCast S25000x32 x _) w (constant (F := Ideal) S25000x32 .f32 0x00000000#32) (ix2 p n))
      + broadcastTo S25000x32 (shapeCast S1x32 b _) _ (ix2 p n)) = _
  rw [shapeCast_self, shapeCast_self, shapeCast_self,
    Cert.MatmulPlain.matmul_plain_apply dot_S25000x32_S32x32_S25000x32_1_0_0_1_n_n rfl rfl rfl rfl rfl rfl,
    constant_apply, Ideal.ofBits_zero_f32, zero_add]
  have hb : broadcastTo S25000x32 b broadcasts_S1x32_S25000x32 (ix2 p n) = b (ix2 0 n) :=
    broadcastTo_apply b _ (ix2 p n) (ix2 0 n) fun d => by
      match d with
      | ⟨0, _⟩ => rfl
      | ⟨1, _⟩ => rfl
  rw [hb]

/-- The store at (p, n) is the layer at (r, n) whenever the loaded blocks hold the arrays' entries the layer reads there:
    row r of the aggregate and of x, column n of the weights, entry n of the bias. -/
theorem combineBlock3_eq (A : Cert.Spec.Mat 100000 32) (X : Cert.Spec.Mat 100000 32) (W : Cert.Spec.Mat 32 32)
    (B : Cert.Spec.Mat 1 32) (a : Vec Ideal S25000x32 .f32) (x : Vec Ideal S25000x32 .f32) (w : Vec Ideal S32x32 .f32)
    (b : Vec Ideal S1x32 .f32) (p : Fin 25000) (n : Fin 32) (r : Fin 100000)
    (ha : a (ix2 p n) = A (ix2 r n)) (hx : ∀ q : Fin 32, x (ix2 p q) = X (ix2 r q))
    (hw : ∀ q : Fin 32, w (ix2 q n) = W (ix2 q n)) (hb : b (ix2 0 n) = B (ix2 0 n)) :
    k3_pay1 (F := Ideal) a x w b (ix2 p n) = Cert.Spec.combine A X W B (ix2 r n) := by
  rw [combineBlock3_apply, ha, hb]
  show _ = Ideal.tanh ((A (ix2 r n) + ∑ q : Fin 32, X (ix2 r q) * W (ix2 q n)) + B (ix2 0 n))
  rw [Finset.sum_congr rfl fun q _ => by rw [hx q, hw q]]

/-- The printed index maps over the four grid points: the row-blocked windows (aggregate, x, output) are at row block t,
    the weights and the bias at block 0; every window's column block is 0. -/
theorem blockIndices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t, at (p, n), is the aggregate's array at row 25000·t + p, column n. -/
theorem aggBlock3 (c : Dev nD) (t : Fin cfg3.N) (p : Fin 25000) (n : Fin 32) (r : Fin 100000)
    (hr : r.val = t.val * 25000 + p.val) :
    (iblk3 V c 0 t : Vec Ideal S25000x32 .f32) (ix2 p n) = (V c main_v69 : S100000x32.Idx → EReal) (ix2 r n) := by
  obtain ⟨e0, e1, -⟩ := blockIndices3 t
  show V c main_v69 (((cfg3.win 0).blk t).view.emb (ix2 p n)) = V c main_v69 (ix2 r n)
  refine congrArg (V c main_v69) (funext fun d => Fin.ext ?_)
  match d with
  | ⟨0, _⟩ => show win3_0.index t (0 : Fin 2) * 25000 + 1 * p.val = r.val; omega
  | ⟨1, _⟩ => show win3_0.index t (1 : Fin 2) * 32 + 1 * n.val = n.val; omega

/-- x's block at point t, at (p, q), is x's array at row 25000·t + p, column q. -/
theorem xBlock3 (c : Dev nD) (t : Fin cfg3.N) (p : Fin 25000) (q : Fin 32) (r : Fin 100000)
    (hr : r.val = t.val * 25000 + p.val) :
    (iblk3 V c 1 t : Vec Ideal S25000x32 .f32) (ix2 p q) = (V c main_v35 : S100000x32.Idx → EReal) (ix2 r q) := by
  obtain ⟨-, -, e0, e1, -⟩ := blockIndices3 t
  show V c main_v35 (((cfg3.win 1).blk t).view.emb (ix2 p q)) = V c main_v35 (ix2 r q)
  refine congrArg (V c main_v35) (funext fun d => Fin.ext ?_)
  match d with
  | ⟨0, _⟩ => show win3_1.index t (0 : Fin 2) * 25000 + 1 * p.val = r.val; omega
  | ⟨1, _⟩ => show win3_1.index t (1 : Fin 2) * 32 + 1 * q.val = q.val; omega

/-- The weights' block at every point is the weights' whole array. -/
theorem weightBlock3 (c : Dev nD) (t : Fin cfg3.N) (q : Fin 32) (n : Fin 32) :
    (iblk3 V c 2 t : Vec Ideal S32x32 .f32) (ix2 q n) = (V c main_arg13 : S32x32.Idx → EReal) (ix2 q n) := by
  obtain ⟨-, -, -, -, e0, e1, -⟩ := blockIndices3 t
  show V c main_arg13 (((cfg3.win 2).blk t).view.emb (ix2 q n)) = V c main_arg13 (ix2 q n)
  refine congrArg (V c main_arg13) (funext fun d => Fin.ext ?_)
  match d with
  | ⟨0, _⟩ => show win3_2.index t (0 : Fin 2) * 32 + 1 * q.val = q.val; omega
  | ⟨1, _⟩ => show win3_2.index t (1 : Fin 2) * 32 + 1 * n.val = n.val; omega

/-- The bias's block at every point is the bias's whole one-row array. -/
theorem biasBlock3 (c : Dev nD) (t : Fin cfg3.N) (n : Fin 32) :
    (iblk3 V c 3 t : Vec Ideal S1x32 .f32) (ix2 0 n) = (V c main_v70 : S1x32.Idx → EReal) (ix2 0 n) := by
  obtain ⟨-, -, -, -, -, -, e0, e1, -⟩ := blockIndices3 t
  show V c main_v70 (((cfg3.win 3).blk t).view.emb (ix2 0 n)) = V c main_v70 (ix2 0 n)
  refine congrArg (V c main_v70) (funext fun d => Fin.ext ?_)
  match d with
  | ⟨0, _⟩ => show win3_3.index t (0 : Fin 2) * 1 + 1 * 0 = 0; omega
  | ⟨1, _⟩ => show win3_3.index t (1 : Fin 2) * 32 + 1 * n.val = n.val; omega

/-- WHAT POINT t WRITES BACK is block t of the layer of the arrays as the region finds them: the one store's payload,
    read where the output block's rectangle says (row 25000·t + p of the aggregate and of x, the whole weights and bias). -/
theorem flushed3 (c : Dev nD) (t : Fin cfg3.N) :
    (dat3 (F := Ideal) V c).flushed 4 t = ((cfg3.win 4).blk t).view.read (Elt Ideal)
      (Cert.Spec.combine (V c main_v69) (V c main_v35) (V c main_arg13) (V c main_v70)) := by
  show (cfg3.win 4).cut (grid3.coords t) ((dat3 V c).after 4 t) = _
  rw [after3_4]
  unfold out3_4
  rw [View.canon_unit_zero zeroOffsets3]
  simp only [View.ld_unit_zero (S := S25000x32) zeroOffsets3, View.ld_unit_zero (S := S25000x32) zeroOffsets3,
    View.ld_unit_zero (S := S32x32) zeroOffsets3, View.ld_unit_zero (S := S1x32) zeroOffsets3]
  obtain ⟨-, -, -, -, -, -, -, -, e0, e1⟩ := blockIndices3 t
  refine funext fun (j : S25000x32.Idx) => ?_
  have hN : cfg3.N = 4 := N_3
  have ht : t.val < 4 := hN ▸ t.isLt
  have hj : (j 0).val < 25000 := (j 0).isLt
  have hemb : ((cfg3.win 4).blk t).view.emb j = ix2 (⟨t.val * 25000 + (j 0).val, by omega⟩ : Fin 100000) (j 1) := by
    funext d; apply Fin.ext
    match d with
    | ⟨0, _⟩ => show win3_4.index t (0 : Fin 2) * 25000 + 1 * (j 0).val = t.val * 25000 + (j 0).val; omega
    | ⟨1, _⟩ => show win3_4.index t (1 : Fin 2) * 32 + 1 * (j 1).val = (j 1).val; omega
  show k3_pay1 (F := Ideal) (iblk3 V c 0 t) (iblk3 V c 1 t) (iblk3 V c 2 t) (iblk3 V c 3 t) j
    = Cert.Spec.combine (V c main_v69) (V c main_v35) (V c main_arg13) (V c main_v70) (((cfg3.win 4).blk t).view.emb j)
  rw [hemb]
  refine (congrArg (k3_pay1 (F := Ideal) (iblk3 V c 0 t) (iblk3 V c 1 t) (iblk3 V c 2 t) (iblk3 V c 3 t)) (eq_ix2 j)).trans ?_
  exact combineBlock3_eq (V c main_v69) (V c main_v35) (V c main_arg13) (V c main_v70)
    (iblk3 V c 0 t) (iblk3 V c 1 t) (iblk3 V c 2 t) (iblk3 V c 3 t) (j 0) (j 1) ⟨t.val * 25000 + (j 0).val, by omega⟩
    (aggBlock3 V c t (j 0) (j 1) _ rfl) (fun q => xBlock3 V c t (j 0) q _ rfl)
    (fun q => weightBlock3 V c t q (j 1)) (biasBlock3 V c t (j 1))

/-- An index of the output array is in point t's block iff each coordinate is in the block's range on its axis. -/
theorem mem_outBlock3 (t : Fin cfg3.N) (i : S100000x32.Idx) :
    i ∈ ((cfg3.win 4).blk t).view.set ↔ ∀ a : Fin 2, win3_4.index t a * S25000x32.size a ≤ (i a).val
      ∧ (i a).val < win3_4.index t a * S25000x32.size a + S25000x32.size a := by
  show i ∈ ((View.whole main_v71).slice (win3_4.rect t)).set ↔ _
  rw [View.set_slice_whole, Rect.mem_set_unit]
  exact Iff.rfl

/-- Every entry of the output array is written back: row r is in the block of point r / 25000, every column. -/
theorem outCovered3 (i : S100000x32.Idx) :
    ∃ t : Fin cfg3.N, (cfg3.win 4).flush t = true ∧ i ∈ ((cfg3.win 4).blk t).view.set := by
  have hN : cfg3.N = 4 := N_3
  have hi0 : (i 0).val < 100000 := (i 0).isLt
  have hi1 : (i 1).val < 32 := (i 1).isLt
  let t : Fin cfg3.N := ⟨(i 0).val / 25000, by omega⟩
  have htv : t.val = (i 0).val / 25000 := rfl
  obtain ⟨-, -, -, -, -, -, -, -, e0, e1⟩ := blockIndices3 t
  refine ⟨t, flush3_4 t, ?_⟩
  rw [mem_outBlock3]
  intro a
  match a with
  | ⟨0, _⟩ =>
    show win3_4.index t (0 : Fin 2) * 25000 ≤ (i 0).val ∧ (i 0).val < win3_4.index t (0 : Fin 2) * 25000 + 25000
    omega
  | ⟨1, _⟩ =>
    show win3_4.index t (1 : Fin 2) * 32 ≤ (i 1).val ∧ (i 1).val < win3_4.index t (1 : Fin 2) * 32 + 32
    omega

/-- THE OUTPUT ARRAY AFTER THE REGION: tanh ((agg + x · W) + b) of the arrays as the region finds them, entry by entry. -/
theorem value3 (c : Dev nD) : (dat3 (F := Ideal) V c).arrAt 4 cfg3.N
    = Cert.Spec.combine (V c main_v69) (V c main_v35) (V c main_arg13) (V c main_v70) :=
  (dat3 (F := Ideal) V c).arrAt_eq_of_cover 4 _ (fun t _ => flushed3 V c t) outCovered3

end Cert.KernelIdeal.Regions

end
-- ==== Proof.KReg4.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# The first dense layer of the head: the array it leaves is `tanh (x · W + b)`

The region reads x [100000, 32] in four row blocks of 25000, the whole of W [32, 64] and of b [1, 64], and stores, block
by block, `tanh (x · W + b)` into an array [100000, 64]. Block by block that is the one whole-array function
`Cert.Spec.denseTanh` of the three arrays as the region finds them.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offset (0, 0) is the zero offset. -/
theorem zero_offset4 : (![0, 0] : Fin 2 → Nat) = fun _ => 0 := funext fun a => by fin_cases a <;> rfl

/-- The block's arithmetic at (p, n): tanh of the sum over q of x(p, q) · W(q, n), plus b(0, n). -/
theorem dense_tanh_block_apply (x : Vec Ideal S25000x32 .f32) (W : Vec Ideal S32x64 .f32) (b : Vec Ideal S1x64 .f32)
    (p : Fin 25000) (n : Fin 64) :
    k4_pay1 (F := Ideal) x W b (ix2 p n) = Ideal.tanh ((∑ q : Fin 32, x (ix2 p q) * W (ix2 q n)) + b (ix2 0 n)) := by
  unfold k4_pay1
  simp only [shapeCast_self]
  show Ideal.tanh (FloatOps.matmul dot_S25000x32_S32x64_S25000x64_1_0_0_1_n_n none x W (constant (F := Ideal) S25000x64 .f32 0x00000000#32) (ix2 p n)
    + broadcastTo S25000x64 b broadcasts_S1x64_S25000x64 (ix2 p n)) = _
  rw [Cert.MatmulPlain.matmul_plain_apply dot_S25000x32_S32x64_S25000x64_1_0_0_1_n_n rfl rfl rfl rfl rfl rfl,
    constant_apply, Ideal.ofBits_zero_f32, zero_add,
    broadcastTo_apply b broadcasts_S1x64_S25000x64 (ix2 p n) (ix2 0 n)
      (fun a => by match a with | ⟨0, _⟩ => rfl | ⟨1, _⟩ => rfl)]

/-- The block's arithmetic against the whole arrays: where the block's row p is the array's row r and the weights and
    the bias are the arrays', the block's entry at (p, n) is the layer's at (r, n). -/
theorem dense_tanh_block_eq (x : Vec Ideal S25000x32 .f32) (W : Vec Ideal S32x64 .f32) (b : Vec Ideal S1x64 .f32)
    (X : Cert.Spec.Mat 100000 32) (W' : Cert.Spec.Mat 32 64) (b' : Cert.Spec.Mat 1 64)
    (j : S25000x64.Idx) (p : Fin 25000) (n : Fin 64) (hj : j = ix2 p n) (i : S100000x64.Idx)
    (hx : ∀ q : Fin 32, x (ix2 p q) = X (ix2 (Cert.Spec.row i) q))
    (hW : ∀ q : Fin 32, W (ix2 q n) = W' (ix2 q (Cert.Spec.col i)))
    (hb : b (ix2 0 n) = b' (ix2 0 (Cert.Spec.col i))) :
    k4_pay1 (F := Ideal) x W b j = Cert.Spec.denseTanh X W' b' i := by
  subst hj
  rw [dense_tanh_block_apply]
  unfold Cert.Spec.denseTanh Cert.Spec.affine
  rw [hb, Finset.sum_congr rfl (fun q _ => by rw [hx q, hW q])]

/-- The index maps over the four grid points: the row blocks of x and of the output are the point's own, on
    the columns and on the whole-array windows the block index is 0. -/
theorem index_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the layer of the arrays as the region finds them. -/
theorem flushed4 (c : Dev nD) (t : Fin cfg4.N) :
    (dat4 (F := Ideal) V c).flushed 3 t = ((cfg4.win 3).blk t).view.read (Elt Ideal)
      (Cert.Spec.denseTanh (V c main_v71) (V c main_arg15) (V c main_v72)) := by
  show (cfg4.win 3).cut (grid4.coords t) ((dat4 (F := Ideal) V c).after 3 t) = _
  rw [after4_3]
  unfold out4_3
  rw [View.canon_unit_zero zero_offset4]
  simp only [View.ld_unit_zero (S := S25000x32) zero_offset4, View.ld_unit_zero (S := S32x64) zero_offset4,
    View.ld_unit_zero (S := S1x64) zero_offset4]
  obtain ⟨e0, e1, e2, e3, e4, e5, e6, e7⟩ := index_facts4 t
  funext j
  show k4_pay1 (F := Ideal) (iblk4 V c 0 t) (iblk4 V c 1 t) (iblk4 V c 2 t) j
    = Cert.Spec.denseTanh (V c main_v71) (V c main_arg15) (V c main_v72) (((cfg4.win 3).blk t).view.emb j)
  refine dense_tanh_block_eq (iblk4 V c 0 t) (iblk4 V c 1 t) (iblk4 V c 2 t) (V c main_v71) (V c main_arg15) (V c main_v72)
    j (j 0) (j 1) (eq_ix2 j) (((cfg4.win 3).blk t).view.emb j) (fun q => ?_) (fun q => ?_) ?_
  · show V c main_v71 (((cfg4.win 0).blk t).view.emb (ix2 (j 0) q)) = V c main_v71 _
    refine congrArg (V c main_v71) (funext fun a => Fin.ext ?_)
    match a with
    | ⟨0, _⟩ => show win4_0.index t (0 : Fin 2) * 25000 + 1 * (j 0).val = win4_3.index t (0 : Fin 2) * 25000 + 1 * (j 0).val; omega
    | ⟨1, _⟩ => show win4_0.index t (1 : Fin 2) * 32 + 1 * q.val = q.val; omega
  · show V c main_arg15 (((cfg4.win 1).blk t).view.emb (ix2 q (j 1))) = V c main_arg15 _
    refine congrArg (V c main_arg15) (funext fun a => Fin.ext ?_)
    match a with
    | ⟨0, _⟩ => show win4_1.index t (0 : Fin 2) * 32 + 1 * q.val = q.val; omega
    | ⟨1, _⟩ => show win4_1.index t (1 : Fin 2) * 64 + 1 * (j 1).val = win4_3.index t (1 : Fin 2) * 64 + 1 * (j 1).val; omega
  · show V c main_v72 (((cfg4.win 2).blk t).view.emb (ix2 0 (j 1))) = V c main_v72 _
    refine congrArg (V c main_v72) (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega

/-- An index of the output array is in point t's block iff each coordinate is in the block's range on its axis. -/
theorem mem_block4 (t : Fin cfg4.N) (i : S100000x64.Idx) :
    i ∈ ((cfg4.win 3).blk t).view.set ↔ ∀ a : Fin 2, win4_3.index t a * S25000x64.size a ≤ (i a).val
      ∧ (i a).val < win4_3.index t a * S25000x64.size a + S25000x64.size a := by
  show i ∈ ((View.whole main_v73).slice (win4_3.rect t)).set ↔ _
  rw [View.set_slice_whole, Rect.mem_set_unit]
  exact Iff.rfl

/-- Every index of the output array is in some point's block: row r is in block r / 25000, every column in block 0. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  refine ⟨⟨(i 0).val / 25000, by show (i 0).val / 25000 < 4; omega⟩, flush4_3 _, ?_⟩
  rw [mem_block4]
  obtain ⟨-, -, -, -, -, -, e6, e7⟩ := index_facts4 ⟨(i 0).val / 25000, by show (i 0).val / 25000 < 4; omega⟩
  intro a
  match a with
  | ⟨0, _⟩ =>
    show win4_3.index _ (0 : Fin 2) * 25000 ≤ (i 0).val ∧ (i 0).val < win4_3.index _ (0 : Fin 2) * 25000 + 25000
    rw [e6]; show (i 0).val / 25000 * 25000 ≤ (i 0).val ∧ (i 0).val < (i 0).val / 25000 * 25000 + 25000; omega
  | ⟨1, _⟩ =>
    show win4_3.index _ (1 : Fin 2) * 64 ≤ (i 1).val ∧ (i 1).val < win4_3.index _ (1 : Fin 2) * 64 + 64
    rw [e7]; omega

/-- THE ARRAY the region leaves: tanh (x · W + b) of the three arrays as the region finds them. -/
theorem value4 (c : Dev nD) : (dat4 (F := Ideal) V c).arrAt 3 cfg4.N
    = Cert.Spec.denseTanh (V c main_v71) (V c main_arg15) (V c main_v72) :=
  (dat4 (F := Ideal) V c).arrAt_eq_of_cover 3 _ (fun t _ => flushed4 V c t) cover4

end Cert.KernelIdeal.Regions

end
-- ==== Proof.KReg5.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value

/-!
# The second dense layer of the head: the array it leaves is `x · W + b`

The region reads x [100000, 64] in four row blocks of 25000, the whole of W [64, 64] and of b [1, 64], and stores, block
by block, `x · W + b` into an array [100000, 64]. Block by block that is the one whole-array function
`Cert.Spec.affine` of the three arrays as the region finds them.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offset (0, 0) is the zero offset. -/
theorem zero_offset5 : (![0, 0] : Fin 2 → Nat) = fun _ => 0 := funext fun a => by fin_cases a <;> rfl

/-- The block's arithmetic at (p, n): the sum over q of x(p, q) · W(q, n), plus b(0, n). -/
theorem dense_block_apply (x : Vec Ideal S25000x64 .f32) (W : Vec Ideal S64x64 .f32) (b : Vec Ideal S1x64 .f32)
    (p : Fin 25000) (n : Fin 64) :
    k5_pay1 (F := Ideal) x W b (ix2 p n) = (∑ q : Fin 64, x (ix2 p q) * W (ix2 q n)) + b (ix2 0 n) := by
  unfold k5_pay1
  simp only [shapeCast_self]
  show FloatOps.matmul dot_S25000x64_S64x64_S25000x64_1_0_0_1_n_n none x W (constant (F := Ideal) S25000x64 .f32 0x00000000#32) (ix2 p n)
    + broadcastTo S25000x64 b broadcasts_S1x64_S25000x64 (ix2 p n) = _
  rw [Cert.MatmulPlain.matmul_plain_apply dot_S25000x64_S64x64_S25000x64_1_0_0_1_n_n rfl rfl rfl rfl rfl rfl,
    constant_apply, Ideal.ofBits_zero_f32, zero_add,
    broadcastTo_apply b broadcasts_S1x64_S25000x64 (ix2 p n) (ix2 0 n)
      (fun a => by match a with | ⟨0, _⟩ => rfl | ⟨1, _⟩ => rfl)]

/-- The block's arithmetic against the whole arrays: where the block's row p is the array's row r and the weights and
    the bias are the arrays', the block's entry at (p, n) is the layer's at (r, n). -/
theorem dense_block_eq (x : Vec Ideal S25000x64 .f32) (W : Vec Ideal S64x64 .f32) (b : Vec Ideal S1x64 .f32)
    (X : Cert.Spec.Mat 100000 64) (W' : Cert.Spec.Mat 64 64) (b' : Cert.Spec.Mat 1 64)
    (j : S25000x64.Idx) (p : Fin 25000) (n : Fin 64) (hj : j = ix2 p n) (i : S100000x64.Idx)
    (hx : ∀ q : Fin 64, x (ix2 p q) = X (ix2 (Cert.Spec.row i) q))
    (hW : ∀ q : Fin 64, W (ix2 q n) = W' (ix2 q (Cert.Spec.col i)))
    (hb : b (ix2 0 n) = b' (ix2 0 (Cert.Spec.col i))) :
    k5_pay1 (F := Ideal) x W b j = Cert.Spec.affine X W' b' i := by
  subst hj
  rw [dense_block_apply]
  unfold Cert.Spec.affine
  rw [hb, Finset.sum_congr rfl (fun q _ => by rw [hx q, hW q])]

/-- The index maps over the four grid points: the row blocks of x and of the output are the point's own, on
    the columns and on the whole-array windows the block index is 0. -/
theorem index_facts5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the layer of the arrays as the region finds them. -/
theorem flushed5 (c : Dev nD) (t : Fin cfg5.N) :
    (dat5 (F := Ideal) V c).flushed 3 t = ((cfg5.win 3).blk t).view.read (Elt Ideal)
      (Cert.Spec.affine (V c main_v73) (V c main_arg17) (V c main_v74)) := by
  show (cfg5.win 3).cut (grid5.coords t) ((dat5 (F := Ideal) V c).after 3 t) = _
  rw [after5_3]
  unfold out5_3
  rw [View.canon_unit_zero zero_offset5]
  simp only [View.ld_unit_zero (S := S25000x64) zero_offset5, View.ld_unit_zero (S := S64x64) zero_offset5,
    View.ld_unit_zero (S := S1x64) zero_offset5]
  obtain ⟨e0, e1, e2, e3, e4, e5, e6, e7⟩ := index_facts5 t
  funext j
  show k5_pay1 (F := Ideal) (iblk5 V c 0 t) (iblk5 V c 1 t) (iblk5 V c 2 t) j
    = Cert.Spec.affine (V c main_v73) (V c main_arg17) (V c main_v74) (((cfg5.win 3).blk t).view.emb j)
  refine dense_block_eq (iblk5 V c 0 t) (iblk5 V c 1 t) (iblk5 V c 2 t) (V c main_v73) (V c main_arg17) (V c main_v74)
    j (j 0) (j 1) (eq_ix2 j) (((cfg5.win 3).blk t).view.emb j) (fun q => ?_) (fun q => ?_) ?_
  · show V c main_v73 (((cfg5.win 0).blk t).view.emb (ix2 (j 0) q)) = V c main_v73 _
    refine congrArg (V c main_v73) (funext fun a => Fin.ext ?_)
    match a with
    | ⟨0, _⟩ => show win5_0.index t (0 : Fin 2) * 25000 + 1 * (j 0).val = win5_3.index t (0 : Fin 2) * 25000 + 1 * (j 0).val; omega
    | ⟨1, _⟩ => show win5_0.index t (1 : Fin 2) * 64 + 1 * q.val = q.val; omega
  · show V c main_arg17 (((cfg5.win 1).blk t).view.emb (ix2 q (j 1))) = V c main_arg17 _
    refine congrArg (V c main_arg17) (funext fun a => Fin.ext ?_)
    match a with
    | ⟨0, _⟩ => show win5_1.index t (0 : Fin 2) * 64 + 1 * q.val = q.val; omega
    | ⟨1, _⟩ => show win5_1.index t (1 : Fin 2) * 64 + 1 * (j 1).val = win5_3.index t (1 : Fin 2) * 64 + 1 * (j 1).val; omega
  · show V c main_v74 (((cfg5.win 2).blk t).view.emb (ix2 0 (j 1))) = V c main_v74 _
    refine congrArg (V c main_v74) (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the output array is in point t's block iff each coordinate is in the block's range on its axis. -/
theorem mem_block5 (t : Fin cfg5.N) (i : S100000x64.Idx) :
    i ∈ ((cfg5.win 3).blk t).view.set ↔ ∀ a : Fin 2, win5_3.index t a * S25000x64.size a ≤ (i a).val
      ∧ (i a).val < win5_3.index t a * S25000x64.size a + S25000x64.size a := by
  show i ∈ ((View.whole main_v75).slice (win5_3.rect t)).set ↔ _
  rw [View.set_slice_whole, Rect.mem_set_unit]
  exact Iff.rfl

/-- Every index of the output array is in some point's block: row r is in block r / 25000, every column in block 0. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  refine ⟨⟨(i 0).val / 25000, by show (i 0).val / 25000 < 4; omega⟩, flush5_3 _, ?_⟩
  rw [mem_block5]
  obtain ⟨-, -, -, -, -, -, e6, e7⟩ := index_facts5 ⟨(i 0).val / 25000, by show (i 0).val / 25000 < 4; omega⟩
  intro a
  match a with
  | ⟨0, _⟩ =>
    show win5_3.index _ (0 : Fin 2) * 25000 ≤ (i 0).val ∧ (i 0).val < win5_3.index _ (0 : Fin 2) * 25000 + 25000
    rw [e6]; show (i 0).val / 25000 * 25000 ≤ (i 0).val ∧ (i 0).val < (i 0).val / 25000 * 25000 + 25000; omega
  | ⟨1, _⟩ =>
    show win5_3.index _ (1 : Fin 2) * 64 ≤ (i 1).val ∧ (i 1).val < win5_3.index _ (1 : Fin 2) * 64 + 64
    rw [e7]; omega

/-- THE ARRAY the region leaves: x · W + b of the three arrays as the region finds them. -/
theorem value5 (c : Dev nD) : (dat5 (F := Ideal) V c).arrAt 3 cfg5.N
    = Cert.Spec.affine (V c main_v73) (V c main_arg17) (V c main_v74) :=
  (dat5 (F := Ideal) V c).arrAt_eq_of_cover 3 _ (fun t _ => flushed5 V c t) cover5

end Cert.KernelIdeal.Regions

end
-- ==== Proof.KReg6.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value
import Idealize.ShloMosaic.PureOps.Ideal.Laws

/-!
# Region 6: the affine layer after batch normalisation and rectification, as one function of whole arrays

The region's output array (100000 rows of 64 features, written in four blocks of 25000 rows) ends holding
`bnDense h mean var g beta W b`: at (r, n) the sum over q of max (((h(r, q) − mean(q)) · rsqrt (var(q) + ε)) · g(q) + beta(q)) 0
times W(q, n), plus b(n). First the stored value of one block is read at an index; then each input block is
identified with the part of its array the block's rectangle names; then the four blocks are shown to cover the array.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

/-- A row vector of 64 features broadcast down 25000 rows, read at (p, n): the vector at (0, n). -/
theorem bcastRow64_apply (x : Vec Ideal S1x64 .f32) (p : Fin 25000) (n : Fin 64) :
    broadcastTo S25000x64 x broadcasts_S1x64_S25000x64 (ix2 p n) = x (ix2 0 n) := by
  refine broadcastTo_apply x _ _ _ ?_
  intro a
  match a with
  | ⟨0, _⟩ => rfl
  | ⟨1, _⟩ => rfl

/-- The body's stored value at (p, n): the batch-normalised, rectified row p of h times column n of W, plus
    the bias at n. -/
theorem pay6_apply (var : Vec Ideal S1x64 .f32) (h : Vec Ideal S25000x64 .f32) (mean g beta : Vec Ideal S1x64 .f32)
    (W : Vec Ideal S64x64 .f32) (b : Vec Ideal S1x64 .f32) (p : Fin 25000) (n : Fin 64) :
    k6_pay1 var h mean g beta W b (ix2 p n)
      = (∑ q : Fin 64, max ((((h (ix2 p q) - mean (ix2 0 q)) * Ideal.rsqrt (var (ix2 0 q) + Cert.Spec.eps)) * g (ix2 0 q))
          + beta (ix2 0 q)) 0 * W (ix2 q n)) + b (ix2 0 n) := by
  unfold k6_pay1
  simp only [shapeCast_self]
  rw [addf_apply, bcastRow64_apply]
  refine (congrArg (· + b (ix2 0 n)) (Cert.MatmulPlain.matmul_plain_apply
    dot_S25000x64_S64x64_S25000x64_1_0_0_1_n_n rfl rfl rfl rfl rfl rfl none _ W _ p n)).trans ?_
  rw [constant_apply, Ideal.ofBits_zero_f32, zero_add]
  congr 1
  refine Finset.sum_congr rfl fun q _ => ?_
  rw [maximumf_apply, addf_apply, mulf_apply, mulf_apply, subf_apply, bcastRow64_apply, bcastRow64_apply,
    bcastRow64_apply, bcastRow64_apply, broadcast_apply]
  simp only [Ideal.ofBits_def, Ideal.ofBits_zero_f32]
  rfl

variable (V : (c : Dev nD) → (b : Ref sig .tc) → Buf (Elt Ideal) ((c : Thread nD τ).loc b))

/-- The offset (0, 0) is the zero offset. -/
theorem zero_offset6 : (![0, 0] : Fin 2 → Nat) = fun _ => 0 := funext fun a => by fin_cases a <;> rfl

/-- The block's entry against the whole arrays: where row (j 0) of the block h is row (i 0) of the array H and the
    columns agree, the stored value at j is the layer's at i. -/
theorem bnDense_block_eq (var : Vec Ideal S1x64 .f32) (h : Vec Ideal S25000x64 .f32) (mean g beta : Vec Ideal S1x64 .f32)
    (W : Vec Ideal S64x64 .f32) (b : Vec Ideal S1x64 .f32) (H : Cert.Spec.Mat 100000 64)
    (j : S25000x64.Idx) (i : S100000x64.Idx)
    (hrow : ∀ q : Fin 64, h (ix2 (j 0) q) = H (ix2 (i 0) q)) (hcol : (j 1).val = (i 1).val) :
    k6_pay1 var h mean g beta W b j = Cert.Spec.bnDense H mean var g beta W b i := by
  obtain ⟨p, n, rfl⟩ : ∃ (p : Fin 25000) (n : Fin 64), j = ix2 p n := ⟨j 0, j 1, eq_ix2 j⟩
  obtain ⟨r, n', rfl⟩ : ∃ (r : Fin 100000) (n' : Fin 64), i = ix2 r n' := ⟨i 0, i 1, eq_ix2 i⟩
  obtain rfl : n = n' := Fin.ext hcol
  rw [pay6_apply]
  show _ = (∑ q : Fin 64, max ((((H (ix2 r q) - mean (ix2 0 q)) * Ideal.rsqrt (var (ix2 0 q) + Cert.Spec.eps)) * g (ix2 0 q))
          + beta (ix2 0 q)) 0 * W (ix2 q n)) + b (ix2 0 n)
  congr 1
  refine Finset.sum_congr rfl fun q _ => ?_
  rw [show h (ix2 p q) = H (ix2 r q) from hrow q]

/-- The printed index maps over the four grid points: the row-blocked windows (h and the output) are at block t on the
    rows and block 0 on the columns; every other window is at block (0, 0). -/
theorem index_facts6 : ∀ t : Fin cfg6.N,
    win6_0.index t (0 : Fin 2) = t.val ∧ win6_0.index t (1 : Fin 2) = 0
    ∧ win6_7.index t (0 : Fin 2) = t.val ∧ win6_7.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The block of h at point t is rows 25000 t … 25000 t + 24999 of the array. -/
theorem hblock6_apply (c : Dev nD) (t : Fin cfg6.N) (x : S25000x64.Idx) (k : S100000x64.Idx)
    (hk0 : (k 0).val = t.val * 25000 + (x 0).val) (hk1 : (k 1).val = (x 1).val) :
    (iblk6 V c 0 t : Vec Ideal S25000x64 .f32) x = (V c main_v75 : S100000x64.Idx → EReal) k := by
  obtain ⟨e0, e1, -⟩ := index_facts6 t
  unfold iblk6
  rw [View.read_apply]
  show V c main_v75 _ = V c main_v75 _
  congr 1
  funext a
  apply Fin.ext
  match a with
  | ⟨0, _⟩ => show win6_0.index t 0 * 25000 + 1 * (x 0).val = (k 0).val; rw [e0, hk0]; omega
  | ⟨1, _⟩ => show win6_0.index t 1 * 64 + 1 * (x 1).val = (k 1).val; rw [e1, hk1]; omega

/-- The mean's block at every point is the whole array. -/
theorem meanblock6_eq (c : Dev nD) (t : Fin cfg6.N) :
    (iblk6 V c 1 t : Vec Ideal S1x64 .f32) = (V c main_v80 : S1x64.Idx → EReal) := by
  obtain ⟨-, -, -, -, e0, e1, -⟩ := index_facts6 t
  funext x
  unfold iblk6
  rw [View.read_apply]
  show V c main_v80 _ = V c main_v80 _
  congr 1
  funext a
  apply Fin.ext
  match a with
  | ⟨0, _⟩ => show win6_1.index t 0 * 1 + 1 * (x 0).val = (x 0).val; rw [e0]; omega
  | ⟨1, _⟩ => show win6_1.index t 1 * 64 + 1 * (x 1).val = (x 1).val; rw [e1]; omega

/-- The variance's block at every point is the whole array. -/
theorem varblock6_eq (c : Dev nD) (t : Fin cfg6.N) :
    (iblk6 V c 2 t : Vec Ideal S1x64 .f32) = (V c main_v81 : S1x64.Idx → EReal) := by
  obtain ⟨-, -, -, -, -, -, e0, e1, -⟩ := index_facts6 t
  funext x
  unfold iblk6
  rw [View.read_apply]
  show V c main_v81 _ = V c main_v81 _
  congr 1
  funext a
  apply Fin.ext
  match a with
  | ⟨0, _⟩ => show win6_2.index t 0 * 1 + 1 * (x 0).val = (x 0).val; rw [e0]; omega
  | ⟨1, _⟩ => show win6_2.index t 1 * 64 + 1 * (x 1).val = (x 1).val; rw [e1]; omega

/-- The scale's block at every point is the whole array. -/
theorem scaleblock6_eq (c : Dev nD) (t : Fin cfg6.N) :
    (iblk6 V c 3 t : Vec Ideal S1x64 .f32) = (V c main_v82 : S1x64.Idx → EReal) := by
  obtain ⟨-, -, -, -, -, -, -, -, e0, e1, -⟩ := index_facts6 t
  funext x
  unfold iblk6
  rw [View.read_apply]
  show V c main_v82 _ = V c main_v82 _
  congr 1
  funext a
  apply Fin.ext
  match a with
  | ⟨0, _⟩ => show win6_3.index t 0 * 1 + 1 * (x 0).val = (x 0).val; rw [e0]; omega
  | ⟨1, _⟩ => show win6_3.index t 1 * 64 + 1 * (x 1).val = (x 1).val; rw [e1]; omega

/-- The shift's block at every point is the whole array. -/
theorem shiftblock6_eq (c : Dev nD) (t : Fin cfg6.N) :
    (iblk6 V c 4 t : Vec Ideal S1x64 .f32) = (V c main_v83 : S1x64.Idx → EReal) := by
  obtain ⟨-, -, -, -, -, -, -, -, -, -, e0, e1, -⟩ := index_facts6 t
  funext x
  unfold iblk6
  rw [View.read_apply]
  show V c main_v83 _ = V c main_v83 _
  congr 1
  funext a
  apply Fin.ext
  match a with
  | ⟨0, _⟩ => show win6_4.index t 0 * 1 + 1 * (x 0).val = (x 0).val; rw [e0]; omega
  | ⟨1, _⟩ => show win6_4.index t 1 * 64 + 1 * (x 1).val = (x 1).val; rw [e1]; omega

/-- The weight matrix's block at every point is the whole array. -/
theorem weightblock6_eq (c : Dev nD) (t : Fin cfg6.N) :
    (iblk6 V c 5 t : Vec Ideal S64x64 .f32) = (V c main_arg21 : S64x64.Idx → EReal) := by
  obtain ⟨-, -, -, -, -, -, -, -, -, -, -, -, e0, e1, -⟩ := index_facts6 t
  funext x
  unfold iblk6
  rw [View.read_apply]
  show V c main_arg21 _ = V c main_arg21 _
  congr 1
  funext a
  apply Fin.ext
  match a with
  | ⟨0, _⟩ => show win6_5.index t 0 * 64 + 1 * (x 0).val = (x 0).val; rw [e0]; omega
  | ⟨1, _⟩ => show win6_5.index t 1 * 64 + 1 * (x 1).val = (x 1).val; rw [e1]; omega

/-- The bias's block at every point is the whole array. -/
theorem biasblock6_eq (c : Dev nD) (t : Fin cfg6.N) :
    (iblk6 V c 6 t : Vec Ideal S1x64 .f32) = (V c main_v84 : S1x64.Idx → EReal) := by
  obtain ⟨-, -, -, -, -, -, -, -, -, -, -, -, -, -, e0, e1⟩ := index_facts6 t
  funext x
  unfold iblk6
  rw [View.read_apply]
  show V c main_v84 _ = V c main_v84 _
  congr 1
  funext a
  apply Fin.ext
  match a with
  | ⟨0, _⟩ => show win6_6.index t 0 * 1 + 1 * (x 0).val = (x 0).val; rw [e0]; omega
  | ⟨1, _⟩ => show win6_6.index t 1 * 64 + 1 * (x 1).val = (x 1).val; rw [e1]; omega

/-- What point t writes back is block t of the layer of the arrays as the region finds them. -/
theorem flushed6_eq (c : Dev nD) (t : Fin cfg6.N) :
    (dat6 (F := Ideal) V c).flushed 7 t = ((cfg6.win 7).blk t).view.read (Elt Ideal)
      (Cert.Spec.bnDense (V c main_v75) (V c main_v80) (V c main_v81) (V c main_v82) (V c main_v83) (V c main_arg21)
        (V c main_v84)) := by
  show (cfg6.win 7).cut (grid6.coords t) ((dat6 V c).after 7 t) = _
  rw [after6_7]
  unfold out6_7
  rw [View.canon_unit_zero zero_offset6]
  simp only [View.ld_unit_zero (S := S25000x64) zero_offset6, View.ld_unit_zero (S := S1x64) zero_offset6,
    View.ld_unit_zero (S := S64x64) zero_offset6]
  rw [meanblock6_eq, varblock6_eq, scaleblock6_eq, shiftblock6_eq, weightblock6_eq, biasblock6_eq]
  obtain ⟨-, -, e0, e1, -⟩ := index_facts6 t
  funext j
  refine bnDense_block_eq (V c main_v81) (iblk6 V c 0 t) (V c main_v80) (V c main_v82) (V c main_v83) (V c main_arg21)
    (V c main_v84) (V c main_v75) j (((cfg6.win 7).blk t).view.emb j) (fun q => hblock6_apply V c t _ _ ?_ ?_) ?_
  · show win6_7.index t 0 * 25000 + 1 * (j 0).val = t.val * 25000 + (j 0).val
    rw [e0]; omega
  · rfl
  · show (j 1).val = win6_7.index t 1 * 64 + 1 * (j 1).val
    rw [e1]; omega

/-- An index of the output array is in point t's block iff each coordinate is in the block's range on its axis. -/
theorem mem_block6 (t : Fin cfg6.N) (i : S100000x64.Idx) :
    i ∈ ((cfg6.win 7).blk t).view.set ↔ ∀ a : Fin 2, win6_7.index t a * S25000x64.size a ≤ (i a).val
      ∧ (i a).val < win6_7.index t a * S25000x64.size a + S25000x64.size a := by
  show i ∈ ((View.whole main_v85).slice (win6_7.rect t)).set ↔ _
  rw [View.set_slice_whole, Rect.mem_set_unit]
  exact Iff.rfl

/-- Every index of the output array is in the block of the point its row falls in: row r is in block r / 25000. -/
theorem cover6 (i : S100000x64.Idx) :
    ∃ t : Fin cfg6.N, (cfg6.win 7).flush t = true ∧ i ∈ ((cfg6.win 7).blk t).view.set := by
  have hi0 : (i 0).val < 100000 := (i 0).isLt
  have hi1 : (i 1).val < 64 := (i 1).isLt
  have hN : cfg6.N = 4 := N_6
  obtain ⟨t, ht⟩ : ∃ t : Fin cfg6.N, t.val = (i 0).val / 25000 := ⟨⟨(i 0).val / 25000, by rw [hN]; omega⟩, rfl⟩
  obtain ⟨-, -, e0, e1, -⟩ := index_facts6 t
  refine ⟨t, flush6_7 t, ?_⟩
  rw [mem_block6]
  intro a
  match a with
  | ⟨0, _⟩ =>
    show win6_7.index t 0 * 25000 ≤ (i 0).val ∧ (i 0).val < win6_7.index t 0 * 25000 + 25000
    rw [e0, ht]; omega
  | ⟨1, _⟩ =>
    show win6_7.index t 1 * 64 ≤ (i 1).val ∧ (i 1).val < win6_7.index t 1 * 64 + 64
    rw [e1]; omega

/-- THE OUTPUT ARRAY after the region: the affine layer after the batch normalisation and rectification of h. -/
theorem value6 (c : Dev nD) : (dat6 (F := Ideal) V c).arrAt 7 cfg6.N
      = Cert.Spec.bnDense (V c main_v75) (V c main_v80) (V c main_v81) (V c main_v82) (V c main_v83) (V c main_arg21) (V c main_v84) :=
  (dat6 (F := Ideal) V c).arrAt_eq_of_cover 7 _ (fun t _ => flushed6_eq V c t) cover6

end Cert.KernelIdeal.Regions

end
-- ==== Proof.KReg7.lean ====
import proofs.«401691_j50775103373990_2_alg».proof.Proof.Gen.KernelIdeal.Frame
import proofs.«401691_j50775103373990_2_alg».proof.Proof.Spec
import proofs.«401691_j50775103373990_2_alg».proof.Proof.LibMatmulPlain
import Idealize.ShloMosaic.Lib.ValueIdx
import Idealize.ShloMosaic.Lib.Pipeline.Value
import Idealize.ShloMosaic.PureOps.Ideal.Laws

/-!
# Region 7: the logistic of the affine layer after batch normalisation and rectification, as one function of whole arrays

The region's output array (100000 rows of one column, written in four blocks of 25000 rows) ends holding
`bnDenseSig h mean var g beta W b`: at (r, 0) the logistic of the sum over q of
max (((h(r, q) − mean(q)) · rsqrt (var(q) + ε)) · g(q) + beta(q)) 0 times W(q, 0), plus b(0). First the stored value of
one block is read at an index; then each input block is identified with the part of its array the block's rectangle
names; then the four blocks are shown to cover the array.
-/

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx

/-- A row vector of 64 features broadcast down 25000 rows, read at (p, n): the vector at (0, n). -/
theorem featureRow7_apply (x : Vec Ideal S1x64 .f32) (p : Fin 25000) (n : Fin 64) :
    broadcastTo S25000x64 x broadcasts_S1x64_S25000x64 (ix2 p n) = x (ix2 0 n) := by
  refine broadcastTo_apply x _ _ _ ?_
  intro a
  match a with
  | ⟨0, _⟩ => rfl
  | ⟨1, _⟩ => rfl

/-- The one-entry bias broadcast down 25000 rows of one column, read at (p, n): the bias at (0, n). -/
theorem biasColumn7_apply (x : Vec Ideal S1x1 .f32) (p : Fin 25000) (n : Fin 1) :
    broadcastTo S25000x1 x broadcasts_S1x1_S25000x1 (ix2 p n) = x (ix2 0 n) := by
  refine broadcastTo_apply x _ _ _ ?_
  intro a
  match a with
  | ⟨0, _⟩ => rfl
  | ⟨1, _⟩ => show n.val = 0; exact Fin.val_eq_zero n

/-- The logistic of a vector, read at an index. -/
theorem logistic7_apply {s : Shape} (a : FVec Ideal s .f32) (i : s.Idx) : logistic a i = Ideal.logistic (a i) := rfl

/-- The body's stored value at (p, n): the logistic of the batch-normalised, rectified row p of h times column n of W,
    plus the bias at n. -/
theorem pay7_apply (var : Vec Ideal S1x64 .f32) (h : Vec Ideal S25000x64 .f32) (mean g beta : Vec Ideal S1x64 .f32)
    (W : Vec Ideal S64x1 .f32) (b : Vec Ideal S1x1 .f32) (p : Fin 25000) (n : Fin 1) :
    k7_pay1 var h mean g beta W b (ix2 p n)
      = Ideal.logistic ((∑ q : Fin 64, max ((((h (ix2 p q) - mean (ix2 0 q)) * Ideal.rsqrt (var (ix2 0 q) + Cert.Spec.eps)) * g (ix2 0 q))
          + beta (ix2 0 q)) 0 * W (ix2 q n)) + b (ix2 0 n)) := by
  unfold k7_pay1
  simp only [shapeCast_self]
  rw [logistic7_apply, addf_apply, biasColumn7_apply]
  refine congrArg Ideal.logistic ?_
  refine (congrArg (· + b (ix2 0 n)) (Cert.MatmulPlain.matmul_plain_apply
    dot_S25000x64_S64x1_S25000x1_1_0_0_1_n_n rfl rfl rfl rfl rfl rfl none _ W _ p n)).trans ?_
  rw [constant_apply, Ideal.ofBits_zero_f32, zero_add]
  congr 1
  refine Finset.sum_congr rfl fun q _ => ?_
  rw [maximumf_apply, addf_apply, mulf_apply, mulf_apply, subf_apply, featureRow7_apply, featureRow7_apply,
    featureRow7_apply, featureRow7_apply, broadcast_apply]
  simp only [Ideal.ofBits_def, Ideal.ofBits_zero_f32]
  rfl

variable (V : (c : Dev nD) → (b : Ref sig .tc) → Buf (Elt Ideal) ((c : Thread nD τ).loc b))

/-- The offset (0, 0) is the zero offset. -/
theorem zero_offset7 : (![0, 0] : Fin 2 → Nat) = fun _ => 0 := funext fun a => by fin_cases a <;> rfl

/-- The block's entry against the whole arrays: where row (j 0) of the block h is row (i 0) of the array H and the
    columns agree, the stored value at j is the layer's at i. -/
theorem bnDenseSig_block_eq (var : Vec Ideal S1x64 .f32) (h : Vec Ideal S25000x64 .f32) (mean g beta : Vec Ideal S1x64 .f32)
    (W : Vec Ideal S64x1 .f32) (b : Vec Ideal S1x1 .f32) (H : Cert.Spec.Mat 100000 64)
    (j : S25000x1.Idx) (i : S100000x1.Idx)
    (hrow : ∀ q : Fin 64, h (ix2 (j 0) q) = H (ix2 (i 0) q)) (hcol : (j 1).val = (i 1).val) :
    k7_pay1 var h mean g beta W b j = Cert.Spec.bnDenseSig H mean var g beta W b i := by
  obtain ⟨p, n, rfl⟩ : ∃ (p : Fin 25000) (n : Fin 1), j = ix2 p n := ⟨j 0, j 1, eq_ix2 j⟩
  obtain ⟨r, n', rfl⟩ : ∃ (r : Fin 100000) (n' : Fin 1), i = ix2 r n' := ⟨i 0, i 1, eq_ix2 i⟩
  obtain rfl : n = n' := Fin.ext hcol
  rw [pay7_apply]
  show _ = Ideal.logistic ((∑ q : Fin 64, max ((((H (ix2 r q) - mean (ix2 0 q)) * Ideal.rsqrt (var (ix2 0 q) + Cert.Spec.eps)) * g (ix2 0 q))
          + beta (ix2 0 q)) 0 * W (ix2 q n)) + b (ix2 0 n))
  congr 2
  refine Finset.sum_congr rfl fun q _ => ?_
  rw [show h (ix2 p q) = H (ix2 r q) from hrow q]

/-- The printed index maps over the four grid points: the row-blocked windows (h and the output) are at block t on the
    rows and block 0 on the columns; every other window is at block (0, 0). -/
theorem index_facts7 : ∀ t : Fin cfg7.N,
    win7_0.index t (0 : Fin 2) = t.val ∧ win7_0.index t (1 : Fin 2) = 0
    ∧ win7_7.index t (0 : Fin 2) = t.val ∧ win7_7.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- The block of h at point t is rows 25000 t … 25000 t + 24999 of the array. -/
theorem hblock7_apply (c : Dev nD) (t : Fin cfg7.N) (x : S25000x64.Idx) (k : S100000x64.Idx)
    (hk0 : (k 0).val = t.val * 25000 + (x 0).val) (hk1 : (k 1).val = (x 1).val) :
    (iblk7 V c 0 t : Vec Ideal S25000x64 .f32) x = (V c main_v85 : S100000x64.Idx → EReal) k := by
  obtain ⟨e0, e1, -⟩ := index_facts7 t
  unfold iblk7
  rw [View.read_apply]
  show V c main_v85 _ = V c main_v85 _
  congr 1
  funext a
  apply Fin.ext
  match a with
  | ⟨0, _⟩ => show win7_0.index t 0 * 25000 + 1 * (x 0).val = (k 0).val; rw [e0, hk0]; omega
  | ⟨1, _⟩ => show win7_0.index t 1 * 64 + 1 * (x 1).val = (k 1).val; rw [e1, hk1]; omega

/-- The mean's block at every point is the whole array. -/
theorem meanblock7_eq (c : Dev nD) (t : Fin cfg7.N) :
    (iblk7 V c 1 t : Vec Ideal S1x64 .f32) = (V c main_v90 : S1x64.Idx → EReal) := by
  obtain ⟨-, -, -, -, e0, e1, -⟩ := index_facts7 t
  funext x
  unfold iblk7
  rw [View.read_apply]
  show V c main_v90 _ = V c main_v90 _
  congr 1
  funext a
  apply Fin.ext
  match a with
  | ⟨0, _⟩ => show win7_1.index t 0 * 1 + 1 * (x 0).val = (x 0).val; rw [e0]; omega
  | ⟨1, _⟩ => show win7_1.index t 1 * 64 + 1 * (x 1).val = (x 1).val; rw [e1]; omega

/-- The variance's block at every point is the whole array. -/
theorem varblock7_eq (c : Dev nD) (t : Fin cfg7.N) :
    (iblk7 V c 2 t : Vec Ideal S1x64 .f32) = (V c main_v91 : S1x64.Idx → EReal) := by
  obtain ⟨-, -, -, -, -, -, e0, e1, -⟩ := index_facts7 t
  funext x
  unfold iblk7
  rw [View.read_apply]
  show V c main_v91 _ = V c main_v91 _
  congr 1
  funext a
  apply Fin.ext
  match a with
  | ⟨0, _⟩ => show win7_2.index t 0 * 1 + 1 * (x 0).val = (x 0).val; rw [e0]; omega
  | ⟨1, _⟩ => show win7_2.index t 1 * 64 + 1 * (x 1).val = (x 1).val; rw [e1]; omega

/-- The scale's block at every point is the whole array. -/
theorem scaleblock7_eq (c : Dev nD) (t : Fin cfg7.N) :
    (iblk7 V c 3 t : Vec Ideal S1x64 .f32) = (V c main_v92 : S1x64.Idx → EReal) := by
  obtain ⟨-, -, -, -, -, -, -, -, e0, e1, -⟩ := index_facts7 t
  funext x
  unfold iblk7
  rw [View.read_apply]
  show V c main_v92 _ = V c main_v92 _
  congr 1
  funext a
  apply Fin.ext
  match a with
  | ⟨0, _⟩ => show win7_3.index t 0 * 1 + 1 * (x 0).val = (x 0).val; rw [e0]; omega
  | ⟨1, _⟩ => show win7_3.index t 1 * 64 + 1 * (x 1).val = (x 1).val; rw [e1]; omega

/-- The shift's block at every point is the whole array. -/
theorem shiftblock7_eq (c : Dev nD) (t : Fin cfg7.N) :
    (iblk7 V c 4 t : Vec Ideal S1x64 .f32) = (V c main_v93 : S1x64.Idx → EReal) := by
  obtain ⟨-, -, -, -, -, -, -, -, -, -, e0, e1, -⟩ := index_facts7 t
  funext x
  unfold iblk7
  rw [View.read_apply]
  show V c main_v93 _ = V c main_v93 _
  congr 1
  funext a
  apply Fin.ext
  match a with
  | ⟨0, _⟩ => show win7_4.index t 0 * 1 + 1 * (x 0).val = (x 0).val; rw [e0]; omega
  | ⟨1, _⟩ => show win7_4.index t 1 * 64 + 1 * (x 1).val = (x 1).val; rw [e1]; omega

/-- The weight column's block at every point is the whole array. -/
theorem weightblock7_eq (c : Dev nD) (t : Fin cfg7.N) :
    (iblk7 V c 5 t : Vec Ideal S64x1 .f32) = (V c main_arg25 : S64x1.Idx → EReal) := by
  obtain ⟨-, -, -, -, -, -, -, -, -, -, -, -, e0, e1, -⟩ := index_facts7 t
  funext x
  unfold iblk7
  rw [View.read_apply]
  show V c main_arg25 _ = V c main_arg25 _
  congr 1
  funext a
  apply Fin.ext
  match a with
  | ⟨0, _⟩ => show win7_5.index t 0 * 64 + 1 * (x 0).val = (x 0).val; rw [e0]; omega
  | ⟨1, _⟩ => show win7_5.index t 1 * 1 + 1 * (x 1).val = (x 1).val; rw [e1]; omega

/-- The bias's block at every point is the whole array. -/
theorem biasblock7_eq (c : Dev nD) (t : Fin cfg7.N) :
    (iblk7 V c 6 t : Vec Ideal S1x1 .f32) = (V c main_v94 : S1x1.Idx → EReal) := by
  obtain ⟨-, -, -, -, -, -, -, -, -, -, -, -, -, -, e0, e1⟩ := index_facts7 t
  funext x
  unfold iblk7
  rw [View.read_apply]
  show V c main_v94 _ = V c main_v94 _
  congr 1
  funext a
  apply Fin.ext
  match a with
  | ⟨0, _⟩ => show win7_6.index t 0 * 1 + 1 * (x 0).val = (x 0).val; rw [e0]; omega
  | ⟨1, _⟩ => show win7_6.index t 1 * 1 + 1 * (x 1).val = (x 1).val; rw [e1]; omega

/-- What point t writes back is block t of the layer of the arrays as the region finds them. -/
theorem flushed7_eq (c : Dev nD) (t : Fin cfg7.N) :
    (dat7 (F := Ideal) V c).flushed 7 t = ((cfg7.win 7).blk t).view.read (Elt Ideal)
      (Cert.Spec.bnDenseSig (V c main_v85) (V c main_v90) (V c main_v91) (V c main_v92) (V c main_v93) (V c main_arg25)
        (V c main_v94)) := by
  show (cfg7.win 7).cut (grid7.coords t) ((dat7 V c).after 7 t) = _
  rw [after7_7]
  unfold out7_7
  rw [View.canon_unit_zero zero_offset7]
  simp only [View.ld_unit_zero (S := S25000x64) zero_offset7, View.ld_unit_zero (S := S1x64) zero_offset7,
    View.ld_unit_zero (S := S64x1) zero_offset7, View.ld_unit_zero (S := S1x1) zero_offset7]
  rw [meanblock7_eq, varblock7_eq, scaleblock7_eq, shiftblock7_eq, weightblock7_eq, biasblock7_eq]
  obtain ⟨-, -, e0, e1, -⟩ := index_facts7 t
  funext j
  refine bnDenseSig_block_eq (V c main_v91) (iblk7 V c 0 t) (V c main_v90) (V c main_v92) (V c main_v93) (V c main_arg25)
    (V c main_v94) (V c main_v85) j (((cfg7.win 7).blk t).view.emb j) (fun q => hblock7_apply V c t _ _ ?_ ?_) ?_
  · show win7_7.index t 0 * 25000 + 1 * (j 0).val = t.val * 25000 + (j 0).val
    rw [e0]; omega
  · rfl
  · show (j 1).val = win7_7.index t 1 * 1 + 1 * (j 1).val
    rw [e1]; omega

/-- An index of the output array is in point t's block iff each coordinate is in the block's range on its axis. -/
theorem mem_block7 (t : Fin cfg7.N) (i : S100000x1.Idx) :
    i ∈ ((cfg7.win 7).blk t).view.set ↔ ∀ a : Fin 2, win7_7.index t a * S25000x1.size a ≤ (i a).val
      ∧ (i a).val < win7_7.index t a * S25000x1.size a + S25000x1.size a := by
  show i ∈ ((View.whole main_v95).slice (win7_7.rect t)).set ↔ _
  rw [View.set_slice_whole, Rect.mem_set_unit]
  exact Iff.rfl

/-- Every index of the output array is in the block of the point its row falls in: row r is in block r / 25000. -/
theorem cover7 (i : S100000x1.Idx) :
    ∃ t : Fin cfg7.N, (cfg7.win 7).flush t = true ∧ i ∈ ((cfg7.win 7).blk t).view.set := by
  have hi0 : (i 0).val < 100000 := (i 0).isLt
  have hi1 : (i 1).val < 1 := (i 1).isLt
  have hN : cfg7.N = 4 := N_7
  obtain ⟨t, ht⟩ : ∃ t : Fin cfg7.N, t.val = (i 0).val / 25000 := ⟨⟨(i 0).val / 25000, by rw [hN]; omega⟩, rfl⟩
  obtain ⟨-, -, e0, e1, -⟩ := index_facts7 t
  refine ⟨t, flush7_7 t, ?_⟩
  rw [mem_block7]
  intro a
  match a with
  | ⟨0, _⟩ =>
    show win7_7.index t 0 * 25000 ≤ (i 0).val ∧ (i 0).val < win7_7.index t 0 * 25000 + 25000
    rw [e0, ht]; omega
  | ⟨1, _⟩ =>
    show win7_7.index t 1 * 1 ≤ (i 1).val ∧ (i 1).val < win7_7.index t 1 * 1 + 1
    rw [e1]; omega

/-- THE OUTPUT ARRAY after the region: the logistic of the affine layer after the batch normalisation and
    rectification of h. -/
theorem value7 (c : Dev nD) : (dat7 (F := Ideal) V c).arrAt 7 cfg7.N
      = Cert.Spec.bnDenseSig (V c main_v85) (V c main_v90) (V c main_v91) (V c main_v92) (V c main_v93) (V c main_arg25) (V c main_v94) :=
  (dat7 (F := Ideal) V c).arrAt_eq_of_cover 7 _ (fun t _ => flushed7_eq V c t) cover7

end Cert.KernelIdeal.Regions

end
-- ==== Proof.KRegAll.lean ====
import proofs.«401691_j50775103373990_2_alg».proof.Proof.KRegStmt
import proofs.«401691_j50775103373990_2_alg».proof.Proof.KReg0
import proofs.«401691_j50775103373990_2_alg».proof.Proof.KReg1
import proofs.«401691_j50775103373990_2_alg».proof.Proof.KReg2
import proofs.«401691_j50775103373990_2_alg».proof.Proof.KReg3
import proofs.«401691_j50775103373990_2_alg».proof.Proof.KReg4
import proofs.«401691_j50775103373990_2_alg».proof.Proof.KReg5
import proofs.«401691_j50775103373990_2_alg».proof.Proof.KReg6
import proofs.«401691_j50775103373990_2_alg».proof.Proof.KReg7

/-! The eight regions' values, gathered. -/

noncomputable section

namespace Cert.KernelIdeal.Regions

/-- Each region's output array is its layer of the region's input arrays as entered. -/
theorem values : Values := ⟨value0, value1, value2, value3, value4, value5, value6, value7⟩

end Cert.KernelIdeal.Regions

end
-- ==== Proof.KHost.lean ====
import proofs.«401691_j50775103373990_2_alg».proof.Proof.Gen.KernelIdeal
import Idealize.ShloMosaic.PureOps.Ideal

/-!
# The host-side functions both programs share, named

Both programs route messages along two edge lists (row 0 of a list holds the source nodes, row 1 the target
nodes), wrap a negative source index by the table's length, gather the source rows (clamped into the table),
and add the message rows into a table of zeros at the target rows (a target outside the table is dropped); and
both take a column's mean and its (population) variance over the 100000 rows. These are those compositions of
host operations, each under one name.
-/

noncomputable section

namespace Cert.KernelIdeal.Host

open Cert.KernelIdeal Cert.KernelIdeal.Gen Idealize.ShloMosaic Idealize.ShloMosaic.TcCoe

/-- Row 0 of an edge list: the source nodes. -/
def edgeRow0 (e : IVec S2x1000000 32) : IVec S1000000 32 :=
  shapeCast S1000000 (extractStridedSlice S1x1000000 ![0, 0] e slices_S2x1000000_S1x1000000_0_0) shapeCasts_S1x1000000_S1000000

/-- Row 1 of an edge list: the target nodes. -/
def edgeRow1 (e : IVec S2x1000000 32) : IVec S1000000 32 :=
  shapeCast S1000000 (extractStridedSlice S1x1000000 ![1, 0] e slices_S2x1000000_S1x1000000_1_0) shapeCasts_S1x1000000_S1000000

/-- A negative index wrapped by the table's length 100000. -/
def wrapIdx (t : IVec S1000000 32) : IVec S1000000 32 :=
  select (cmpi .slt t (broadcastInDim S1000000 ![] bcast_S_S1000000 (constantI S_ 32 0#32)))
    (addi t (broadcastInDim S1000000 ![] bcast_S_S1000000 (constantI S_ 32 100000#32))) t

/-- A vector of indices as a column of start indices. -/
def asCol (t : IVec S1000000 32) : IVec S1000000x1 32 :=
  broadcastInDim S1000000x1 ![0] bcast_S1000000_S1000000x1_0 t

/-- The column of (wrapped) source nodes of an edge list. -/
def srcCol (e : IVec S2x1000000 32) : IVec S1000000x1 32 := asCol (wrapIdx (edgeRow0 e))

/-- The column of target nodes of an edge list. -/
def dstCol (e : IVec S2x1000000 32) : IVec S1000000x1 32 := asCol (edgeRow1 e)

/-- The table of zeros messages are added into. -/
def zeros32 : FVec Ideal S100000x32 .f32 :=
  broadcastInDim S100000x32 ![] bcast_S_S100000x32 (constant (F := Ideal) S_ .f32 0x00000000#32)

/-- The message rows of an edge list added into a table of zeros at the edges' target nodes. -/
def segSum (e : IVec S2x1000000 32) (msg : FVec Ideal S1000000x32 .f32) : FVec Ideal S100000x32 .f32 :=
  Host.scatterAdd scatter_S100000x32_S1000000x1_S1000000x32_1_0_0_1 zeros32 (dstCol e) msg

/-- The rows of a 32-column table at an edge list's source nodes. -/
def gatherRows32 (P : FVec Ideal S100000x32 .f32) (e : IVec S2x1000000 32) : FVec Ideal S1000000x32 .f32 :=
  Host.gather gather_S100000x32_S1000000x1_S1000000x32_1_0_n_n_0_1_132 P (srcCol e)

/-- A column's mean over the 100000 rows: the sum divided by 100000. -/
def meanOf (h : FVec Ideal S100000x64 .f32) : FVec Ideal S64 .f32 :=
  Host.divf (Host.reduceAdd h (constant (F := Ideal) S_ .f32 0x00000000#32) reducesTo_S100000x64_S64_d0 h_S_)
    (broadcastInDim S64 ![] bcast_S_S64 (constant (F := Ideal) S_ .f32 0x47C35000#32))

/-- The count the variance divides by: 100000 minus the zero degrees of freedom given up. -/
def varCount : FVec Ideal S_ .f32 :=
  subf (constant (F := Ideal) S_ .f32 0x47C35000#32) (sitofp .f32 (constantI S_ 32 0#32))

/-- The rows centred on the column means (the means taken as in the variance: through a one-row matrix). -/
def centred (h : FVec Ideal S100000x64 .f32) : FVec Ideal S100000x64 .f32 :=
  subf h (broadcastInDim S100000x64 ![0, 1] bcast_S1x64_S100000x64_0_1
    (Host.divf (broadcastInDim S1x64 ![1] bcast_S64_S1x64_1
        (Host.reduceAdd h (constant (F := Ideal) S_ .f32 0x00000000#32) reducesTo_S100000x64_S64_d0 h_S_))
      (broadcastInDim S1x64 ![] bcast_S_S1x64 (constant (F := Ideal) S_ .f32 0x47C35000#32))))

/-- A column's variance over the 100000 rows: the mean of the squared centred entries, where the count is
    positive (it is), the not-a-number pattern otherwise. -/
def varOf (h : FVec Ideal S100000x64 .f32) : FVec Ideal S64 .f32 :=
  select (broadcastInDim S64 ![] bcast_S_S64 (cmpf .ogt varCount (constant (F := Ideal) S_ .f32 0x00000000#32)))
    (Host.divf (Host.reduceAdd (mulf (centred h) (centred h)) (constant (F := Ideal) S_ .f32 0x00000000#32) reducesTo_S100000x64_S64_d0 h_S_)
      (broadcastInDim S64 ![] bcast_S_S64 varCount))
    (broadcastInDim S64 ![] bcast_S_S64 (constant (F := Ideal) S_ .f32 0x7FC00000#32))

/-- Columns 0–31 of a 64-column table. -/
def sliceLo (o : FVec Ideal S100000x64 .f32) : FVec Ideal S100000x32 .f32 :=
  extractStridedSlice S100000x32 ![0, 0] o slices_S100000x64_S100000x32_0_0

/-- Columns 32–63 of a 64-column table. -/
def sliceHi (o : FVec Ideal S100000x64 .f32) : FVec Ideal S100000x32 .f32 :=
  extractStridedSlice S100000x32 ![0, 32] o slices_S100000x64_S100000x32_0_32

/-- A 32-vector as a one-row matrix. -/
def row32 (b : FVec Ideal S32 .f32) : FVec Ideal S1x32 .f32 := shapeCast S1x32 b shapeCasts_S32_S1x32

/-- A 64-vector as a one-row matrix. -/
def row64 (b : FVec Ideal S64 .f32) : FVec Ideal S1x64 .f32 := shapeCast S1x64 b shapeCasts_S64_S1x64

/-- A 1-vector as a one-by-one matrix. -/
def row1 (b : FVec Ideal S1 .f32) : FVec Ideal S1x1 .f32 := shapeCast S1x1 b shapeCasts_S1_S1x1

end Cert.KernelIdeal.Host

end
-- ==== Proof.KDefs.lean ====
import proofs.«401691_j50775103373990_2_alg».proof.Proof.Gen.KernelIdeal.Frame
import proofs.«401691_j50775103373990_2_alg».proof.Proof.Spec
import proofs.«401691_j50775103373990_2_alg».proof.Proof.KHost

/-! What the kernel program computes, layer by layer, as functions of the launch contents of its arguments. -/

set_option maxRecDepth 16384

noncomputable section

namespace Cert.KernelIdeal.Chain

open Cert.KernelIdeal Cert.KernelIdeal.Gen Cert.KernelIdeal.Host Idealize.ShloMosaic Idealize.ShloMosaic.TcCoe Idealize.SL.Sem

variable (m : (ℓ : Loc nD τ sig) → Buf (Elt Ideal) ℓ)

/-- The first layer's two message tables side by side: x·Wp + bp and x·Wn + bn. -/
def out0 (c : Dev nD) : Cert.Spec.Mat 100000 64 :=
  Cert.Spec.sideBySide (Cert.Spec.affine (m ((c : Thread nD τ).loc main_arg0)) (m ((c : Thread nD τ).loc main_arg3)) (row32 (m ((c : Thread nD τ).loc main_arg4)))) (Cert.Spec.affine (m ((c : Thread nD τ).loc main_arg0)) (m ((c : Thread nD τ).loc main_arg5)) (row32 (m ((c : Thread nD τ).loc main_arg6))))
/-- The first layer's aggregate: the positive and the negative edges' messages summed at their targets. -/
def agg1 (c : Dev nD) : Cert.Spec.Mat 100000 32 :=
  addf (segSum (m ((c : Thread nD τ).loc main_arg1)) (gatherRows32 (sliceLo (out0 m c)) (m ((c : Thread nD τ).loc main_arg1)))) (segSum (m ((c : Thread nD τ).loc main_arg2)) (gatherRows32 (sliceHi (out0 m c)) (m ((c : Thread nD τ).loc main_arg2))))
/-- The first layer's embedding. -/
def z1 (c : Dev nD) : Cert.Spec.Mat 100000 32 := Cert.Spec.combine (agg1 m c) (m ((c : Thread nD τ).loc main_arg0)) (m ((c : Thread nD τ).loc main_arg7)) (row32 (m ((c : Thread nD τ).loc main_arg8)))
/-- The second layer's two message tables side by side. -/
def out2 (c : Dev nD) : Cert.Spec.Mat 100000 64 :=
  Cert.Spec.sideBySide (Cert.Spec.affine (z1 m c) (m ((c : Thread nD τ).loc main_arg9)) (row32 (m ((c : Thread nD τ).loc main_arg10)))) (Cert.Spec.affine (z1 m c) (m ((c : Thread nD τ).loc main_arg11)) (row32 (m ((c : Thread nD τ).loc main_arg12))))
/-- The second layer's aggregate. -/
def agg2 (c : Dev nD) : Cert.Spec.Mat 100000 32 :=
  addf (segSum (m ((c : Thread nD τ).loc main_arg1)) (gatherRows32 (sliceLo (out2 m c)) (m ((c : Thread nD τ).loc main_arg1)))) (segSum (m ((c : Thread nD τ).loc main_arg2)) (gatherRows32 (sliceHi (out2 m c)) (m ((c : Thread nD τ).loc main_arg2))))
/-- The second layer's embedding. -/
def z2 (c : Dev nD) : Cert.Spec.Mat 100000 32 := Cert.Spec.combine (agg2 m c) (z1 m c) (m ((c : Thread nD τ).loc main_arg13)) (row32 (m ((c : Thread nD τ).loc main_arg14)))
/-- The node embedding: the first result. -/
def zf (c : Dev nD) : Cert.Spec.Mat 100000 64 := Cert.Spec.denseTanh (z2 m c) (m ((c : Thread nD τ).loc main_arg15)) (row64 (m ((c : Thread nD τ).loc main_arg16)))
/-- The head's first pre-activation. -/
def h1 (c : Dev nD) : Cert.Spec.Mat 100000 64 := Cert.Spec.affine (zf m c) (m ((c : Thread nD τ).loc main_arg17)) (row64 (m ((c : Thread nD τ).loc main_arg18)))
/-- The head's second pre-activation. -/
def h2 (c : Dev nD) : Cert.Spec.Mat 100000 64 :=
  Cert.Spec.bnDense (h1 m c) (row64 (meanOf (h1 m c))) (row64 (varOf (h1 m c))) (row64 (m ((c : Thread nD τ).loc main_arg19))) (row64 (m ((c : Thread nD τ).loc main_arg20))) (m ((c : Thread nD τ).loc main_arg21)) (row64 (m ((c : Thread nD τ).loc main_arg22)))
/-- The probability: the second result. -/
def prob (c : Dev nD) : Cert.Spec.Mat 100000 1 :=
  Cert.Spec.bnDenseSig (h2 m c) (row64 (meanOf (h2 m c))) (row64 (varOf (h2 m c))) (row64 (m ((c : Thread nD τ).loc main_arg23))) (row64 (m ((c : Thread nD τ).loc main_arg24))) (m ((c : Thread nD τ).loc main_arg25)) (row1 (m ((c : Thread nD τ).loc main_arg26)))

end Cert.KernelIdeal.Chain

end
-- ==== Proof.KChainA.lean ====
import proofs.«401691_j50775103373990_2_alg».proof.Proof.Gen.KernelIdeal.Frame
import proofs.«401691_j50775103373990_2_alg».proof.Proof.Spec
import proofs.«401691_j50775103373990_2_alg».proof.Proof.KHost
import proofs.«401691_j50775103373990_2_alg».proof.Proof.KDefs
import proofs.«401691_j50775103373990_2_alg».proof.Proof.KRegStmt
import Idealize.ShloMosaic.Lib.StableHlo.Run

/-!
# The program's values from the launch to the node embedding

The buffers' contents at each boundary between a stretch of host operations and a region, walked forward from the
launch contents: an argument no stretch and no region writes is as launched; a reshaped bias is the bias as a one-row
matrix; each region's output array is its layer of the arrays it read; each aggregate is the two edge lists' messages
gathered, summed at their targets, and added.
-/

set_option maxRecDepth 16384

noncomputable section

namespace Cert.KernelIdeal.Chain

open Cert.KernelIdeal Cert.KernelIdeal.Gen Cert.KernelIdeal.Host Idealize.ShloMosaic Idealize.ShloMosaic.TcCoe Idealize.SL.Sem

variable (m : (ℓ : Loc nD τ sig) → Buf (Elt Ideal) ℓ) (ρ : Dev nD → PrngReg) (rv : Cert.KernelIdeal.Regions.Values)

/-- A buffer that no operation of a stretch of host operations writes holds after the stretch what it held before. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Up to the first layer's message tables -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps hostOps0
    _ = m ((c : Thread nD τ).loc main_arg5) := rfl

/-- The first positive bias, reshaped, is the bias as a one-row matrix. -/
theorem W1_main_v0 (c : Dev nD) : W1 m ρ c (Proc.devRef .tc main_v0) = row32 (m ((c : Thread nD τ).loc main_arg4)) := by
  show StableHlo.after hostOps0 (W0 m ρ c) (Proc.devRef .tc main_v0) = _
  after_results_simp
  rfl
/-- The first negative bias, reshaped, is the bias as a one-row matrix. -/
theorem W1_main_v1 (c : Dev nD) : W1 m ρ c (Proc.devRef .tc main_v1) = row32 (m ((c : Thread nD τ).loc main_arg6)) := by
  show StableHlo.after hostOps0 (W0 m ρ c) (Proc.devRef .tc main_v1) = _
  after_results_simp
  rfl

section
include rv
/-- The first region leaves the first layer's two message tables side by side. -/
theorem W2_out0 (c : Dev nD) : W2 m ρ c (Proc.devRef .tc main_v2) = out0 m c := by
  refine (W2_arr m ρ c 5).trans ((rv.v0 (V1 m ρ) c).trans ?_)
  have e0 : V1 m ρ c main_arg0 = m ((c : Thread nD τ).loc main_arg0) := W1_main_arg0 m ρ c
  have e3 : V1 m ρ c main_arg3 = m ((c : Thread nD τ).loc main_arg3) := W1_main_arg3 m ρ c
  have e5 : V1 m ρ c main_arg5 = m ((c : Thread nD τ).loc main_arg5) := W1_main_arg5 m ρ c
  have f0 : V1 m ρ c main_v0 = row32 (m ((c : Thread nD τ).loc main_arg4)) := W1_main_v0 m ρ c
  have f1 : V1 m ρ c main_v1 = row32 (m ((c : Thread nD τ).loc main_arg6)) := W1_main_v1 m ρ c
  rw [e0, e3, e5, f0, f1]
  rfl
end

/-! ## The first aggregate and the first embedding -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps1
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_main_arg0 m ρ c
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

section
include rv
set_option maxHeartbeats 4000000 in
/-- The first aggregate: the two edge lists' messages gathered at the sources, summed at the targets, and added. -/
theorem W3_agg1 (c : Dev nD) : W3 m ρ c (Proc.devRef .tc main_v33) = agg1 m c := by
  show StableHlo.after hostOps1 (W2 m ρ c) (Proc.devRef .tc main_v33) = _
  after_results_simp
  rw [W2_out0 m ρ rv c, W2_main_arg1 m ρ c, W2_main_arg2 m ρ c]
  rfl
end

set_option maxHeartbeats 4000000 in
/-- The first combining bias, reshaped, is the bias as a one-row matrix. -/
theorem W3_main_v34 (c : Dev nD) : W3 m ρ c (Proc.devRef .tc main_v34) = row32 (m ((c : Thread nD τ).loc main_arg8)) := by
  show StableHlo.after hostOps1 (W2 m ρ c) (Proc.devRef .tc main_v34) = _
  after_results_simp
  rw [W2_main_arg8 m ρ c]
  rfl

section
include rv
/-- The second region leaves the first embedding. -/
theorem W4_z1 (c : Dev nD) : W4 m ρ c (Proc.devRef .tc main_v35) = z1 m c := by
  refine (W4_arr m ρ c 4).trans ((rv.v1 (V3 m ρ) c).trans ?_)
  have e33 : V3 m ρ c main_v33 = agg1 m c := W3_agg1 m ρ rv c
  have e0 : V3 m ρ c main_arg0 = m ((c : Thread nD τ).loc main_arg0) := W3_main_arg0 m ρ c
  have e7 : V3 m ρ c main_arg7 = m ((c : Thread nD τ).loc main_arg7) := W3_main_arg7 m ρ c
  have e34 : V3 m ρ c main_v34 = row32 (m ((c : Thread nD τ).loc main_arg8)) := W3_main_v34 m ρ c
  rw [e33, e0, e7, e34]
  rfl
end

/-! ## The second layer's message tables -/

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

/-- The second positive bias, reshaped, is the bias as a one-row matrix. -/
theorem W5_main_v36 (c : Dev nD) : W5 m ρ c (Proc.devRef .tc main_v36) = row32 (m ((c : Thread nD τ).loc main_arg10)) := by
  show StableHlo.after hostOps2 (W4 m ρ c) (Proc.devRef .tc main_v36) = _
  after_results_simp
  rw [W4_main_arg10 m ρ c]
  rfl
/-- The second negative bias, reshaped, is the bias as a one-row matrix. -/
theorem W5_main_v37 (c : Dev nD) : W5 m ρ c (Proc.devRef .tc main_v37) = row32 (m ((c : Thread nD τ).loc main_arg12)) := by
  show StableHlo.after hostOps2 (W4 m ρ c) (Proc.devRef .tc main_v37) = _
  after_results_simp
  rw [W4_main_arg12 m ρ c]
  rfl

section
include rv
/-- The first embedding is still there when the third region starts. -/
theorem W5_z1 (c : Dev nD) : W5 m ρ c (Proc.devRef .tc main_v35) = z1 m c :=
  calc W5 m ρ c (Proc.devRef .tc main_v35)
    _ = W4 m ρ c (Proc.devRef .tc main_v35) := by host_keeps hostOps2
    _ = z1 m c := W4_z1 m ρ rv c
/-- The third region leaves the second layer's two message tables side by side. -/
theorem W6_out2 (c : Dev nD) : W6 m ρ c (Proc.devRef .tc main_v38) = out2 m c := by
  refine (W6_arr m ρ c 5).trans ((rv.v2 (V5 m ρ) c).trans ?_)
  have e35 : V5 m ρ c main_v35 = z1 m c := W5_z1 m ρ rv c
  have e9 : V5 m ρ c main_arg9 = m ((c : Thread nD τ).loc main_arg9) := W5_main_arg9 m ρ c
  have e11 : V5 m ρ c main_arg11 = m ((c : Thread nD τ).loc main_arg11) := W5_main_arg11 m ρ c
  have e36 : V5 m ρ c main_v36 = row32 (m ((c : Thread nD τ).loc main_arg10)) := W5_main_v36 m ρ c
  have e37 : V5 m ρ c main_v37 = row32 (m ((c : Thread nD τ).loc main_arg12)) := W5_main_v37 m ρ c
  rw [e35, e9, e11, e36, e37]
  rfl
/-- The third region reads the first embedding and leaves it in place. -/
theorem W6_z1 (c : Dev nD) : W6 m ρ c (Proc.devRef .tc main_v35) = z1 m c :=
  calc W6 m ρ c (Proc.devRef .tc main_v35)
    _ = W5 m ρ c (Proc.devRef .tc main_v35) := (W6_arr m ρ c 0).trans (((dat2 (V5 m ρ) c).arrAt_in 0 rfl _).trans (A_eq2 (V5 m ρ) c 0))
    _ = z1 m c := W5_z1 m ρ rv c
end

/-! ## The second aggregate and the second embedding -/

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = m ((c : Thread nD τ).loc main_arg1) := W2_main_arg1 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = m ((c : Thread nD τ).loc main_arg2) := W2_main_arg2 m ρ c
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by host_keeps hostOps2
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := by host_keeps hostOps3
    _ = W5 m ρ c (Proc.devRef .tc main_arg13) := W6_of_ne m ρ c main_arg13 (by decide)
    _ = W4 m ρ c (Proc.devRef .tc main_arg13) := by host_keeps hostOps2
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

section
include rv
set_option maxHeartbeats 4000000 in
/-- The second aggregate: the two edge lists' messages gathered at the sources, summed at the targets, and added. -/
theorem W7_agg2 (c : Dev nD) : W7 m ρ c (Proc.devRef .tc main_v69) = agg2 m c := by
  show StableHlo.after hostOps3 (W6 m ρ c) (Proc.devRef .tc main_v69) = _
  after_results_simp
  rw [W6_out2 m ρ rv c, W6_main_arg1 m ρ c, W6_main_arg2 m ρ c]
  rfl
/-- The first embedding is still there when the fourth region starts. -/
theorem W7_z1 (c : Dev nD) : W7 m ρ c (Proc.devRef .tc main_v35) = z1 m c :=
  calc W7 m ρ c (Proc.devRef .tc main_v35)
    _ = W6 m ρ c (Proc.devRef .tc main_v35) := by host_keeps hostOps3
    _ = z1 m c := W6_z1 m ρ rv c
end

set_option maxHeartbeats 4000000 in
/-- The second combining bias, reshaped, is the bias as a one-row matrix. -/
theorem W7_main_v70 (c : Dev nD) : W7 m ρ c (Proc.devRef .tc main_v70) = row32 (m ((c : Thread nD τ).loc main_arg14)) := by
  show StableHlo.after hostOps3 (W6 m ρ c) (Proc.devRef .tc main_v70) = _
  after_results_simp
  rw [W6_main_arg14 m ρ c]
  rfl

section
include rv
/-- The fourth region leaves the second embedding. -/
theorem W8_z2 (c : Dev nD) : W8 m ρ c (Proc.devRef .tc main_v71) = z2 m c := by
  refine (W8_arr m ρ c 4).trans ((rv.v3 (V7 m ρ) c).trans ?_)
  have e69 : V7 m ρ c main_v69 = agg2 m c := W7_agg2 m ρ rv c
  have e35 : V7 m ρ c main_v35 = z1 m c := W7_z1 m ρ rv c
  have e13 : V7 m ρ c main_arg13 = m ((c : Thread nD τ).loc main_arg13) := W7_main_arg13 m ρ c
  have e70 : V7 m ρ c main_v70 = row32 (m ((c : Thread nD τ).loc main_arg14)) := W7_main_v70 m ρ c
  rw [e69, e35, e13, e70]
  rfl
end

/-! ## The node embedding -/

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by host_keeps hostOps3
    _ = W5 m ρ c (Proc.devRef .tc main_arg16) := W6_of_ne m ρ c main_arg16 (by decide)
    _ = W4 m ρ c (Proc.devRef .tc main_arg16) := by host_keeps hostOps2
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl
theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := by host_keeps hostOps4
    _ = W7 m ρ c (Proc.devRef .tc main_arg15) := W8_of_ne m ρ c main_arg15 (by decide)
    _ = W6 m ρ c (Proc.devRef .tc main_arg15) := by host_keeps hostOps3
    _ = W5 m ρ c (Proc.devRef .tc main_arg15) := W6_of_ne m ρ c main_arg15 (by decide)
    _ = W4 m ρ c (Proc.devRef .tc main_arg15) := by host_keeps hostOps2
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

/-- The embedding's bias, reshaped, is the bias as a one-row matrix. -/
theorem W9_main_v72 (c : Dev nD) : W9 m ρ c (Proc.devRef .tc main_v72) = row64 (m ((c : Thread nD τ).loc main_arg16)) := by
  show StableHlo.after hostOps4 (W8 m ρ c) (Proc.devRef .tc main_v72) = _
  after_results_simp
  rw [W8_main_arg16 m ρ c]
  rfl

section
include rv
/-- The second embedding is still there when the fifth region starts. -/
theorem W9_z2 (c : Dev nD) : W9 m ρ c (Proc.devRef .tc main_v71) = z2 m c :=
  calc W9 m ρ c (Proc.devRef .tc main_v71)
    _ = W8 m ρ c (Proc.devRef .tc main_v71) := by host_keeps hostOps4
    _ = z2 m c := W8_z2 m ρ rv c
/-- The fifth region leaves the node embedding. -/
theorem W10_zf (c : Dev nD) : W10 m ρ c (Proc.devRef .tc main_v73) = zf m c := by
  refine (W10_arr m ρ c 3).trans ((rv.v4 (V9 m ρ) c).trans ?_)
  have e71 : V9 m ρ c main_v71 = z2 m c := W9_z2 m ρ rv c
  have e15 : V9 m ρ c main_arg15 = m ((c : Thread nD τ).loc main_arg15) := W9_main_arg15 m ρ c
  have e72 : V9 m ρ c main_v72 = row64 (m ((c : Thread nD τ).loc main_arg16)) := W9_main_v72 m ρ c
  rw [e71, e15, e72]
  rfl
end

/-! ## The head's arguments are as launched when the node embedding is done -/

theorem W10_main_arg17 (c : Dev nD) : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := by host_keeps hostOps4
    _ = W7 m ρ c (Proc.devRef .tc main_arg17) := W8_of_ne m ρ c main_arg17 (by decide)
    _ = W6 m ρ c (Proc.devRef .tc main_arg17) := by host_keeps hostOps3
    _ = W5 m ρ c (Proc.devRef .tc main_arg17) := W6_of_ne m ρ c main_arg17 (by decide)
    _ = W4 m ρ c (Proc.devRef .tc main_arg17) := by host_keeps hostOps2
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl
theorem W10_main_arg18 (c : Dev nD) : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = W8 m ρ c (Proc.devRef .tc main_arg18) := by host_keeps hostOps4
    _ = W7 m ρ c (Proc.devRef .tc main_arg18) := W8_of_ne m ρ c main_arg18 (by decide)
    _ = W6 m ρ c (Proc.devRef .tc main_arg18) := by host_keeps hostOps3
    _ = W5 m ρ c (Proc.devRef .tc main_arg18) := W6_of_ne m ρ c main_arg18 (by decide)
    _ = W4 m ρ c (Proc.devRef .tc main_arg18) := by host_keeps hostOps2
    _ = W3 m ρ c (Proc.devRef .tc main_arg18) := W4_of_ne m ρ c main_arg18 (by decide)
    _ = W2 m ρ c (Proc.devRef .tc main_arg18) := by host_keeps hostOps1
    _ = W1 m ρ c (Proc.devRef .tc main_arg18) := W2_of_ne m ρ c main_arg18 (by decide)
    _ = W0 m ρ c (Proc.devRef .tc main_arg18) := by host_keeps hostOps0
    _ = m ((c : Thread nD τ).loc main_arg18) := rfl
theorem W10_main_arg19 (c : Dev nD) : W10 m ρ c (Proc.devRef .tc main_arg19) = m ((c : Thread nD τ).loc main_arg19) :=
  calc W10 m ρ c (Proc.devRef .tc main_arg19)
    _ = W9 m ρ c (Proc.devRef .tc main_arg19) := W10_of_ne m ρ c main_arg19 (by decide)
    _ = W8 m ρ c (Proc.devRef .tc main_arg19) := by host_keeps hostOps4
    _ = W7 m ρ c (Proc.devRef .tc main_arg19) := W8_of_ne m ρ c main_arg19 (by decide)
    _ = W6 m ρ c (Proc.devRef .tc main_arg19) := by host_keeps hostOps3
    _ = W5 m ρ c (Proc.devRef .tc main_arg19) := W6_of_ne m ρ c main_arg19 (by decide)
    _ = W4 m ρ c (Proc.devRef .tc main_arg19) := by host_keeps hostOps2
    _ = W3 m ρ c (Proc.devRef .tc main_arg19) := W4_of_ne m ρ c main_arg19 (by decide)
    _ = W2 m ρ c (Proc.devRef .tc main_arg19) := by host_keeps hostOps1
    _ = W1 m ρ c (Proc.devRef .tc main_arg19) := W2_of_ne m ρ c main_arg19 (by decide)
    _ = W0 m ρ c (Proc.devRef .tc main_arg19) := by host_keeps hostOps0
    _ = m ((c : Thread nD τ).loc main_arg19) := rfl
theorem W10_main_arg20 (c : Dev nD) : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = W8 m ρ c (Proc.devRef .tc main_arg20) := by host_keeps hostOps4
    _ = W7 m ρ c (Proc.devRef .tc main_arg20) := W8_of_ne m ρ c main_arg20 (by decide)
    _ = W6 m ρ c (Proc.devRef .tc main_arg20) := by host_keeps hostOps3
    _ = W5 m ρ c (Proc.devRef .tc main_arg20) := W6_of_ne m ρ c main_arg20 (by decide)
    _ = W4 m ρ c (Proc.devRef .tc main_arg20) := by host_keeps hostOps2
    _ = W3 m ρ c (Proc.devRef .tc main_arg20) := W4_of_ne m ρ c main_arg20 (by decide)
    _ = W2 m ρ c (Proc.devRef .tc main_arg20) := by host_keeps hostOps1
    _ = W1 m ρ c (Proc.devRef .tc main_arg20) := W2_of_ne m ρ c main_arg20 (by decide)
    _ = W0 m ρ c (Proc.devRef .tc main_arg20) := by host_keeps hostOps0
    _ = m ((c : Thread nD τ).loc main_arg20) := rfl
theorem W10_main_arg21 (c : Dev nD) : W10 m ρ c (Proc.devRef .tc main_arg21) = m ((c : Thread nD τ).loc main_arg21) :=
  calc W10 m ρ c (Proc.devRef .tc main_arg21)
    _ = W9 m ρ c (Proc.devRef .tc main_arg21) := W10_of_ne m ρ c main_arg21 (by decide)
    _ = W8 m ρ c (Proc.devRef .tc main_arg21) := by host_keeps hostOps4
    _ = W7 m ρ c (Proc.devRef .tc main_arg21) := W8_of_ne m ρ c main_arg21 (by decide)
    _ = W6 m ρ c (Proc.devRef .tc main_arg21) := by host_keeps hostOps3
    _ = W5 m ρ c (Proc.devRef .tc main_arg21) := W6_of_ne m ρ c main_arg21 (by decide)
    _ = W4 m ρ c (Proc.devRef .tc main_arg21) := by host_keeps hostOps2
    _ = W3 m ρ c (Proc.devRef .tc main_arg21) := W4_of_ne m ρ c main_arg21 (by decide)
    _ = W2 m ρ c (Proc.devRef .tc main_arg21) := by host_keeps hostOps1
    _ = W1 m ρ c (Proc.devRef .tc main_arg21) := W2_of_ne m ρ c main_arg21 (by decide)
    _ = W0 m ρ c (Proc.devRef .tc main_arg21) := by host_keeps hostOps0
    _ = m ((c : Thread nD τ).loc main_arg21) := rfl
theorem W10_main_arg22 (c : Dev nD) : W10 m ρ c (Proc.devRef .tc main_arg22) = m ((c : Thread nD τ).loc main_arg22) :=
  calc W10 m ρ c (Proc.devRef .tc main_arg22)
    _ = W9 m ρ c (Proc.devRef .tc main_arg22) := W10_of_ne m ρ c main_arg22 (by decide)
    _ = W8 m ρ c (Proc.devRef .tc main_arg22) := by host_keeps hostOps4
    _ = W7 m ρ c (Proc.devRef .tc main_arg22) := W8_of_ne m ρ c main_arg22 (by decide)
    _ = W6 m ρ c (Proc.devRef .tc main_arg22) := by host_keeps hostOps3
    _ = W5 m ρ c (Proc.devRef .tc main_arg22) := W6_of_ne m ρ c main_arg22 (by decide)
    _ = W4 m ρ c (Proc.devRef .tc main_arg22) := by host_keeps hostOps2
    _ = W3 m ρ c (Proc.devRef .tc main_arg22) := W4_of_ne m ρ c main_arg22 (by decide)
    _ = W2 m ρ c (Proc.devRef .tc main_arg22) := by host_keeps hostOps1
    _ = W1 m ρ c (Proc.devRef .tc main_arg22) := W2_of_ne m ρ c main_arg22 (by decide)
    _ = W0 m ρ c (Proc.devRef .tc main_arg22) := by host_keeps hostOps0
    _ = m ((c : Thread nD τ).loc main_arg22) := rfl
theorem W10_main_arg23 (c : Dev nD) : W10 m ρ c (Proc.devRef .tc main_arg23) = m ((c : Thread nD τ).loc main_arg23) :=
  calc W10 m ρ c (Proc.devRef .tc main_arg23)
    _ = W9 m ρ c (Proc.devRef .tc main_arg23) := W10_of_ne m ρ c main_arg23 (by decide)
    _ = W8 m ρ c (Proc.devRef .tc main_arg23) := by host_keeps hostOps4
    _ = W7 m ρ c (Proc.devRef .tc main_arg23) := W8_of_ne m ρ c main_arg23 (by decide)
    _ = W6 m ρ c (Proc.devRef .tc main_arg23) := by host_keeps hostOps3
    _ = W5 m ρ c (Proc.devRef .tc main_arg23) := W6_of_ne m ρ c main_arg23 (by decide)
    _ = W4 m ρ c (Proc.devRef .tc main_arg23) := by host_keeps hostOps2
    _ = W3 m ρ c (Proc.devRef .tc main_arg23) := W4_of_ne m ρ c main_arg23 (by decide)
    _ = W2 m ρ c (Proc.devRef .tc main_arg23) := by host_keeps hostOps1
    _ = W1 m ρ c (Proc.devRef .tc main_arg23) := W2_of_ne m ρ c main_arg23 (by decide)
    _ = W0 m ρ c (Proc.devRef .tc main_arg23) := by host_keeps hostOps0
    _ = m ((c : Thread nD τ).loc main_arg23) := rfl
theorem W10_main_arg24 (c : Dev nD) : W10 m ρ c (Proc.devRef .tc main_arg24) = m ((c : Thread nD τ).loc main_arg24) :=
  calc W10 m ρ c (Proc.devRef .tc main_arg24)
    _ = W9 m ρ c (Proc.devRef .tc main_arg24) := W10_of_ne m ρ c main_arg24 (by decide)
    _ = W8 m ρ c (Proc.devRef .tc main_arg24) := by host_keeps hostOps4
    _ = W7 m ρ c (Proc.devRef .tc main_arg24) := W8_of_ne m ρ c main_arg24 (by decide)
    _ = W6 m ρ c (Proc.devRef .tc main_arg24) := by host_keeps hostOps3
    _ = W5 m ρ c (Proc.devRef .tc main_arg24) := W6_of_ne m ρ c main_arg24 (by decide)
    _ = W4 m ρ c (Proc.devRef .tc main_arg24) := by host_keeps hostOps2
    _ = W3 m ρ c (Proc.devRef .tc main_arg24) := W4_of_ne m ρ c main_arg24 (by decide)
    _ = W2 m ρ c (Proc.devRef .tc main_arg24) := by host_keeps hostOps1
    _ = W1 m ρ c (Proc.devRef .tc main_arg24) := W2_of_ne m ρ c main_arg24 (by decide)
    _ = W0 m ρ c (Proc.devRef .tc main_arg24) := by host_keeps hostOps0
    _ = m ((c : Thread nD τ).loc main_arg24) := rfl
theorem W10_main_arg25 (c : Dev nD) : W10 m ρ c (Proc.devRef .tc main_arg25) = m ((c : Thread nD τ).loc main_arg25) :=
  calc W10 m ρ c (Proc.devRef .tc main_arg25)
    _ = W9 m ρ c (Proc.devRef .tc main_arg25) := W10_of_ne m ρ c main_arg25 (by decide)
    _ = W8 m ρ c (Proc.devRef .tc main_arg25) := by host_keeps hostOps4
    _ = W7 m ρ c (Proc.devRef .tc main_arg25) := W8_of_ne m ρ c main_arg25 (by decide)
    _ = W6 m ρ c (Proc.devRef .tc main_arg25) := by host_keeps hostOps3
    _ = W5 m ρ c (Proc.devRef .tc main_arg25) := W6_of_ne m ρ c main_arg25 (by decide)
    _ = W4 m ρ c (Proc.devRef .tc main_arg25) := by host_keeps hostOps2
    _ = W3 m ρ c (Proc.devRef .tc main_arg25) := W4_of_ne m ρ c main_arg25 (by decide)
    _ = W2 m ρ c (Proc.devRef .tc main_arg25) := by host_keeps hostOps1
    _ = W1 m ρ c (Proc.devRef .tc main_arg25) := W2_of_ne m ρ c main_arg25 (by decide)
    _ = W0 m ρ c (Proc.devRef .tc main_arg25) := by host_keeps hostOps0
    _ = m ((c : Thread nD τ).loc main_arg25) := rfl
theorem W10_main_arg26 (c : Dev nD) : W10 m ρ c (Proc.devRef .tc main_arg26) = m ((c : Thread nD τ).loc main_arg26) :=
  calc W10 m ρ c (Proc.devRef .tc main_arg26)
    _ = W9 m ρ c (Proc.devRef .tc main_arg26) := W10_of_ne m ρ c main_arg26 (by decide)
    _ = W8 m ρ c (Proc.devRef .tc main_arg26) := by host_keeps hostOps4
    _ = W7 m ρ c (Proc.devRef .tc main_arg26) := W8_of_ne m ρ c main_arg26 (by decide)
    _ = W6 m ρ c (Proc.devRef .tc main_arg26) := by host_keeps hostOps3
    _ = W5 m ρ c (Proc.devRef .tc main_arg26) := W6_of_ne m ρ c main_arg26 (by decide)
    _ = W4 m ρ c (Proc.devRef .tc main_arg26) := by host_keeps hostOps2
    _ = W3 m ρ c (Proc.devRef .tc main_arg26) := W4_of_ne m ρ c main_arg26 (by decide)
    _ = W2 m ρ c (Proc.devRef .tc main_arg26) := by host_keeps hostOps1
    _ = W1 m ρ c (Proc.devRef .tc main_arg26) := W2_of_ne m ρ c main_arg26 (by decide)
    _ = W0 m ρ c (Proc.devRef .tc main_arg26) := by host_keeps hostOps0
    _ = m ((c : Thread nD τ).loc main_arg26) := rfl

end Cert.KernelIdeal.Chain

end
-- ==== Proof.KStats.lean ====
import proofs.«401691_j50775103373990_2_alg».proof.Proof.Gen.KernelIdeal.Frame
import proofs.«401691_j50775103373990_2_alg».proof.Proof.KHost
import Idealize.ShloMosaic.Lib.StableHlo.Run
import Idealize.ShloMosaic.PureOps.Ideal

/-!
# The column means and variances the kernel program's host operations take before its two normalised layers

Before each of the two normalised layers the program takes, with host operations, the column means of the previous
layer's output (the sum over the 100000 rows divided by 100000) and its column variances (the mean of the squared
centred entries), and lays each as a one-row matrix. Read at the buffers those stretches end in, over any contents
before them, they are `row64 (meanOf h)` and `row64 (varOf h)` of the contents `h` of the layer's buffer.
-/

set_option maxRecDepth 16384

noncomputable section

namespace Cert.KernelIdeal.Chain.Stats

open Cert.KernelIdeal Cert.KernelIdeal.Gen Cert.KernelIdeal.Host Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The first normalised layer's means, as a one-row matrix. -/
theorem mean1 (V : Valuation τ sig (Elt Ideal)) :
    StableHlo.after hostOps6_2 (StableHlo.after hostOps6_1 (StableHlo.after hostOps6 V)) (Proc.devRef .tc main_v80)
      = row64 (meanOf (V (Proc.devRef .tc main_v75))) := by
  after_results_simp
  rfl

set_option maxHeartbeats 4000000 in
/-- The first normalised layer's variances, as a one-row matrix. -/
theorem var1 (V : Valuation τ sig (Elt Ideal)) :
    StableHlo.after hostOps6_2 (StableHlo.after hostOps6_1 (StableHlo.after hostOps6 V)) (Proc.devRef .tc main_v81)
      = row64 (varOf (V (Proc.devRef .tc main_v75))) := by
  after_results_simp
  rfl

set_option maxHeartbeats 4000000 in
/-- The second normalised layer's means, as a one-row matrix. -/
theorem mean2 (V : Valuation τ sig (Elt Ideal)) :
    StableHlo.after hostOps7_2 (StableHlo.after hostOps7_1 (StableHlo.after hostOps7 V)) (Proc.devRef .tc main_v90)
      = row64 (meanOf (V (Proc.devRef .tc main_v85))) := by
  after_results_simp
  rfl

set_option maxHeartbeats 4000000 in
/-- The second normalised layer's variances, as a one-row matrix. -/
theorem var2 (V : Valuation τ sig (Elt Ideal)) :
    StableHlo.after hostOps7_2 (StableHlo.after hostOps7_1 (StableHlo.after hostOps7 V)) (Proc.devRef .tc main_v91)
      = row64 (varOf (V (Proc.devRef .tc main_v85))) := by
  after_results_simp
  rfl

end Cert.KernelIdeal.Chain.Stats

end
-- ==== Proof.KChainB.lean ====
import proofs.«401691_j50775103373990_2_alg».proof.Proof.KChainA
import proofs.«401691_j50775103373990_2_alg».proof.Proof.KStats
import Idealize.ShloMosaic.Lib.StableHlo.Run

/-!
# The second half of the kernel program's run: the head

After the node embedding zf is in place, the program lays the first dense layer's bias out as a one-row matrix and
computes h1 = zf · W + b; takes h1's column means and variances and computes h2, the dense layer of the normalized,
scaled, shifted and rectified h1; does the same over h2 and computes the probability, the logistic of the last dense
layer. Each step is read here at the buffer it writes; a buffer no step writes is followed back to where it was written
or to the launch contents. The node embedding itself is written by none of these steps and ends as it was.
-/

set_option maxRecDepth 16384

noncomputable section

namespace Cert.KernelIdeal.Chain

open Cert.KernelIdeal Cert.KernelIdeal.Gen Cert.KernelIdeal.Host Idealize.ShloMosaic Idealize.ShloMosaic.TcCoe Idealize.SL.Sem

variable (m : (ℓ : Loc nD τ sig) → Buf (Elt Ideal) ℓ) (ρ : Dev nD → PrngReg) (rv : Cert.KernelIdeal.Regions.Values)

/-- A stretch of host operations leaves a buffer none of them writes as it was. -/
local macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

include rv

/-! ## Region 5: the head's first pre-activation -/

theorem W11_v73 (c : Dev nD) : W11 m ρ c (Proc.devRef .tc main_v73) = zf m c := by
  refine Eq.trans ?_ (W10_zf m ρ rv c)
  host_keeps hostOps5

theorem W11_arg17 (c : Dev nD) : W11 m ρ c (Proc.devRef .tc main_arg17) = m ((c : Thread nD τ).loc main_arg17) := by
  refine Eq.trans ?_ (W10_main_arg17 m ρ c)
  host_keeps hostOps5

theorem W11_v74 (c : Dev nD) : W11 m ρ c (Proc.devRef .tc main_v74) = row64 (m ((c : Thread nD τ).loc main_arg18)) := by
  show StableHlo.after hostOps5 (W10 m ρ c) (Proc.devRef .tc main_v74) = _
  after_results_simp
  rw [show W10 m ρ c (Proc.devRef .tc main_arg18) = m ((c : Thread nD τ).loc main_arg18) from W10_main_arg18 m ρ c]
  rfl

/-- After region 5 its output array holds zf · W + b, the head's first pre-activation. -/
theorem W12_h1 (c : Dev nD) : W12 m ρ c (Proc.devRef .tc main_v75) = h1 m c := by
  refine (W12_arr m ρ c 3).trans ((rv.v5 (V11 m ρ) c).trans ?_)
  show Cert.Spec.affine (W11 m ρ c (Proc.devRef .tc main_v73)) (W11 m ρ c (Proc.devRef .tc main_arg17))
    (W11 m ρ c (Proc.devRef .tc main_v74)) = _
  rw [W11_v73 m ρ rv c, W11_arg17 m ρ rv c, W11_v74 m ρ rv c]
  rfl

/-! ## The buffers region 5 does not write -/

theorem W12_arg19 (c : Dev nD) : W12 m ρ c (Proc.devRef .tc main_arg19) = m ((c : Thread nD τ).loc main_arg19) := by
  refine (W12_of_ne m ρ c main_arg19 (by decide)).trans (Eq.trans ?_ (W10_main_arg19 m ρ c))
  host_keeps hostOps5

theorem W12_arg20 (c : Dev nD) : W12 m ρ c (Proc.devRef .tc main_arg20) = m ((c : Thread nD τ).loc main_arg20) := by
  refine (W12_of_ne m ρ c main_arg20 (by decide)).trans (Eq.trans ?_ (W10_main_arg20 m ρ c))
  host_keeps hostOps5

theorem W12_arg21 (c : Dev nD) : W12 m ρ c (Proc.devRef .tc main_arg21) = m ((c : Thread nD τ).loc main_arg21) := by
  refine (W12_of_ne m ρ c main_arg21 (by decide)).trans (Eq.trans ?_ (W10_main_arg21 m ρ c))
  host_keeps hostOps5

theorem W12_arg22 (c : Dev nD) : W12 m ρ c (Proc.devRef .tc main_arg22) = m ((c : Thread nD τ).loc main_arg22) := by
  refine (W12_of_ne m ρ c main_arg22 (by decide)).trans (Eq.trans ?_ (W10_main_arg22 m ρ c))
  host_keeps hostOps5

theorem W12_arg23 (c : Dev nD) : W12 m ρ c (Proc.devRef .tc main_arg23) = m ((c : Thread nD τ).loc main_arg23) := by
  refine (W12_of_ne m ρ c main_arg23 (by decide)).trans (Eq.trans ?_ (W10_main_arg23 m ρ c))
  host_keeps hostOps5

theorem W12_arg24 (c : Dev nD) : W12 m ρ c (Proc.devRef .tc main_arg24) = m ((c : Thread nD τ).loc main_arg24) := by
  refine (W12_of_ne m ρ c main_arg24 (by decide)).trans (Eq.trans ?_ (W10_main_arg24 m ρ c))
  host_keeps hostOps5

theorem W12_arg25 (c : Dev nD) : W12 m ρ c (Proc.devRef .tc main_arg25) = m ((c : Thread nD τ).loc main_arg25) := by
  refine (W12_of_ne m ρ c main_arg25 (by decide)).trans (Eq.trans ?_ (W10_main_arg25 m ρ c))
  host_keeps hostOps5

theorem W12_arg26 (c : Dev nD) : W12 m ρ c (Proc.devRef .tc main_arg26) = m ((c : Thread nD τ).loc main_arg26) := by
  refine (W12_of_ne m ρ c main_arg26 (by decide)).trans (Eq.trans ?_ (W10_main_arg26 m ρ c))
  host_keeps hostOps5

/-- Region 5 reads the node embedding through its first window and leaves it as it was. -/
theorem W12_v73 (c : Dev nD) : W12 m ρ c (Proc.devRef .tc main_v73) = zf m c :=
  ((W12_arr m ρ c 0).trans (((dat5 (V11 m ρ) c).arrAt_in 0 rfl _).trans (A_eq5 (V11 m ρ) c 0))).trans (W11_v73 m ρ rv c)

/-! ## Region 6: the head's second pre-activation

Before the region the host takes the column means and variances of the first pre-activation and lays them, the scale,
the shift and the bias out as one-row matrices. -/

theorem W15_v75 (c : Dev nD) : W15 m ρ c (Proc.devRef .tc main_v75) = h1 m c := by
  show StableHlo.after hostOps6_2 (StableHlo.after hostOps6_1 (StableHlo.after hostOps6 (W12 m ρ c))) (Proc.devRef .tc main_v75) = _
  after_results_simp
  exact W12_h1 m ρ rv c

theorem W15_arg21 (c : Dev nD) : W15 m ρ c (Proc.devRef .tc main_arg21) = m ((c : Thread nD τ).loc main_arg21) := by
  show StableHlo.after hostOps6_2 (StableHlo.after hostOps6_1 (StableHlo.after hostOps6 (W12 m ρ c))) (Proc.devRef .tc main_arg21) = _
  after_results_simp
  exact W12_arg21 m ρ rv c

/-- The column means of the first pre-activation, as a one-row matrix. -/
theorem W15_v80 (c : Dev nD) : W15 m ρ c (Proc.devRef .tc main_v80) = row64 (meanOf (h1 m c)) :=
  (Stats.mean1 (W12 m ρ c)).trans (by rw [W12_h1 m ρ rv c])

/-- The column variances of the first pre-activation, as a one-row matrix. -/
theorem W15_v81 (c : Dev nD) : W15 m ρ c (Proc.devRef .tc main_v81) = row64 (varOf (h1 m c)) :=
  (Stats.var1 (W12 m ρ c)).trans (by rw [W12_h1 m ρ rv c])

theorem W15_v82 (c : Dev nD) : W15 m ρ c (Proc.devRef .tc main_v82) = row64 (m ((c : Thread nD τ).loc main_arg19)) := by
  show StableHlo.after hostOps6_2 (StableHlo.after hostOps6_1 (StableHlo.after hostOps6 (W12 m ρ c))) (Proc.devRef .tc main_v82) = _
  after_results_simp
  rw [W12_arg19 m ρ rv c]
  rfl

theorem W15_v83 (c : Dev nD) : W15 m ρ c (Proc.devRef .tc main_v83) = row64 (m ((c : Thread nD τ).loc main_arg20)) := by
  show StableHlo.after hostOps6_2 (StableHlo.after hostOps6_1 (StableHlo.after hostOps6 (W12 m ρ c))) (Proc.devRef .tc main_v83) = _
  after_results_simp
  rw [W12_arg20 m ρ rv c]
  rfl

theorem W15_v84 (c : Dev nD) : W15 m ρ c (Proc.devRef .tc main_v84) = row64 (m ((c : Thread nD τ).loc main_arg22)) := by
  show StableHlo.after hostOps6_2 (StableHlo.after hostOps6_1 (StableHlo.after hostOps6 (W12 m ρ c))) (Proc.devRef .tc main_v84) = _
  after_results_simp
  rw [W12_arg22 m ρ rv c]
  rfl

/-- After region 6 its output array holds the second pre-activation: the first one normalized by its column means and
    variances, scaled, shifted, rectified, then through the dense layer. -/
theorem W16_h2 (c : Dev nD) : W16 m ρ c (Proc.devRef .tc main_v85) = h2 m c := by
  refine (W16_arr m ρ c 7).trans ((rv.v6 (V15 m ρ) c).trans ?_)
  show Cert.Spec.bnDense (W15 m ρ c (Proc.devRef .tc main_v75)) (W15 m ρ c (Proc.devRef .tc main_v80))
    (W15 m ρ c (Proc.devRef .tc main_v81)) (W15 m ρ c (Proc.devRef .tc main_v82)) (W15 m ρ c (Proc.devRef .tc main_v83))
    (W15 m ρ c (Proc.devRef .tc main_arg21)) (W15 m ρ c (Proc.devRef .tc main_v84)) = _
  rw [W15_v75 m ρ rv c, W15_v80 m ρ rv c, W15_v81 m ρ rv c, W15_v82 m ρ rv c, W15_v83 m ρ rv c, W15_arg21 m ρ rv c,
    W15_v84 m ρ rv c]
  rfl

/-! ## The buffers region 6 does not write -/

theorem W16_arg23 (c : Dev nD) : W16 m ρ c (Proc.devRef .tc main_arg23) = m ((c : Thread nD τ).loc main_arg23) := by
  refine (W16_of_ne m ρ c main_arg23 (by decide)).trans (Eq.trans ?_ (W12_arg23 m ρ rv c))
  show StableHlo.after hostOps6_2 (StableHlo.after hostOps6_1 (StableHlo.after hostOps6 (W12 m ρ c))) (Proc.devRef .tc main_arg23) = _
  after_results_simp

theorem W16_arg24 (c : Dev nD) : W16 m ρ c (Proc.devRef .tc main_arg24) = m ((c : Thread nD τ).loc main_arg24) := by
  refine (W16_of_ne m ρ c main_arg24 (by decide)).trans (Eq.trans ?_ (W12_arg24 m ρ rv c))
  show StableHlo.after hostOps6_2 (StableHlo.after hostOps6_1 (StableHlo.after hostOps6 (W12 m ρ c))) (Proc.devRef .tc main_arg24) = _
  after_results_simp

theorem W16_arg25 (c : Dev nD) : W16 m ρ c (Proc.devRef .tc main_arg25) = m ((c : Thread nD τ).loc main_arg25) := by
  refine (W16_of_ne m ρ c main_arg25 (by decide)).trans (Eq.trans ?_ (W12_arg25 m ρ rv c))
  show StableHlo.after hostOps6_2 (StableHlo.after hostOps6_1 (StableHlo.after hostOps6 (W12 m ρ c))) (Proc.devRef .tc main_arg25) = _
  after_results_simp

theorem W16_arg26 (c : Dev nD) : W16 m ρ c (Proc.devRef .tc main_arg26) = m ((c : Thread nD τ).loc main_arg26) := by
  refine (W16_of_ne m ρ c main_arg26 (by decide)).trans (Eq.trans ?_ (W12_arg26 m ρ rv c))
  show StableHlo.after hostOps6_2 (StableHlo.after hostOps6_1 (StableHlo.after hostOps6 (W12 m ρ c))) (Proc.devRef .tc main_arg26) = _
  after_results_simp

theorem W16_v73 (c : Dev nD) : W16 m ρ c (Proc.devRef .tc main_v73) = zf m c := by
  refine (W16_of_ne m ρ c main_v73 (by decide)).trans (Eq.trans ?_ (W12_v73 m ρ rv c))
  show StableHlo.after hostOps6_2 (StableHlo.after hostOps6_1 (StableHlo.after hostOps6 (W12 m ρ c))) (Proc.devRef .tc main_v73) = _
  after_results_simp

/-! ## Region 7: the probability

Before the region the host takes the column means and variances of the second pre-activation and lays them, the scale,
the shift and the bias out as one-row matrices. -/

theorem W19_v85 (c : Dev nD) : W19 m ρ c (Proc.devRef .tc main_v85) = h2 m c := by
  show StableHlo.after hostOps7_2 (StableHlo.after hostOps7_1 (StableHlo.after hostOps7 (W16 m ρ c))) (Proc.devRef .tc main_v85) = _
  after_results_simp
  exact W16_h2 m ρ rv c

theorem W19_arg25 (c : Dev nD) : W19 m ρ c (Proc.devRef .tc main_arg25) = m ((c : Thread nD τ).loc main_arg25) := by
  show StableHlo.after hostOps7_2 (StableHlo.after hostOps7_1 (StableHlo.after hostOps7 (W16 m ρ c))) (Proc.devRef .tc main_arg25) = _
  after_results_simp
  exact W16_arg25 m ρ rv c

/-- The column means of the second pre-activation, as a one-row matrix. -/
theorem W19_v90 (c : Dev nD) : W19 m ρ c (Proc.devRef .tc main_v90) = row64 (meanOf (h2 m c)) :=
  (Stats.mean2 (W16 m ρ c)).trans (by rw [W16_h2 m ρ rv c])

/-- The column variances of the second pre-activation, as a one-row matrix. -/
theorem W19_v91 (c : Dev nD) : W19 m ρ c (Proc.devRef .tc main_v91) = row64 (varOf (h2 m c)) :=
  (Stats.var2 (W16 m ρ c)).trans (by rw [W16_h2 m ρ rv c])

theorem W19_v92 (c : Dev nD) : W19 m ρ c (Proc.devRef .tc main_v92) = row64 (m ((c : Thread nD τ).loc main_arg23)) := by
  show StableHlo.after hostOps7_2 (StableHlo.after hostOps7_1 (StableHlo.after hostOps7 (W16 m ρ c))) (Proc.devRef .tc main_v92) = _
  after_results_simp
  rw [W16_arg23 m ρ rv c]
  rfl

theorem W19_v93 (c : Dev nD) : W19 m ρ c (Proc.devRef .tc main_v93) = row64 (m ((c : Thread nD τ).loc main_arg24)) := by
  show StableHlo.after hostOps7_2 (StableHlo.after hostOps7_1 (StableHlo.after hostOps7 (W16 m ρ c))) (Proc.devRef .tc main_v93) = _
  after_results_simp
  rw [W16_arg24 m ρ rv c]
  rfl

theorem W19_v94 (c : Dev nD) : W19 m ρ c (Proc.devRef .tc main_v94) = row1 (m ((c : Thread nD τ).loc main_arg26)) := by
  show StableHlo.after hostOps7_2 (StableHlo.after hostOps7_1 (StableHlo.after hostOps7 (W16 m ρ c))) (Proc.devRef .tc main_v94) = _
  after_results_simp
  rw [W16_arg26 m ρ rv c]
  rfl

/-- After region 7 its output array holds the probability: the logistic of the second pre-activation normalized,
    scaled, shifted, rectified, then through the last dense layer. -/
theorem W20_prob (c : Dev nD) : W20 m ρ c (Proc.devRef .tc main_v95) = prob m c := by
  refine (W20_arr m ρ c 7).trans ((rv.v7 (V19 m ρ) c).trans ?_)
  show Cert.Spec.bnDenseSig (W19 m ρ c (Proc.devRef .tc main_v85)) (W19 m ρ c (Proc.devRef .tc main_v90))
    (W19 m ρ c (Proc.devRef .tc main_v91)) (W19 m ρ c (Proc.devRef .tc main_v92)) (W19 m ρ c (Proc.devRef .tc main_v93))
    (W19 m ρ c (Proc.devRef .tc main_arg25)) (W19 m ρ c (Proc.devRef .tc main_v94)) = _
  rw [W19_v85 m ρ rv c, W19_v90 m ρ rv c, W19_v91 m ρ rv c, W19_v92 m ρ rv c, W19_v93 m ρ rv c, W19_arg25 m ρ rv c,
    W19_v94 m ρ rv c]
  rfl

/-- No later step writes the node embedding: it ends as region 4 left it. -/
theorem W20_zf (c : Dev nD) : W20 m ρ c (Proc.devRef .tc main_v73) = zf m c := by
  refine (W20_of_ne m ρ c main_v73 (by decide)).trans (Eq.trans ?_ (W16_v73 m ρ rv c))
  show StableHlo.after hostOps7_2 (StableHlo.after hostOps7_1 (StableHlo.after hostOps7 (W16 m ρ c))) (Proc.devRef .tc main_v73) = _
  after_results_simp

end Cert.KernelIdeal.Chain

end
-- ==== Proof.ROps.lean ====
import proofs.«401691_j50775103373990_2_alg».proof.Proof.Gen.ReferenceIdeal
import Idealize.ShloMosaic.Lib.StableHlo.Run

/-! The reference program's host operations, in order, as 18 stretches (windows of @main: 3, 7, 8 stretches). -/

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- Stretch 0: 43 operations. -/
abbrev st0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.nullary main_c (constantI S_ 32 0#32),
    StableHlo.unary main_c main_v2 (broadcastInDim S1000000 ![] bcast_S_S1000000 : (⟨S_, .i32⟩ : BufTy).Contents (Elt F) → (⟨S1000000, .i32⟩ : BufTy).Contents (Elt F)),
    StableHlo.binary main_v1 main_v2 main_v3 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v4 (broadcastInDim S1000000 ![] bcast_S_S1000000 : (⟨S_, .i32⟩ : BufTy).Contents (Elt F) → (⟨S1000000, .i32⟩ : BufTy).Contents (Elt F)),
    StableHlo.binary main_v1 main_v4 main_v5 (addi : (⟨S1000000, .i32⟩ : BufTy).Contents (Elt F) → (⟨S1000000, .i32⟩ : BufTy).Contents (Elt F) → (⟨S1000000, .i32⟩ : BufTy).Contents (Elt F)),
    StableHlo.ternary main_v3 main_v5 main_v1 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v6 main_v7 (broadcastInDim S1000000x1 ![0] bcast_S1000000_S1000000x1_0 : (⟨S1000000, .i32⟩ : BufTy).Contents (Elt F) → (⟨S1000000x1, .i32⟩ : BufTy).Contents (Elt F)),
    StableHlo.binary main_arg0 main_v7 main_v8 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v8 main_arg3 main_v9 ((fun l r => Host.dotGeneral dot_S1000000x64_S64x32_S1000000x32_1_0_0_1_n_n none l r) : (⟨S1000000x64, .f32⟩ : BufTy).Contents (Elt F) → (⟨S64x32, .f32⟩ : BufTy).Contents (Elt F) → (⟨S1000000x32, .f32⟩ : BufTy).Contents (Elt F)),
    StableHlo.unary main_arg4 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S1000000x32 ![0, 1] bcast_S1x32_S1000000x32_0_1 : (⟨S1x32, .f32⟩ : BufTy).Contents (Elt F) → (⟨S1000000x32, .f32⟩ : BufTy).Contents (Elt F)),
    StableHlo.binary main_v9 main_v11 main_v12 (addf : (⟨S1000000x32, .f32⟩ : BufTy).Contents (Elt F) → (⟨S1000000x32, .f32⟩ : BufTy).Contents (Elt F) → (⟨S1000000x32, .f32⟩ : BufTy).Contents (Elt F)),
    StableHlo.unary main_arg1 main_v13 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v13 main_v14 rfl shapeCasts_S1x1000000_S1000000,
    StableHlo.nullary main_cst (constant S_ .f32 0x00000000#32),
    StableHlo.unary main_cst main_v15 (broadcastInDim S100000x32 ![] bcast_S_S100000x32 : (⟨S_, .f32⟩ : BufTy).Contents (Elt F) → (⟨S100000x32, .f32⟩ : BufTy).Contents (Elt F)),
    StableHlo.unary main_v14 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v12 main_v17 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.unary main_arg2 main_v18 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v18 main_v19 rfl shapeCasts_S1x1000000_S1000000,
    StableHlo.nullary main_c_1 (constantI S_ 32 0#32),
    StableHlo.unary main_c_1 main_v20 (broadcastInDim S1000000 ![] bcast_S_S1000000 : (⟨S_, .i32⟩ : BufTy).Contents (Elt F) → (⟨S1000000, .i32⟩ : BufTy).Contents (Elt F)),
    StableHlo.binary main_v19 main_v20 main_v21 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v22 (broadcastInDim S1000000 ![] bcast_S_S1000000 : (⟨S_, .i32⟩ : BufTy).Contents (Elt F) → (⟨S1000000, .i32⟩ : BufTy).Contents (Elt F)),
    StableHlo.binary main_v19 main_v22 main_v23 (addi : (⟨S1000000, .i32⟩ : BufTy).Contents (Elt F) → (⟨S1000000, .i32⟩ : BufTy).Contents (Elt F) → (⟨S1000000, .i32⟩ : BufTy).Contents (Elt F)),
    StableHlo.ternary main_v21 main_v23 main_v19 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v24 main_v25 (broadcastInDim S1000000x1 ![0] bcast_S1000000_S1000000x1_0 : (⟨S1000000, .i32⟩ : BufTy).Contents (Elt F) → (⟨S1000000x1, .i32⟩ : BufTy).Contents (Elt F)),
    StableHlo.binary main_arg0 main_v25 main_v26 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v26 main_arg5 main_v27 ((fun l r => Host.dotGeneral dot_S1000000x64_S64x32_S1000000x32_1_0_0_1_n_n none l r) : (⟨S1000000x64, .f32⟩ : BufTy).Contents (Elt F) → (⟨S64x32, .f32⟩ : BufTy).Contents (Elt F) → (⟨S1000000x32, .f32⟩ : BufTy).Contents (Elt F)),
    StableHlo.unary main_arg6 main_v28 (broadcastInDim S1x32 ![1] bcast_S32_S1x32_1 : (⟨S32, .f32⟩ : BufTy).Contents (Elt F) → (⟨S1x32, .f32⟩ : BufTy).Contents (Elt F)),
    StableHlo.unary main_v28 main_v29 (broadcastInDim S1000000x32 ![0, 1] bcast_S1x32_S1000000x32_0_1 : (⟨S1x32, .f32⟩ : BufTy).Contents (Elt F) → (⟨S1000000x32, .f32⟩ : BufTy).Contents (Elt F)),
    StableHlo.binary main_v27 main_v29 main_v30 (addf : (⟨S1000000x32, .f32⟩ : BufTy).Contents (Elt F) → (⟨S1000000x32, .f32⟩ : BufTy).Contents (Elt F) → (⟨S1000000x32, .f32⟩ : BufTy).Contents (Elt F)),
    StableHlo.unary main_arg2 main_v31 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v31 main_v32 rfl shapeCasts_S1x1000000_S1000000,
    StableHlo.nullary main_cst_3 (constant S_ .f32 0x00000000#32),
    StableHlo.unary main_cst_3 main_v33 (broadcastInDim S100000x32 ![] bcast_S_S100000x32 : (⟨S_, .f32⟩ : BufTy).Contents (Elt F) → (⟨S100000x32, .f32⟩ : BufTy).Contents (Elt F)),
    StableHlo.unary main_v32 main_v34 (broadcastInDim S1000000x1 ![0] bcast_S1000000_S1000000x1_0 : (⟨S1000000, .i32⟩ : BufTy).Contents (Elt F) → (⟨S1000000x1, .i32⟩ : BufTy).Contents (Elt F)),
    StableHlo.ternary main_v33 main_v34 main_v30 main_v35 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.binary main_v17 main_v35 main_v36 (addf : (⟨S100000x32, .f32⟩ : BufTy).Contents (Elt F) → (⟨S100000x32, .f32⟩ : BufTy).Contents (Elt F) → (⟨S100000x32, .f32⟩ : BufTy).Contents (Elt F)) ]
theorem st0_sub : (st0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub ..⟩

/-- Stretch 1: 6 operations. -/
abbrev st1 : List (HloOp τ sig (Elt F)) :=
  [ StableHlo.binary main_arg0 main_arg7 main_v37 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.binary main_v36 main_v37 main_v38 (addf : (⟨S100000x32, .f32⟩ : BufTy).Contents (Elt F) → (⟨S100000x32, .f32⟩ : BufTy).Contents (Elt F) → (⟨S100000x32, .f32⟩ : BufTy).Contents (Elt F)),
    StableHlo.unary main_arg8 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S100000x32 ![0, 1] bcast_S1x32_S100000x32_0_1 : (⟨S1x32, .f32⟩ : BufTy).Contents (Elt F) → (⟨S100000x32, .f32⟩ : BufTy).Contents (Elt F)),
    StableHlo.binary main_v38 main_v40 main_v41 (addf : (⟨S100000x32, .f32⟩ : BufTy).Contents (Elt F) → (⟨S100000x32, .f32⟩ : BufTy).Contents (Elt F) → (⟨S100000x32, .f32⟩ : BufTy).Contents (Elt F)),
    StableHlo.unary main_v41 main_v42 (Host.tanh : (⟨S100000x32, .f32⟩ : BufTy).Contents (Elt F) → (⟨S100000x32, .f32⟩ : BufTy).Contents (Elt F)) ]
theorem st1_sub : (st1 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.unary_bufs_sub ..⟩

/-- Stretch 2: 11 operations. -/
abbrev st2 : List (HloOp τ sig (Elt F)) :=
  [ StableHlo.unary main_arg1 main_v43 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v43 main_v44 rfl shapeCasts_S1x1000000_S1000000,
    StableHlo.nullary main_c_4 (constantI S_ 32 0#32),
    StableHlo.unary main_c_4 main_v45 (broadcastInDim S1000000 ![] bcast_S_S1000000 : (⟨S_, .i32⟩ : BufTy).Contents (Elt F) → (⟨S1000000, .i32⟩ : BufTy).Contents (Elt F)),
    StableHlo.binary main_v44 main_v45 main_v46 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v47 (broadcastInDim S1000000 ![] bcast_S_S1000000 : (⟨S_, .i32⟩ : BufTy).Contents (Elt F) → (⟨S1000000, .i32⟩ : BufTy).Contents (Elt F)),
    StableHlo.binary main_v44 main_v47 main_v48 (addi : (⟨S1000000, .i32⟩ : BufTy).Contents (Elt F) → (⟨S1000000, .i32⟩ : BufTy).Contents (Elt F) → (⟨S1000000, .i32⟩ : BufTy).Contents (Elt F)),
    StableHlo.ternary main_v46 main_v48 main_v44 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v49 main_v50 (broadcastInDim S1000000x1 ![0] bcast_S1000000_S1000000x1_0 : (⟨S1000000, .i32⟩ : BufTy).Contents (Elt F) → (⟨S1000000x1, .i32⟩ : BufTy).Contents (Elt F)),
    StableHlo.binary main_v42 main_v50 main_v51 ((fun x i => Host.gather gather_S100000x32_S1000000x1_S1000000x32_1_0_n_n_0_1_132 x i) : (⟨S100000x32, .f32⟩ : BufTy).Contents (Elt F) → (⟨S1000000x1, .i32⟩ : BufTy).Contents (Elt F) → (⟨S1000000x32, .f32⟩ : BufTy).Contents (Elt F)) ]
theorem st2_sub : (st2 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- Stretch 3: 32 operations. -/
abbrev st3 : List (HloOp τ sig (Elt F)) :=
  [ StableHlo.binary main_v51 main_arg9 main_v52 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg10 main_v53 (broadcastInDim S1x32 ![1] bcast_S32_S1x32_1 : (⟨S32, .f32⟩ : BufTy).Contents (Elt F) → (⟨S1x32, .f32⟩ : BufTy).Contents (Elt F)),
    StableHlo.unary main_v53 main_v54 (broadcastInDim S1000000x32 ![0, 1] bcast_S1x32_S1000000x32_0_1 : (⟨S1x32, .f32⟩ : BufTy).Contents (Elt F) → (⟨S1000000x32, .f32⟩ : BufTy).Contents (Elt F)),
    StableHlo.binary main_v52 main_v54 main_v55 (addf : (⟨S1000000x32, .f32⟩ : BufTy).Contents (Elt F) → (⟨S1000000x32, .f32⟩ : BufTy).Contents (Elt F) → (⟨S1000000x32, .f32⟩ : BufTy).Contents (Elt F)),
    StableHlo.unary main_arg1 main_v56 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v56 main_v57 rfl shapeCasts_S1x1000000_S1000000,
    StableHlo.nullary main_cst_6 (constant S_ .f32 0x00000000#32),
    StableHlo.unary main_cst_6 main_v58 (broadcastInDim S100000x32 ![] bcast_S_S100000x32 : (⟨S_, .f32⟩ : BufTy).Contents (Elt F) → (⟨S100000x32, .f32⟩ : BufTy).Contents (Elt F)),
    StableHlo.unary main_v57 main_v59 (broadcastInDim S1000000x1 ![0] bcast_S1000000_S1000000x1_0 : (⟨S1000000, .i32⟩ : BufTy).Contents (Elt F) → (⟨S1000000x1, .i32⟩ : BufTy).Contents (Elt F)),
    StableHlo.ternary main_v58 main_v59 main_v55 main_v60 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.unary main_arg2 main_v61 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v61 main_v62 rfl shapeCasts_S1x1000000_S1000000,
    StableHlo.nullary main_c_7 (constantI S_ 32 0#32),
    StableHlo.unary main_c_7 main_v63 (broadcastInDim S1000000 ![] bcast_S_S1000000 : (⟨S_, .i32⟩ : BufTy).Contents (Elt F) → (⟨S1000000, .i32⟩ : BufTy).Contents (Elt F)),
    StableHlo.binary main_v62 main_v63 main_v64 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v65 (broadcastInDim S1000000 ![] bcast_S_S1000000 : (⟨S_, .i32⟩ : BufTy).Contents (Elt F) → (⟨S1000000, .i32⟩ : BufTy).Contents (Elt F)),
    StableHlo.binary main_v62 main_v65 main_v66 (addi : (⟨S1000000, .i32⟩ : BufTy).Contents (Elt F) → (⟨S1000000, .i32⟩ : BufTy).Contents (Elt F) → (⟨S1000000, .i32⟩ : BufTy).Contents (Elt F)),
    StableHlo.ternary main_v64 main_v66 main_v62 main_v67 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v67 main_v68 (broadcastInDim S1000000x1 ![0] bcast_S1000000_S1000000x1_0 : (⟨S1000000, .i32⟩ : BufTy).Contents (Elt F) → (⟨S1000000x1, .i32⟩ : BufTy).Contents (Elt F)),
    StableHlo.binary main_v42 main_v68 main_v69 ((fun x i => Host.gather gather_S100000x32_S1000000x1_S1000000x32_1_0_n_n_0_1_132 x i) : (⟨S100000x32, .f32⟩ : BufTy).Contents (Elt F) → (⟨S1000000x1, .i32⟩ : BufTy).Contents (Elt F) → (⟨S1000000x32, .f32⟩ : BufTy).Contents (Elt F)),
    StableHlo.binary main_v69 main_arg11 main_v70 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg12 main_v71 (broadcastInDim S1x32 ![1] bcast_S32_S1x32_1 : (⟨S32, .f32⟩ : BufTy).Contents (Elt F) → (⟨S1x32, .f32⟩ : BufTy).Contents (Elt F)),
    StableHlo.unary main_v71 main_v72 (broadcastInDim S1000000x32 ![0, 1] bcast_S1x32_S1000000x32_0_1 : (⟨S1x32, .f32⟩ : BufTy).Contents (Elt F) → (⟨S1000000x32, .f32⟩ : BufTy).Contents (Elt F)),
    StableHlo.binary main_v70 main_v72 main_v73 (addf : (⟨S1000000x32, .f32⟩ : BufTy).Contents (Elt F) → (⟨S1000000x32, .f32⟩ : BufTy).Contents (Elt F) → (⟨S1000000x32, .f32⟩ : BufTy).Contents (Elt F)),
    StableHlo.unary main_arg2 main_v74 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v74 main_v75 rfl shapeCasts_S1x1000000_S1000000,
    StableHlo.nullary main_cst_9 (constant S_ .f32 0x00000000#32),
    StableHlo.unary main_cst_9 main_v76 (broadcastInDim S100000x32 ![] bcast_S_S100000x32 : (⟨S_, .f32⟩ : BufTy).Contents (Elt F) → (⟨S100000x32, .f32⟩ : BufTy).Contents (Elt F)),
    StableHlo.unary main_v75 main_v77 (broadcastInDim S1000000x1 ![0] bcast_S1000000_S1000000x1_0 : (⟨S1000000, .i32⟩ : BufTy).Contents (Elt F) → (⟨S1000000x1, .i32⟩ : BufTy).Contents (Elt F)),
    StableHlo.ternary main_v76 main_v77 main_v73 main_v78 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.binary main_v60 main_v78 main_v79 (addf : (⟨S100000x32, .f32⟩ : BufTy).Contents (Elt F) → (⟨S100000x32, .f32⟩ : BufTy).Contents (Elt F) → (⟨S100000x32, .f32⟩ : BufTy).Contents (Elt F)) ]
theorem st3_sub : (st3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.binary_bufs_sub ..⟩

/-- Stretch 4: 6 operations. -/
abbrev st4 : List (HloOp τ sig (Elt F)) :=
  [ StableHlo.binary main_v42 main_arg13 main_v80 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v79 main_v80 main_v81 (addf : (⟨S100000x32, .f32⟩ : BufTy).Contents (Elt F) → (⟨S100000x32, .f32⟩ : BufTy).Contents (Elt F) → (⟨S100000x32, .f32⟩ : BufTy).Contents (Elt F)),
    StableHlo.unary main_arg14 main_v82 (broadcastInDim S1x32 ![1] bcast_S32_S1x32_1 : (⟨S32, .f32⟩ : BufTy).Contents (Elt F) → (⟨S1x32, .f32⟩ : BufTy).Contents (Elt F)),
    StableHlo.unary main_v82 main_v83 (broadcastInDim S100000x32 ![0, 1] bcast_S1x32_S100000x32_0_1 : (⟨S1x32, .f32⟩ : BufTy).Contents (Elt F) → (⟨S100000x32, .f32⟩ : BufTy).Contents (Elt F)),
    StableHlo.binary main_v81 main_v83 main_v84 (addf : (⟨S100000x32, .f32⟩ : BufTy).Contents (Elt F) → (⟨S100000x32, .f32⟩ : BufTy).Contents (Elt F) → (⟨S100000x32, .f32⟩ : BufTy).Contents (Elt F)),
    StableHlo.unary main_v84 main_v85 (Host.tanh : (⟨S100000x32, .f32⟩ : BufTy).Contents (Elt F) → (⟨S100000x32, .f32⟩ : BufTy).Contents (Elt F)) ]
theorem st4_sub : (st4 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.unary_bufs_sub ..⟩

/-- Stretch 5: 5 operations. -/
abbrev st5 : List (HloOp τ sig (Elt F)) :=
  [ StableHlo.binary main_v85 main_arg15 main_v86 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg16 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v88 main_v89 (addf : (⟨S100000x64, .f32⟩ : BufTy).Contents (Elt F) → (⟨S100000x64, .f32⟩ : BufTy).Contents (Elt F) → (⟨S100000x64, .f32⟩ : BufTy).Contents (Elt F)),
    StableHlo.unary main_v89 main_v90 (Host.tanh : (⟨S100000x64, .f32⟩ : BufTy).Contents (Elt F) → (⟨S100000x64, .f32⟩ : BufTy).Contents (Elt F)) ]
theorem st5_sub : (st5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub ..⟩

/-- Stretch 6: 4 operations. -/
abbrev st6 : List (HloOp τ sig (Elt F)) :=
  [ StableHlo.binary main_v90 main_arg17 main_v91 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (addf : (⟨S100000x64, .f32⟩ : BufTy).Contents (Elt F) → (⟨S100000x64, .f32⟩ : BufTy).Contents (Elt F) → (⟨S100000x64, .f32⟩ : BufTy).Contents (Elt F)) ]
theorem st6_sub : (st6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- Stretch 7: 6 operations. -/
abbrev st7 : List (HloOp τ sig (Elt F)) :=
  [ StableHlo.nullary main_cst_10 (constant S_ .f32 0x00000000#32),
    StableHlo.binary main_v94 main_cst_10 main_v95 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32) ]
theorem st7_sub : (st7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩

/-- Stretch 8: 22 operations. -/
abbrev st8 : List (HloOp τ sig (Elt F)) :=
  [ StableHlo.TRef.nullary (.of main_call0_cst : StableHlo.TRef sig ⟨S_, .f32⟩) (constant S_ .f32 0x00000000#32),
    StableHlo.TRef.binary (.of main_v94 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1),
    StableHlo.TRef.binary (.of main_v94 : StableHlo.TRef sig ⟨S100000x64, .f32⟩) (.of main_call0_v4 : StableHlo.TRef sig ⟨S100000x64, .f32⟩) (.of main_call0_v5 : StableHlo.TRef sig ⟨S100000x64, .f32⟩) subf,
    StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf,
    StableHlo.TRef.unary (.of main_c_12 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v98 : StableHlo.TRef sig ⟨S64, .f32⟩) (fun p a b => select (broadcastInDim S64 ![] bcast_S_S64 p) a b) ]
theorem st8_sub : (st8 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Stretch 9: 6 operations. -/
abbrev st9 : List (HloOp τ sig (Elt F)) :=
  [ StableHlo.unary main_v97 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v100 main_v101 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v102 (broadcastInDim S64 ![] bcast_S_S64 : (⟨S_, .f32⟩ : BufTy).Contents (Elt F) → (⟨S64, .f32⟩ : BufTy).Contents (Elt F)),
    StableHlo.binary main_v98 main_v102 main_v103 (addf : (⟨S64, .f32⟩ : BufTy).Contents (Elt F) → (⟨S64, .f32⟩ : BufTy).Contents (Elt F) → (⟨S64, .f32⟩ : BufTy).Contents (Elt F)) ]
theorem st9_sub : (st9 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..⟩

/-- Stretch 10: 10 operations. -/
abbrev st10 : List (HloOp τ sig (Elt F)) :=
  [ StableHlo.unary main_v103 main_v104 (Host.rsqrt : (⟨S64, .f32⟩ : BufTy).Contents (Elt F) → (⟨S64, .f32⟩ : BufTy).Contents (Elt F)),
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v106 main_v107 (mulf : (⟨S100000x64, .f32⟩ : BufTy).Contents (Elt F) → (⟨S100000x64, .f32⟩ : BufTy).Contents (Elt F) → (⟨S100000x64, .f32⟩ : BufTy).Contents (Elt F)),
    StableHlo.unary main_arg19 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v107 main_v109 main_v110 (mulf : (⟨S100000x64, .f32⟩ : BufTy).Contents (Elt F) → (⟨S100000x64, .f32⟩ : BufTy).Contents (Elt F) → (⟨S100000x64, .f32⟩ : BufTy).Contents (Elt F)),
    StableHlo.unary main_arg20 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v112 main_v113 (addf : (⟨S100000x64, .f32⟩ : BufTy).Contents (Elt F) → (⟨S100000x64, .f32⟩ : BufTy).Contents (Elt F) → (⟨S100000x64, .f32⟩ : BufTy).Contents (Elt F)) ]
theorem st10_sub : (st10 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stretch 11: 3 operations. -/
abbrev st11 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v113 : StableHlo.TRef sig ⟨S100000x64, .f32⟩) (.of main_call1_v0 : StableHlo.TRef sig ⟨S100000x64, .f32⟩) (.of main_v114 : StableHlo.TRef sig ⟨S100000x64, .f32⟩) maximumf ]
theorem st11_sub : (st11 : List (HloOp τ sig (Elt F))).Forall fun op => op.bufs ⊆ StableHlo.tcRefs τ sig :=
  ⟨StableHlo.nullary_bufs_sub .., StableHlo.unary_bufs_sub .., StableHlo.binary_bufs_sub ..⟩

/-- Stretch 12: 4 operations. -/
abbrev st12 : List (HloOp τ sig (Elt F)) :=
  [ StableHlo.binary main_v114 main_arg21 main_v115 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg22 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v115 main_v117 main_v118 (addf : (⟨S100000x64, .f32⟩ : BufTy).Contents (Elt F) → (⟨S100000x64, .f32⟩ : BufTy).Contents (Elt F) → (⟨S100000x64, .f32⟩ : BufTy).Contents (Elt F)) ]
theorem st12_sub : (st12 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- Stretch 13: 6 operations. -/
abbrev st13 : List (HloOp τ sig (Elt F)) :=
  [ StableHlo.nullary main_cst_14 (constant S_ .f32 0x00000000#32),
    StableHlo.binary main_v118 main_cst_14 main_v119 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32) ]
theorem st13_sub : (st13 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩

/-- Stretch 14: 22 operations. -/
abbrev st14 : List (HloOp τ sig (Elt F)) :=
  [ StableHlo.TRef.nullary (.of main_call2_cst : StableHlo.TRef sig ⟨S_, .f32⟩) (constant S_ .f32 0x00000000#32),
    StableHlo.TRef.binary (.of main_v118 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1),
    StableHlo.TRef.binary (.of main_v118 : StableHlo.TRef sig ⟨S100000x64, .f32⟩) (.of main_call2_v4 : StableHlo.TRef sig ⟨S100000x64, .f32⟩) (.of main_call2_v5 : StableHlo.TRef sig ⟨S100000x64, .f32⟩) subf,
    StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v122 : StableHlo.TRef sig ⟨S64, .f32⟩) (fun p a b => select (broadcastInDim S64 ![] bcast_S_S64 p) a b) ]
theorem st14_sub : (st14 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Stretch 15: 16 operations. -/
abbrev st15 : List (HloOp τ sig (Elt F)) :=
  [ StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v124 main_v125 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v126 (broadcastInDim S64 ![] bcast_S_S64 : (⟨S_, .f32⟩ : BufTy).Contents (Elt F) → (⟨S64, .f32⟩ : BufTy).Contents (Elt F)),
    StableHlo.binary main_v122 main_v126 main_v127 (addf : (⟨S64, .f32⟩ : BufTy).Contents (Elt F) → (⟨S64, .f32⟩ : BufTy).Contents (Elt F) → (⟨S64, .f32⟩ : BufTy).Contents (Elt F)),
    StableHlo.unary main_v127 main_v128 (Host.rsqrt : (⟨S64, .f32⟩ : BufTy).Contents (Elt F) → (⟨S64, .f32⟩ : BufTy).Contents (Elt F)),
    StableHlo.unary main_v128 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v130 main_v131 (mulf : (⟨S100000x64, .f32⟩ : BufTy).Contents (Elt F) → (⟨S100000x64, .f32⟩ : BufTy).Contents (Elt F) → (⟨S100000x64, .f32⟩ : BufTy).Contents (Elt F)),
    StableHlo.unary main_arg23 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v131 main_v133 main_v134 (mulf : (⟨S100000x64, .f32⟩ : BufTy).Contents (Elt F) → (⟨S100000x64, .f32⟩ : BufTy).Contents (Elt F) → (⟨S100000x64, .f32⟩ : BufTy).Contents (Elt F)),
    StableHlo.unary main_arg24 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v136 main_v137 (addf : (⟨S100000x64, .f32⟩ : BufTy).Contents (Elt F) → (⟨S100000x64, .f32⟩ : BufTy).Contents (Elt F) → (⟨S100000x64, .f32⟩ : BufTy).Contents (Elt F)) ]
theorem st15_sub : (st15 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stretch 16: 3 operations. -/
abbrev st16 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v137 : StableHlo.TRef sig ⟨S100000x64, .f32⟩) (.of main_call3_v0 : StableHlo.TRef sig ⟨S100000x64, .f32⟩) (.of main_v138 : StableHlo.TRef sig ⟨S100000x64, .f32⟩) maximumf ]
theorem st16_sub : (st16 : List (HloOp τ sig (Elt F))).Forall fun op => op.bufs ⊆ StableHlo.tcRefs τ sig :=
  ⟨StableHlo.nullary_bufs_sub .., StableHlo.unary_bufs_sub .., StableHlo.binary_bufs_sub ..⟩

/-- Stretch 17: 12 operations. -/
abbrev st17 : List (HloOp τ sig (Elt F)) :=
  [ StableHlo.binary main_v138 main_arg25 main_v139 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg26 main_v140 (broadcastInDim S1x1 ![1] bcast_S1_S1x1_1 : (⟨S1, .f32⟩ : BufTy).Contents (Elt F) → (⟨S1x1, .f32⟩ : BufTy).Contents (Elt F)),
    StableHlo.unary main_v140 main_v141 (broadcastInDim S100000x1 ![0, 1] bcast_S1x1_S100000x1_0_1 : (⟨S1x1, .f32⟩ : BufTy).Contents (Elt F) → (⟨S100000x1, .f32⟩ : BufTy).Contents (Elt F)),
    StableHlo.binary main_v139 main_v141 main_v142 (addf : (⟨S100000x1, .f32⟩ : BufTy).Contents (Elt F) → (⟨S100000x1, .f32⟩ : BufTy).Contents (Elt F) → (⟨S100000x1, .f32⟩ : BufTy).Contents (Elt F)),
    StableHlo.unary main_v142 main_v143 (Host.negf : (⟨S100000x1, .f32⟩ : BufTy).Contents (Elt F) → (⟨S100000x1, .f32⟩ : BufTy).Contents (Elt F)),
    StableHlo.unary main_v143 main_v144 (Host.exp : (⟨S100000x1, .f32⟩ : BufTy).Contents (Elt F) → (⟨S100000x1, .f32⟩ : BufTy).Contents (Elt F)),
    StableHlo.nullary main_cst_18 (constant S_ .f32 0x3F800000#32),
    StableHlo.unary main_cst_18 main_v145 (broadcastInDim S100000x1 ![] bcast_S_S100000x1 : (⟨S_, .f32⟩ : BufTy).Contents (Elt F) → (⟨S100000x1, .f32⟩ : BufTy).Contents (Elt F)),
    StableHlo.binary main_v145 main_v144 main_v146 (addf : (⟨S100000x1, .f32⟩ : BufTy).Contents (Elt F) → (⟨S100000x1, .f32⟩ : BufTy).Contents (Elt F) → (⟨S100000x1, .f32⟩ : BufTy).Contents (Elt F)),
    StableHlo.nullary main_cst_19 (constant S_ .f32 0x3F800000#32),
    StableHlo.unary main_cst_19 main_v147 (broadcastInDim S100000x1 ![] bcast_S_S100000x1 : (⟨S_, .f32⟩ : BufTy).Contents (Elt F) → (⟨S100000x1, .f32⟩ : BufTy).Contents (Elt F)),
    StableHlo.binary main_v147 main_v146 main_v148 (Host.divf : (⟨S100000x1, .f32⟩ : BufTy).Contents (Elt F) → (⟨S100000x1, .f32⟩ : BufTy).Contents (Elt F) → (⟨S100000x1, .f32⟩ : BufTy).Contents (Elt F)) ]
theorem st17_sub : (st17 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

end Cert.ReferenceIdeal.RV

end
-- ==== Proof.RBounds.lean ====
import proofs.«401691_j50775103373990_2_alg».proof.Proof.ROps
import Idealize.ShloMosaic.Lib.StableHlo.Run

/-! The reference's buffer contents at ten points of its run: after each layer's operations. -/

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- At launch. -/
abbrev R0 (c : Dev nD) : Valuation τ sig (Elt F) := launchContents m c
/-- After the first layer's aggregate. -/
abbrev R1 (c : Dev nD) : Valuation τ sig (Elt F) := StableHlo.after st0 (R0 m c)
/-- After the first layer's embedding. -/
abbrev R2 (c : Dev nD) : Valuation τ sig (Elt F) := StableHlo.after st1 (R1 m c)
/-- After the second layer's aggregate. -/
abbrev R3 (c : Dev nD) : Valuation τ sig (Elt F) := StableHlo.after st3 (StableHlo.after st2 (R2 m c))
/-- After the second layer's embedding. -/
abbrev R4 (c : Dev nD) : Valuation τ sig (Elt F) := StableHlo.after st4 (R3 m c)
/-- After the node embedding. -/
abbrev R5 (c : Dev nD) : Valuation τ sig (Elt F) := StableHlo.after st5 (R4 m c)
/-- After the head's first pre-activation. -/
abbrev R6 (c : Dev nD) : Valuation τ sig (Elt F) := StableHlo.after st6 (R5 m c)
/-- After its mean and variance. -/
abbrev R7 (c : Dev nD) : Valuation τ sig (Elt F) := StableHlo.after st8 (StableHlo.after st7 (R6 m c))
/-- After the head's second pre-activation. -/
abbrev R8 (c : Dev nD) : Valuation τ sig (Elt F) :=
  StableHlo.after st12 (StableHlo.after st11 (StableHlo.after st10 (StableHlo.after st9 (R7 m c))))
/-- After its mean and variance. -/
abbrev R9 (c : Dev nD) : Valuation τ sig (Elt F) := StableHlo.after st14 (StableHlo.after st13 (R8 m c))
/-- After the probability: the end of the run. -/
abbrev R10 (c : Dev nD) : Valuation τ sig (Elt F) :=
  StableHlo.after st17 (StableHlo.after st16 (StableHlo.after st15 (R9 m c)))

end Cert.ReferenceIdeal.RV

end
-- ==== Proof.RRun.lean ====
import proofs.«401691_j50775103373990_2_alg».proof.Proof.RBounds
import Idealize.ShloMosaic.Lib.StableHlo.Run
import Idealize.ShloMosaic.Lib.Pipeline.Regions

/-! The run of the reference program: @main is the straight line of its 217 host operations (the 18 stretches in
    order), so every weakly fair execution ends with each buffer at the fold of the operations' results over the launch
    contents, which is `R10`; and no operation writes an argument. -/

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-! ## Lines in sequence -/

section General

variable {nD' : Nat} {τ' : Topo} {sig' : RefSig} {Val : EltTy → Type} {Λ : Labels}

/-- The chain of several lines is the line of their concatenation. -/
theorem chain_map_seq : ∀ ls : List (List (HloOp τ' sig' Val)),
    (Pipeline.chain (ls.map fun l => (StableHlo.seq l : Prog (TpuEff nD' τ' sig' Val Λ .tc) PUnit))) = StableHlo.seq ls.flatten
  | [] => rfl
  | l :: ls => by
    rw [List.map_cons, Pipeline.chain_cons, chain_map_seq ls, List.flatten_cons, StableHlo.seq_append]

/-- The contents after two lines in sequence: the second's fold over the first's. -/
theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

/-- The contents after several lines in sequence: the fold of their folds. -/
theorem after_flatten : ∀ (ls : List (List (HloOp τ' sig' Val))) (V : Valuation τ' sig' Val),
    StableHlo.after ls.flatten V = ls.foldl (fun W l => StableHlo.after l W) V
  | [], _ => rfl
  | l :: ls, V => by rw [List.flatten_cons, after_append, after_flatten ls, List.foldl_cons]

/-- A property of every operation of each line holds of every operation of their concatenation. -/
theorem forall_flatten {p : HloOp τ' sig' Val → Prop} : ∀ ls : List (List (HloOp τ' sig' Val)),
    (ls.Forall fun l => l.Forall p) → ls.flatten.Forall p
  | [], _ => trivial
  | l :: ls, h => by
    rw [List.forall_cons] at h
    rw [List.flatten_cons, List.forall_append]
    exact ⟨h.1, forall_flatten ls h.2⟩

end General

/-! ## @main as one line -/

/-- The 18 stretches, in order. -/
abbrev stretches : List (List (HloOp τ sig (Elt F))) :=
  [st0, st1, st2, st3, st4, st5, st6, st7, st8, st9, st10, st11, st12, st13, st14, st15, st16, st17]

/-- @main's 217 operations, in order. -/
abbrev ops : List (HloOp τ sig (Elt F)) := (stretches (F := F)).flatten

/-- The first window: the first layer and the start of the second layer's aggregate. -/
theorem main_part0_chain (c : Dev nD) : main_part0 (F := F) c = (Pipeline.chainK
    [StableHlo.seq st0, StableHlo.seq st1] (StableHlo.seq st2) : Prog (TpuEff nD τ sig (Elt F) (Pipeline.Sig Λ₀ (Fin 0) fun p => (pcfgs (F := F) p).Adm) .tc) PUnit) := by
  chain_rfl

/-- The second window: through the first mean and variance of the head. -/
theorem main_part1_chain (c : Dev nD) : main_part1 (F := F) c = (Pipeline.chainK
    [StableHlo.seq st3, StableHlo.seq st4, StableHlo.seq st5, StableHlo.seq st6, StableHlo.seq st7, StableHlo.seq st8] (StableHlo.seq st9) : Prog (TpuEff nD τ sig (Elt F) (Pipeline.Sig Λ₀ (Fin 0) fun p => (pcfgs (F := F) p).Adm) .tc) PUnit) := by
  chain_rfl

/-- The last window: the rest of the head. -/
theorem main_part2_chain (c : Dev nD) : main_part2 (F := F) c = (Pipeline.chain
    [StableHlo.seq st10, StableHlo.seq st11, StableHlo.seq st12, StableHlo.seq st13, StableHlo.seq st14, StableHlo.seq st15, StableHlo.seq st16, StableHlo.seq st17] : Prog (TpuEff nD τ sig (Elt F) (Pipeline.Sig Λ₀ (Fin 0) fun p => (pcfgs (F := F) p).Adm) .tc) PUnit) := by
  chain_rfl

/-- @main is the chain of the 18 stretches. -/
theorem main_chain (c : Dev nD) : main (F := F) c = (Pipeline.chain
    [StableHlo.seq st0, StableHlo.seq st1, StableHlo.seq st2, StableHlo.seq st3, StableHlo.seq st4, StableHlo.seq st5, StableHlo.seq st6, StableHlo.seq st7, StableHlo.seq st8, StableHlo.seq st9, StableHlo.seq st10, StableHlo.seq st11, StableHlo.seq st12, StableHlo.seq st13, StableHlo.seq st14, StableHlo.seq st15, StableHlo.seq st16, StableHlo.seq st17] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  rfl

/-- @main is the straight line of its operations. -/
theorem main_eq (c : Dev nD) : main (F := F) c = StableHlo.seq ops :=
  (main_chain c).trans (chain_map_seq (stretches (F := F)))

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  forall_flatten _ ⟨st0_sub, st1_sub, st2_sub, st3_sub, st4_sub, st5_sub, st6_sub, st7_sub, st8_sub, st9_sub, st10_sub, st11_sub, st12_sub, st13_sub, st14_sub, st15_sub, st16_sub, st17_sub⟩

theorem st0_fresh : (st0 : List (HloOp τ sig (Elt F))).Forall fun op => op.fresh = ∅ := by
  simp only [List.Forall]; repeat' constructor
theorem st1_fresh : (st1 : List (HloOp τ sig (Elt F))).Forall fun op => op.fresh = ∅ := by
  simp only [List.Forall]; repeat' constructor
theorem st2_fresh : (st2 : List (HloOp τ sig (Elt F))).Forall fun op => op.fresh = ∅ := by
  simp only [List.Forall]; repeat' constructor
theorem st3_fresh : (st3 : List (HloOp τ sig (Elt F))).Forall fun op => op.fresh = ∅ := by
  simp only [List.Forall]; repeat' constructor
theorem st4_fresh : (st4 : List (HloOp τ sig (Elt F))).Forall fun op => op.fresh = ∅ := by
  simp only [List.Forall]; repeat' constructor
theorem st5_fresh : (st5 : List (HloOp τ sig (Elt F))).Forall fun op => op.fresh = ∅ := by
  simp only [List.Forall]; repeat' constructor
theorem st6_fresh : (st6 : List (HloOp τ sig (Elt F))).Forall fun op => op.fresh = ∅ := by
  simp only [List.Forall]; repeat' constructor
theorem st7_fresh : (st7 : List (HloOp τ sig (Elt F))).Forall fun op => op.fresh = ∅ := by
  simp only [List.Forall]; repeat' constructor
theorem st8_fresh : (st8 : List (HloOp τ sig (Elt F))).Forall fun op => op.fresh = ∅ := by
  simp only [List.Forall]; repeat' constructor
theorem st9_fresh : (st9 : List (HloOp τ sig (Elt F))).Forall fun op => op.fresh = ∅ := by
  simp only [List.Forall]; repeat' constructor
theorem st10_fresh : (st10 : List (HloOp τ sig (Elt F))).Forall fun op => op.fresh = ∅ := by
  simp only [List.Forall]; repeat' constructor
theorem st11_fresh : (st11 : List (HloOp τ sig (Elt F))).Forall fun op => op.fresh = ∅ := by
  simp only [List.Forall]; repeat' constructor
theorem st12_fresh : (st12 : List (HloOp τ sig (Elt F))).Forall fun op => op.fresh = ∅ := by
  simp only [List.Forall]; repeat' constructor
theorem st13_fresh : (st13 : List (HloOp τ sig (Elt F))).Forall fun op => op.fresh = ∅ := by
  simp only [List.Forall]; repeat' constructor
theorem st14_fresh : (st14 : List (HloOp τ sig (Elt F))).Forall fun op => op.fresh = ∅ := by
  simp only [List.Forall]; repeat' constructor
theorem st15_fresh : (st15 : List (HloOp τ sig (Elt F))).Forall fun op => op.fresh = ∅ := by
  simp only [List.Forall]; repeat' constructor
theorem st16_fresh : (st16 : List (HloOp τ sig (Elt F))).Forall fun op => op.fresh = ∅ := by
  simp only [List.Forall]; repeat' constructor
theorem st17_fresh : (st17 : List (HloOp τ sig (Elt F))).Forall fun op => op.fresh = ∅ := by
  simp only [List.Forall]; repeat' constructor

/-- No operation allocates a buffer. -/
theorem ops_fresh : ∀ op ∈ (ops : List (HloOp τ sig (Elt F))), op.fresh = ∅ :=
  List.forall_iff_forall_mem.mp (forall_flatten _ ⟨st0_fresh, st1_fresh, st2_fresh, st3_fresh, st4_fresh, st5_fresh, st6_fresh, st7_fresh, st8_fresh, st9_fresh, st10_fresh, st11_fresh, st12_fresh, st13_fresh, st14_fresh, st15_fresh, st16_fresh, st17_fresh⟩)

variable (m : (ℓ : Loc nD τ sig) → Buf (Elt F) ℓ)

/-- The fold of all the operations over the launch contents is the last of the ten points. -/
theorem after_ops (c : Dev nD) : StableHlo.after ops (launchContents m c) = R10 m c := by
  rw [ops, after_flatten]; rfl

/-- Every weakly fair execution of the reference terminates with each buffer at `R10`. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = R10 m d (Proc.devRef .tc b) :=
  (θ_run defs _ _).mono (fun _ h d b => (h d b).trans (congrFun (after_ops m d) _))
    (run_seq scopedRefs_eq scopedSems_eq defs main (fun _ => ops) main_eq (fun _ => ops_sub) m ρ (fun _ => ops_fresh))

/-! ## The arguments end as launched -/

/-- The reference's 27 arguments. -/
def argRef : Fin 27 → Ref sig .tc
  | ⟨0, _⟩ => main_arg0
  | ⟨1, _⟩ => main_arg1
  | ⟨2, _⟩ => main_arg2
  | ⟨3, _⟩ => main_arg3
  | ⟨4, _⟩ => main_arg4
  | ⟨5, _⟩ => main_arg5
  | ⟨6, _⟩ => main_arg6
  | ⟨7, _⟩ => main_arg7
  | ⟨8, _⟩ => main_arg8
  | ⟨9, _⟩ => main_arg9
  | ⟨10, _⟩ => main_arg10
  | ⟨11, _⟩ => main_arg11
  | ⟨12, _⟩ => main_arg12
  | ⟨13, _⟩ => main_arg13
  | ⟨14, _⟩ => main_arg14
  | ⟨15, _⟩ => main_arg15
  | ⟨16, _⟩ => main_arg16
  | ⟨17, _⟩ => main_arg17
  | ⟨18, _⟩ => main_arg18
  | ⟨19, _⟩ => main_arg19
  | ⟨20, _⟩ => main_arg20
  | ⟨21, _⟩ => main_arg21
  | ⟨22, _⟩ => main_arg22
  | ⟨23, _⟩ => main_arg23
  | ⟨24, _⟩ => main_arg24
  | ⟨25, _⟩ => main_arg25
  | ⟨26, _⟩ => main_arg26
  | ⟨n + 27, h⟩ => absurd h (by omega)

/-- A reference below index 27 is none at or above it. -/
theorem ne_of_idx_lt {b y : Ref sig .tc} (hb : (b.idx : ℕ) < 27) (hy : 27 ≤ (y.idx : ℕ)) : b ≠ y := by
  rintro rfl; omega

/-- An argument's index is below 27. -/
theorem argRef_idx (k : Fin 27) : ((argRef k).idx : ℕ) < 27 := by revert k; decide

/-- Every operation of the stretch writes a reference at or above index 27, so one below keeps its contents. -/
macro "keeps_below" st:ident hb:ident : tactic =>
  `(tactic| (refine StableHlo.after_of_forall_not_mem _ _ (List.forall_iff_forall_mem.mp ?_)
             simp only [$st:ident, List.Forall, StableHlo.nullary_writes, StableHlo.unary_writes, StableHlo.binary_writes, StableHlo.ternary_writes, StableHlo.reshape_writes, Finset.mem_singleton]
             repeat' apply And.intro
             all_goals exact StableHlo.devRef_ne_of_ne (ne_of_idx_lt $hb (by decide))))

theorem st0_keeps_arg (b : Ref sig .tc) (hb : (b.idx : ℕ) < 27) (V : Valuation τ sig (Elt F)) :
    StableHlo.after st0 V (Proc.devRef .tc b) = V (Proc.devRef .tc b) := by keeps_below st0 hb
theorem st1_keeps_arg (b : Ref sig .tc) (hb : (b.idx : ℕ) < 27) (V : Valuation τ sig (Elt F)) :
    StableHlo.after st1 V (Proc.devRef .tc b) = V (Proc.devRef .tc b) := by keeps_below st1 hb
theorem st2_keeps_arg (b : Ref sig .tc) (hb : (b.idx : ℕ) < 27) (V : Valuation τ sig (Elt F)) :
    StableHlo.after st2 V (Proc.devRef .tc b) = V (Proc.devRef .tc b) := by keeps_below st2 hb
theorem st3_keeps_arg (b : Ref sig .tc) (hb : (b.idx : ℕ) < 27) (V : Valuation τ sig (Elt F)) :
    StableHlo.after st3 V (Proc.devRef .tc b) = V (Proc.devRef .tc b) := by keeps_below st3 hb
theorem st4_keeps_arg (b : Ref sig .tc) (hb : (b.idx : ℕ) < 27) (V : Valuation τ sig (Elt F)) :
    StableHlo.after st4 V (Proc.devRef .tc b) = V (Proc.devRef .tc b) := by keeps_below st4 hb
theorem st5_keeps_arg (b : Ref sig .tc) (hb : (b.idx : ℕ) < 27) (V : Valuation τ sig (Elt F)) :
    StableHlo.after st5 V (Proc.devRef .tc b) = V (Proc.devRef .tc b) := by keeps_below st5 hb
theorem st6_keeps_arg (b : Ref sig .tc) (hb : (b.idx : ℕ) < 27) (V : Valuation τ sig (Elt F)) :
    StableHlo.after st6 V (Proc.devRef .tc b) = V (Proc.devRef .tc b) := by keeps_below st6 hb
theorem st7_keeps_arg (b : Ref sig .tc) (hb : (b.idx : ℕ) < 27) (V : Valuation τ sig (Elt F)) :
    StableHlo.after st7 V (Proc.devRef .tc b) = V (Proc.devRef .tc b) := by keeps_below st7 hb
theorem st8_keeps_arg (b : Ref sig .tc) (hb : (b.idx : ℕ) < 27) (V : Valuation τ sig (Elt F)) :
    StableHlo.after st8 V (Proc.devRef .tc b) = V (Proc.devRef .tc b) := by keeps_below st8 hb
theorem st9_keeps_arg (b : Ref sig .tc) (hb : (b.idx : ℕ) < 27) (V : Valuation τ sig (Elt F)) :
    StableHlo.after st9 V (Proc.devRef .tc b) = V (Proc.devRef .tc b) := by keeps_below st9 hb
theorem st10_keeps_arg (b : Ref sig .tc) (hb : (b.idx : ℕ) < 27) (V : Valuation τ sig (Elt F)) :
    StableHlo.after st10 V (Proc.devRef .tc b) = V (Proc.devRef .tc b) := by keeps_below st10 hb
theorem st11_keeps_arg (b : Ref sig .tc) (hb : (b.idx : ℕ) < 27) (V : Valuation τ sig (Elt F)) :
    StableHlo.after st11 V (Proc.devRef .tc b) = V (Proc.devRef .tc b) := by keeps_below st11 hb
theorem st12_keeps_arg (b : Ref sig .tc) (hb : (b.idx : ℕ) < 27) (V : Valuation τ sig (Elt F)) :
    StableHlo.after st12 V (Proc.devRef .tc b) = V (Proc.devRef .tc b) := by keeps_below st12 hb
theorem st13_keeps_arg (b : Ref sig .tc) (hb : (b.idx : ℕ) < 27) (V : Valuation τ sig (Elt F)) :
    StableHlo.after st13 V (Proc.devRef .tc b) = V (Proc.devRef .tc b) := by keeps_below st13 hb
theorem st14_keeps_arg (b : Ref sig .tc) (hb : (b.idx : ℕ) < 27) (V : Valuation τ sig (Elt F)) :
    StableHlo.after st14 V (Proc.devRef .tc b) = V (Proc.devRef .tc b) := by keeps_below st14 hb
theorem st15_keeps_arg (b : Ref sig .tc) (hb : (b.idx : ℕ) < 27) (V : Valuation τ sig (Elt F)) :
    StableHlo.after st15 V (Proc.devRef .tc b) = V (Proc.devRef .tc b) := by keeps_below st15 hb
theorem st16_keeps_arg (b : Ref sig .tc) (hb : (b.idx : ℕ) < 27) (V : Valuation τ sig (Elt F)) :
    StableHlo.after st16 V (Proc.devRef .tc b) = V (Proc.devRef .tc b) := by keeps_below st16 hb
theorem st17_keeps_arg (b : Ref sig .tc) (hb : (b.idx : ℕ) < 27) (V : Valuation τ sig (Elt F)) :
    StableHlo.after st17 V (Proc.devRef .tc b) = V (Proc.devRef .tc b) := by keeps_below st17 hb

/-- No operation writes an argument: it ends as launched. -/
theorem R10_arg (m : (ℓ : Loc nD τ sig) → Buf (Elt F) ℓ) (c : Dev nD) (k : Fin 27) :
    R10 m c (Proc.devRef .tc (argRef k)) = m ((c.tc : Thread nD τ).loc (argRef k)) := by
  have hb := argRef_idx k
  unfold R10 R9 R8 R7 R6 R5 R4 R3 R2 R1 R0
  rw [st17_keeps_arg _ hb, st16_keeps_arg _ hb, st15_keeps_arg _ hb, st14_keeps_arg _ hb, st13_keeps_arg _ hb, st12_keeps_arg _ hb, st11_keeps_arg _ hb, st10_keeps_arg _ hb, st9_keeps_arg _ hb, st8_keeps_arg _ hb, st7_keeps_arg _ hb, st6_keeps_arg _ hb, st5_keeps_arg _ hb, st4_keeps_arg _ hb, st3_keeps_arg _ hb, st2_keeps_arg _ hb, st1_keeps_arg _ hb, st0_keeps_arg _ hb]

end Cert.ReferenceIdeal.RV

end
-- ==== Proof.RHost.lean ====
import proofs.«401691_j50775103373990_2_alg».proof.Proof.Gen.ReferenceIdeal
import Idealize.ShloMosaic.PureOps.Ideal

/-!
# The host-side functions both programs share, named

Both programs route messages along two edge lists (row 0 of a list holds the source nodes, row 1 the target
nodes), wrap a negative source index by the table's length, gather the source rows (clamped into the table),
and add the message rows into a table of zeros at the target rows (a target outside the table is dropped); and
both take a column's mean and its (population) variance over the 100000 rows. These are those compositions of
host operations, each under one name.
-/

noncomputable section

namespace Cert.ReferenceIdeal.Host

open Cert.ReferenceIdeal Cert.ReferenceIdeal.Gen Idealize.ShloMosaic Idealize.ShloMosaic.TcCoe

/-- Row 0 of an edge list: the source nodes. -/
def edgeRow0 (e : IVec S2x1000000 32) : IVec S1000000 32 :=
  shapeCast S1000000 (extractStridedSlice S1x1000000 ![0, 0] e slices_S2x1000000_S1x1000000_0_0) shapeCasts_S1x1000000_S1000000

/-- Row 1 of an edge list: the target nodes. -/
def edgeRow1 (e : IVec S2x1000000 32) : IVec S1000000 32 :=
  shapeCast S1000000 (extractStridedSlice S1x1000000 ![1, 0] e slices_S2x1000000_S1x1000000_1_0) shapeCasts_S1x1000000_S1000000

/-- A negative index wrapped by the table's length 100000. -/
def wrapIdx (t : IVec S1000000 32) : IVec S1000000 32 :=
  select (cmpi .slt t (broadcastInDim S1000000 ![] bcast_S_S1000000 (constantI S_ 32 0#32)))
    (addi t (broadcastInDim S1000000 ![] bcast_S_S1000000 (constantI S_ 32 100000#32))) t

/-- A vector of indices as a column of start indices. -/
def asCol (t : IVec S1000000 32) : IVec S1000000x1 32 :=
  broadcastInDim S1000000x1 ![0] bcast_S1000000_S1000000x1_0 t

/-- The column of (wrapped) source nodes of an edge list. -/
def srcCol (e : IVec S2x1000000 32) : IVec S1000000x1 32 := asCol (wrapIdx (edgeRow0 e))

/-- The column of target nodes of an edge list. -/
def dstCol (e : IVec S2x1000000 32) : IVec S1000000x1 32 := asCol (edgeRow1 e)

/-- The table of zeros messages are added into. -/
def zeros32 : FVec Ideal S100000x32 .f32 :=
  broadcastInDim S100000x32 ![] bcast_S_S100000x32 (constant (F := Ideal) S_ .f32 0x00000000#32)

/-- The message rows of an edge list added into a table of zeros at the edges' target nodes. -/
def segSum (e : IVec S2x1000000 32) (msg : FVec Ideal S1000000x32 .f32) : FVec Ideal S100000x32 .f32 :=
  Host.scatterAdd scatter_S100000x32_S1000000x1_S1000000x32_1_0_0_1 zeros32 (dstCol e) msg

/-- The rows of a 32-column table at an edge list's source nodes. -/
def gatherRows32 (P : FVec Ideal S100000x32 .f32) (e : IVec S2x1000000 32) : FVec Ideal S1000000x32 .f32 :=
  Host.gather gather_S100000x32_S1000000x1_S1000000x32_1_0_n_n_0_1_132 P (srcCol e)

/-- A column's mean over the 100000 rows: the sum divided by 100000. -/
def meanOf (h : FVec Ideal S100000x64 .f32) : FVec Ideal S64 .f32 :=
  Host.divf (Host.reduceAdd h (constant (F := Ideal) S_ .f32 0x00000000#32) reducesTo_S100000x64_S64_d0 h_S_)
    (broadcastInDim S64 ![] bcast_S_S64 (constant (F := Ideal) S_ .f32 0x47C35000#32))

/-- The count the variance divides by: 100000 minus the zero degrees of freedom given up. -/
def varCount : FVec Ideal S_ .f32 :=
  subf (constant (F := Ideal) S_ .f32 0x47C35000#32) (sitofp .f32 (constantI S_ 32 0#32))

/-- The rows centred on the column means (the means taken as in the variance: through a one-row matrix). -/
def centred (h : FVec Ideal S100000x64 .f32) : FVec Ideal S100000x64 .f32 :=
  subf h (broadcastInDim S100000x64 ![0, 1] bcast_S1x64_S100000x64_0_1
    (Host.divf (broadcastInDim S1x64 ![1] bcast_S64_S1x64_1
        (Host.reduceAdd h (constant (F := Ideal) S_ .f32 0x00000000#32) reducesTo_S100000x64_S64_d0 h_S_))
      (broadcastInDim S1x64 ![] bcast_S_S1x64 (constant (F := Ideal) S_ .f32 0x47C35000#32))))

/-- A column's variance over the 100000 rows: the mean of the squared centred entries, where the count is
    positive (it is), the not-a-number pattern otherwise. -/
def varOf (h : FVec Ideal S100000x64 .f32) : FVec Ideal S64 .f32 :=
  select (broadcastInDim S64 ![] bcast_S_S64 (cmpf .ogt varCount (constant (F := Ideal) S_ .f32 0x00000000#32)))
    (Host.divf (Host.reduceAdd (mulf (centred h) (centred h)) (constant (F := Ideal) S_ .f32 0x00000000#32) reducesTo_S100000x64_S64_d0 h_S_)
      (broadcastInDim S64 ![] bcast_S_S64 varCount))
    (broadcastInDim S64 ![] bcast_S_S64 (constant (F := Ideal) S_ .f32 0x7FC00000#32))

/-- The rows of the 64-column table at an edge list's source nodes. -/
def gatherRows64 (x : FVec Ideal S100000x64 .f32) (e : IVec S2x1000000 32) : FVec Ideal S1000000x64 .f32 :=
  Host.gather gather_S100000x64_S1000000x1_S1000000x64_1_0_n_n_0_1_164 x (srcCol e)

/-- A 32-vector repeated down `r` rows (through a one-row matrix, as the reference broadcasts a bias). -/
def bias32E (b : FVec Ideal S32 .f32) : FVec Ideal S1000000x32 .f32 :=
  broadcastInDim S1000000x32 ![0, 1] bcast_S1x32_S1000000x32_0_1 (broadcastInDim S1x32 ![1] bcast_S32_S1x32_1 b)

def bias32N (b : FVec Ideal S32 .f32) : FVec Ideal S100000x32 .f32 :=
  broadcastInDim S100000x32 ![0, 1] bcast_S1x32_S100000x32_0_1 (broadcastInDim S1x32 ![1] bcast_S32_S1x32_1 b)

def bias64N (b : FVec Ideal S64 .f32) : FVec Ideal S100000x64 .f32 :=
  broadcastInDim S100000x64 ![0, 1] bcast_S1x64_S100000x64_0_1 (broadcastInDim S1x64 ![1] bcast_S64_S1x64_1 b)

def bias1N (b : FVec Ideal S1 .f32) : FVec Ideal S100000x1 .f32 :=
  broadcastInDim S100000x1 ![0, 1] bcast_S1x1_S100000x1_0_1 (broadcastInDim S1x1 ![1] bcast_S1_S1x1_1 b)

end Cert.ReferenceIdeal.Host

end
-- ==== Proof.RDefs.lean ====
import proofs.«401691_j50775103373990_2_alg».proof.Proof.Gen.ReferenceIdeal
import proofs.«401691_j50775103373990_2_alg».proof.Proof.Spec
import proofs.«401691_j50775103373990_2_alg».proof.Proof.RHost

/-! What the reference program computes, layer by layer, as functions of the launch contents of its arguments. -/

noncomputable section

namespace Cert.ReferenceIdeal.Chain

open Cert.ReferenceIdeal Cert.ReferenceIdeal.Gen Cert.ReferenceIdeal.Host Idealize.ShloMosaic Idealize.ShloMosaic.TcCoe Idealize.SL.Sem

variable (m : (ℓ : Loc nD τ sig) → Buf (Elt Ideal) ℓ)

/-- The first layer's aggregate: each edge's message is its source row times the relation's weights plus the bias. -/
def agg1 (c : Dev nD) : Cert.Spec.Mat 100000 32 :=
  addf (segSum (m ((c : Thread nD τ).loc main_arg1)) (addf (Host.dotGeneral (φ₂ := .f32) dot_S1000000x64_S64x32_S1000000x32_1_0_0_1_n_n none (gatherRows64 (m ((c : Thread nD τ).loc main_arg0)) (m ((c : Thread nD τ).loc main_arg1))) (m ((c : Thread nD τ).loc main_arg3))) (bias32E (m ((c : Thread nD τ).loc main_arg4)))))
    (segSum (m ((c : Thread nD τ).loc main_arg2)) (addf (Host.dotGeneral (φ₂ := .f32) dot_S1000000x64_S64x32_S1000000x32_1_0_0_1_n_n none (gatherRows64 (m ((c : Thread nD τ).loc main_arg0)) (m ((c : Thread nD τ).loc main_arg2))) (m ((c : Thread nD τ).loc main_arg5))) (bias32E (m ((c : Thread nD τ).loc main_arg6)))))
/-- The first layer's embedding. -/
def z1 (c : Dev nD) : Cert.Spec.Mat 100000 32 := Cert.Spec.combine (agg1 m c) (m ((c : Thread nD τ).loc main_arg0)) (m ((c : Thread nD τ).loc main_arg7)) (Cert.Spec.asRow (m ((c : Thread nD τ).loc main_arg8)))
/-- The second layer's aggregate. -/
def agg2 (c : Dev nD) : Cert.Spec.Mat 100000 32 :=
  addf (segSum (m ((c : Thread nD τ).loc main_arg1)) (addf (Host.dotGeneral (φ₂ := .f32) dot_S1000000x32_S32x32_S1000000x32_1_0_0_1_n_n none (gatherRows32 (z1 m c) (m ((c : Thread nD τ).loc main_arg1))) (m ((c : Thread nD τ).loc main_arg9))) (bias32E (m ((c : Thread nD τ).loc main_arg10)))))
    (segSum (m ((c : Thread nD τ).loc main_arg2)) (addf (Host.dotGeneral (φ₂ := .f32) dot_S1000000x32_S32x32_S1000000x32_1_0_0_1_n_n none (gatherRows32 (z1 m c) (m ((c : Thread nD τ).loc main_arg2))) (m ((c : Thread nD τ).loc main_arg11))) (bias32E (m ((c : Thread nD τ).loc main_arg12)))))
/-- The second layer's embedding. -/
def z2 (c : Dev nD) : Cert.Spec.Mat 100000 32 := Cert.Spec.combine (agg2 m c) (z1 m c) (m ((c : Thread nD τ).loc main_arg13)) (Cert.Spec.asRow (m ((c : Thread nD τ).loc main_arg14)))
/-- The node embedding: the first result. -/
def zf (c : Dev nD) : Cert.Spec.Mat 100000 64 := Cert.Spec.denseTanh (z2 m c) (m ((c : Thread nD τ).loc main_arg15)) (Cert.Spec.asRow (m ((c : Thread nD τ).loc main_arg16)))
/-- The head's first pre-activation. -/
def h1 (c : Dev nD) : Cert.Spec.Mat 100000 64 := Cert.Spec.affine (zf m c) (m ((c : Thread nD τ).loc main_arg17)) (Cert.Spec.asRow (m ((c : Thread nD τ).loc main_arg18)))
/-- The head's second pre-activation. -/
def h2 (c : Dev nD) : Cert.Spec.Mat 100000 64 :=
  Cert.Spec.bnDense (h1 m c) (Cert.Spec.asRow (meanOf (h1 m c))) (Cert.Spec.asRow (varOf (h1 m c))) (Cert.Spec.asRow (m ((c : Thread nD τ).loc main_arg19))) (Cert.Spec.asRow (m ((c : Thread nD τ).loc main_arg20))) (m ((c : Thread nD τ).loc main_arg21)) (Cert.Spec.asRow (m ((c : Thread nD τ).loc main_arg22)))
/-- The probability: the second result. -/
def prob (c : Dev nD) : Cert.Spec.Mat 100000 1 :=
  Cert.Spec.bnDenseSig (h2 m c) (Cert.Spec.asRow (meanOf (h2 m c))) (Cert.Spec.asRow (varOf (h2 m c))) (Cert.Spec.asRow (m ((c : Thread nD τ).loc main_arg23))) (Cert.Spec.asRow (m ((c : Thread nD τ).loc main_arg24))) (m ((c : Thread nD τ).loc main_arg25)) (Cert.Spec.asRow (m ((c : Thread nD τ).loc main_arg26)))

end Cert.ReferenceIdeal.Chain

end
-- ==== Proof.LibDotPlain.lean ====
import Idealize.ShloMosaic.PureOps.Ideal
import Idealize.ShloMosaic.PureOps.Ideal.Laws
import Idealize.ShloMosaic.Lib.ValueIdx
import Mathlib.Algebra.BigOperators.Group.Finset.Basic
import proofs.«401691_j50775103373990_2_alg».proof.Proof.LibMatmulPlain

/-!
# The host's plain matrix product, read at an index

For the dimension numbers of an M×K by K×N product (the left operand contracted on its axis 1, the right on its
axis 0, no batch axes), the host's dot_general over the extended reals is, at (p, n), the sum over q of
lhs(p, q) · rhs(q, n). Over the extended reals the host's product is the same contraction as the matrix unit's
onto an accumulator that is zero everywhere, so the statement is the matrix unit's with the accumulator's
entry 0 dropped from the front of the sum.
-/

noncomputable section

open scoped BigOperators

namespace Cert.DotPlain

open Idealize.ShloMosaic Idealize.ShloMosaic.ValueIdx

variable {M K N : Nat} (D : DotDims ⟨2, ![M, K]⟩ ⟨2, ![K, N]⟩ ⟨2, ![M, N]⟩)

/-- THE HOST'S PRODUCT READ AT (p, n): the sum over the contracted position q of lhs(p, q) · rhs(q, n), whatever
    the precision mode and the schedule key. -/
theorem dot_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision) (sched : HostSchedule)
    (lhs : FVec Ideal ⟨2, ![M, K]⟩ φ₁) (rhs : FVec Ideal ⟨2, ![K, N]⟩ φ₂) (p : Fin M) (n : Fin N) :
    FloatOps.dotGeneral D prec sched lhs rhs (ix2 p n) = ∑ q : Fin K, lhs (ix2 p q) * rhs (ix2 q n) := by
  -- the host's product is the contraction onto the zero accumulator
  have hz : FloatOps.dotGeneral D prec sched lhs rhs (ix2 p n)
      = FloatOps.matmul D prec lhs rhs (fun _ => (0 : Ideal .f32)) (ix2 p n) := rfl
  rw [hz, Cert.MatmulPlain.matmul_plain_apply D hlc hrc hln hrn hlb hrb prec lhs rhs (fun _ => (0 : Ideal .f32)) p n]
  exact zero_add _

end Cert.DotPlain

end
-- ==== Proof.RStepsA.lean ====
import proofs.«401691_j50775103373990_2_alg».proof.Proof.RBounds
import proofs.«401691_j50775103373990_2_alg».proof.Proof.RDefs
import proofs.«401691_j50775103373990_2_alg».proof.Proof.RHost
import proofs.«401691_j50775103373990_2_alg».proof.Proof.Spec
import proofs.«401691_j50775103373990_2_alg».proof.Proof.LibDotPlain
import Idealize.ShloMosaic.Lib.ValueIdx
import Idealize.ShloMosaic.Lib.Pipeline.Value

/-!
# The reference's values, layer by layer: the first six

Each layer of the reference is a short run of host operations. Read index by index on the extended reals, the
product of an R × K matrix and a K × C matrix at (p, n) is the sum over q of x(p, q) · W(q, n), and a bias
repeated down the rows is b(n) at (p, n); so

* tanh ((agg + x · W) + b) is `Cert.Spec.combine agg x W b` (64 or 32 input features),
* tanh (x · W + b) is `Cert.Spec.denseTanh x W b`, and x · W + b is `Cert.Spec.affine x W b`.

No operation writes an argument, and the first embedding is kept while the second aggregate is formed; so the
contents after each layer are the layer of the contents before, from the launch contents on:
the two aggregates, the two embeddings, the node embedding, and the head's first pre-activation.
-/

noncomputable section

open scoped BigOperators

namespace Cert.ReferenceIdeal.Chain

open Cert.ReferenceIdeal Cert.ReferenceIdeal.Gen Cert.ReferenceIdeal.Host Cert.ReferenceIdeal.RV Idealize.ShloMosaic Idealize.ShloMosaic.TcCoe Idealize.SL.Sem
open Idealize.ShloMosaic.ValueIdx

variable (m : (ℓ : Loc nD τ sig) → Buf (Elt Ideal) ℓ)

namespace StepsA

/-! ## A bias repeated down the rows, read at an index -/

/-- A 32-vector repeated down the 100000 rows, at (p, n), is its entry n. -/
theorem bias32N_apply (b : FVec Ideal S32 .f32) (p : Fin 100000) (n : Fin 32) : bias32N b (ix2 p n) = b (ix1 n) := by
  unfold bias32N
  rw [broadcastInDim_apply ![0, 1] bcast_S1x32_S100000x32_0_1 _ (ix2 p n) (ix2 0 n) (fun a => by
    match a with
    | ⟨0, _⟩ => rfl
    | ⟨1, _⟩ => rfl)]
  rw [broadcastInDim_apply ![1] bcast_S32_S1x32_1 b (ix2 0 n) (ix1 n) (fun a => by
    match a with
    | ⟨0, _⟩ => rfl)]

/-- A 64-vector repeated down the 100000 rows, at (p, n), is its entry n. -/
theorem bias64N_apply (b : FVec Ideal S64 .f32) (p : Fin 100000) (n : Fin 64) : bias64N b (ix2 p n) = b (ix1 n) := by
  unfold bias64N
  rw [broadcastInDim_apply ![0, 1] bcast_S1x64_S100000x64_0_1 _ (ix2 p n) (ix2 0 n) (fun a => by
    match a with
    | ⟨0, _⟩ => rfl
    | ⟨1, _⟩ => rfl)]
  rw [broadcastInDim_apply ![1] bcast_S64_S1x64_1 b (ix2 0 n) (ix1 n) (fun a => by
    match a with
    | ⟨0, _⟩ => rfl)]

/-! ## Each layer's host term is its layer, index by index -/

/-- tanh ((agg + x · W) + b) with 64 input features. -/
theorem combine64_eq (agg : FVec Ideal S100000x32 .f32) (x : FVec Ideal S100000x64 .f32) (W : FVec Ideal S64x32 .f32)
    (b : FVec Ideal S32 .f32) :
    Host.tanh (addf (addf agg (Host.dotGeneral (φ₂ := .f32) dot_S100000x64_S64x32_S100000x32_1_0_0_1_n_n none x W)) (bias32N b))
      = Cert.Spec.combine agg x W (Cert.Spec.asRow b) := by
  funext i
  obtain ⟨p, n, rfl⟩ : ∃ (p : Fin 100000) (n : Fin 32), i = ix2 p n := ⟨i 0, i 1, eq_ix2 i⟩
  show Ideal.tanh ((agg (ix2 p n)
      + FloatOps.dotGeneral dot_S100000x64_S64x32_S100000x32_1_0_0_1_n_n none .single x W (ix2 p n)) + bias32N b (ix2 p n))
    = Ideal.tanh ((agg (ix2 p n) + ∑ q : Fin 64, x (ix2 p q) * W (ix2 q n)) + b (ix1 n))
  rw [Cert.DotPlain.dot_plain_apply _ rfl rfl rfl rfl rfl rfl, bias32N_apply]

/-- tanh ((agg + x · W) + b) with 32 input features. -/
theorem combine32_eq (agg : FVec Ideal S100000x32 .f32) (x : FVec Ideal S100000x32 .f32) (W : FVec Ideal S32x32 .f32)
    (b : FVec Ideal S32 .f32) :
    Host.tanh (addf (addf agg (Host.dotGeneral (φ₂ := .f32) dot_S100000x32_S32x32_S100000x32_1_0_0_1_n_n none x W)) (bias32N b))
      = Cert.Spec.combine agg x W (Cert.Spec.asRow b) := by
  funext i
  obtain ⟨p, n, rfl⟩ : ∃ (p : Fin 100000) (n : Fin 32), i = ix2 p n := ⟨i 0, i 1, eq_ix2 i⟩
  show Ideal.tanh ((agg (ix2 p n)
      + FloatOps.dotGeneral dot_S100000x32_S32x32_S100000x32_1_0_0_1_n_n none .single x W (ix2 p n)) + bias32N b (ix2 p n))
    = Ideal.tanh ((agg (ix2 p n) + ∑ q : Fin 32, x (ix2 p q) * W (ix2 q n)) + b (ix1 n))
  rw [Cert.DotPlain.dot_plain_apply _ rfl rfl rfl rfl rfl rfl, bias32N_apply]

/-- tanh (x · W + b), 32 features to 64. -/
theorem denseTanh_eq (x : FVec Ideal S100000x32 .f32) (W : FVec Ideal S32x64 .f32) (b : FVec Ideal S64 .f32) :
    Host.tanh (addf (Host.dotGeneral (φ₂ := .f32) dot_S100000x32_S32x64_S100000x64_1_0_0_1_n_n none x W) (bias64N b))
      = Cert.Spec.denseTanh x W (Cert.Spec.asRow b) := by
  funext i
  obtain ⟨p, n, rfl⟩ : ∃ (p : Fin 100000) (n : Fin 64), i = ix2 p n := ⟨i 0, i 1, eq_ix2 i⟩
  show Ideal.tanh (FloatOps.dotGeneral dot_S100000x32_S32x64_S100000x64_1_0_0_1_n_n none .single x W (ix2 p n) + bias64N b (ix2 p n))
    = Ideal.tanh ((∑ q : Fin 32, x (ix2 p q) * W (ix2 q n)) + b (ix1 n))
  rw [Cert.DotPlain.dot_plain_apply _ rfl rfl rfl rfl rfl rfl, bias64N_apply]

/-- x · W + b, 64 features to 64. -/
theorem affine_eq (x : FVec Ideal S100000x64 .f32) (W : FVec Ideal S64x64 .f32) (b : FVec Ideal S64 .f32) :
    addf (Host.dotGeneral (φ₂ := .f32) dot_S100000x64_S64x64_S100000x64_1_0_0_1_n_n none x W) (bias64N b)
      = Cert.Spec.affine x W (Cert.Spec.asRow b) := by
  funext i
  obtain ⟨p, n, rfl⟩ : ∃ (p : Fin 100000) (n : Fin 64), i = ix2 p n := ⟨i 0, i 1, eq_ix2 i⟩
  show FloatOps.dotGeneral dot_S100000x64_S64x64_S100000x64_1_0_0_1_n_n none .single x W (ix2 p n) + bias64N b (ix2 p n)
    = (∑ q : Fin 64, x (ix2 p q) * W (ix2 q n)) + b (ix1 n)
  rw [Cert.DotPlain.dot_plain_apply _ rfl rfl rfl rfl rfl rfl, bias64N_apply]

/-! ## What each layer's operations leave, over any contents before them -/

set_option maxHeartbeats 4000000 in
/-- The first embedding's operations. -/
theorem embed1_out (W : Valuation τ sig (Elt Ideal)) :
    StableHlo.after st1 W (Proc.devRef .tc main_v42)
      = Host.tanh (addf (addf (W (Proc.devRef .tc main_v36) : FVec Ideal S100000x32 .f32)
          (Host.dotGeneral (φ₁ := .f32) (φ₂ := .f32) dot_S100000x64_S64x32_S100000x32_1_0_0_1_n_n none
            (W (Proc.devRef .tc main_arg0)) (W (Proc.devRef .tc main_arg7))))
          (bias32N (W (Proc.devRef .tc main_arg8)))) := by
  after_results_simp
  rfl

set_option maxHeartbeats 4000000 in
/-- The second aggregate's operations: the messages along both edge lists, summed at the target nodes. -/
theorem aggregate2_out (W : Valuation τ sig (Elt Ideal)) :
    StableHlo.after st3 (StableHlo.after st2 W) (Proc.devRef .tc main_v79)
      = addf (segSum (W (Proc.devRef .tc main_arg1)) (addf (Host.dotGeneral (φ₁ := .f32) (φ₂ := .f32) dot_S1000000x32_S32x32_S1000000x32_1_0_0_1_n_n none
            (gatherRows32 (W (Proc.devRef .tc main_v42)) (W (Proc.devRef .tc main_arg1))) (W (Proc.devRef .tc main_arg9)))
            (bias32E (W (Proc.devRef .tc main_arg10)))))
          (segSum (W (Proc.devRef .tc main_arg2)) (addf (Host.dotGeneral (φ₁ := .f32) (φ₂ := .f32) dot_S1000000x32_S32x32_S1000000x32_1_0_0_1_n_n none
            (gatherRows32 (W (Proc.devRef .tc main_v42)) (W (Proc.devRef .tc main_arg2))) (W (Proc.devRef .tc main_arg11)))
            (bias32E (W (Proc.devRef .tc main_arg12))))) := by
  after_results_simp
  rfl

set_option maxHeartbeats 4000000 in
/-- They keep the first embedding. -/
theorem aggregate2_keeps (W : Valuation τ sig (Elt Ideal)) :
    StableHlo.after st3 (StableHlo.after st2 W) (Proc.devRef .tc main_v42) = W (Proc.devRef .tc main_v42) := by
  after_results_simp

set_option maxHeartbeats 4000000 in
/-- The second embedding's operations. -/
theorem embed2_out (W : Valuation τ sig (Elt Ideal)) :
    StableHlo.after st4 W (Proc.devRef .tc main_v85)
      = Host.tanh (addf (addf (W (Proc.devRef .tc main_v79) : FVec Ideal S100000x32 .f32)
          (Host.dotGeneral (φ₁ := .f32) (φ₂ := .f32) dot_S100000x32_S32x32_S100000x32_1_0_0_1_n_n none
            (W (Proc.devRef .tc main_v42)) (W (Proc.devRef .tc main_arg13))))
          (bias32N (W (Proc.devRef .tc main_arg14)))) := by
  after_results_simp
  rfl

set_option maxHeartbeats 4000000 in
/-- The node embedding's operations. -/
theorem node_out (W : Valuation τ sig (Elt Ideal)) :
    StableHlo.after st5 W (Proc.devRef .tc main_v90)
      = Host.tanh (addf (Host.dotGeneral (φ₁ := .f32) (φ₂ := .f32) dot_S100000x32_S32x64_S100000x64_1_0_0_1_n_n none
            (W (Proc.devRef .tc main_v85)) (W (Proc.devRef .tc main_arg15)))
          (bias64N (W (Proc.devRef .tc main_arg16)))) := by
  after_results_simp
  rfl

set_option maxHeartbeats 4000000 in
/-- The head's first pre-activation's operations. -/
theorem head1_out (W : Valuation τ sig (Elt Ideal)) :
    StableHlo.after st6 W (Proc.devRef .tc main_v94)
      = addf (Host.dotGeneral (φ₁ := .f32) (φ₂ := .f32) dot_S100000x64_S64x64_S100000x64_1_0_0_1_n_n none
            (W (Proc.devRef .tc main_v90)) (W (Proc.devRef .tc main_arg17)))
          (bias64N (W (Proc.devRef .tc main_arg18))) := by
  after_results_simp
  rfl

/-! ## The arguments are as launched wherever a layer reads them -/

set_option maxHeartbeats 4000000 in
theorem R1_arg0 (c : Dev nD) : R1 m c (Proc.devRef .tc main_arg0) = m ((c : Thread nD τ).loc main_arg0) := by
  after_results_simp

set_option maxHeartbeats 4000000 in
theorem R1_arg7 (c : Dev nD) : R1 m c (Proc.devRef .tc main_arg7) = m ((c : Thread nD τ).loc main_arg7) := by
  after_results_simp

set_option maxHeartbeats 4000000 in
theorem R1_arg8 (c : Dev nD) : R1 m c (Proc.devRef .tc main_arg8) = m ((c : Thread nD τ).loc main_arg8) := by
  after_results_simp

set_option maxHeartbeats 4000000 in
theorem R2_arg1 (c : Dev nD) : R2 m c (Proc.devRef .tc main_arg1) = m ((c : Thread nD τ).loc main_arg1) := by
  after_results_simp

set_option maxHeartbeats 4000000 in
theorem R2_arg2 (c : Dev nD) : R2 m c (Proc.devRef .tc main_arg2) = m ((c : Thread nD τ).loc main_arg2) := by
  after_results_simp

set_option maxHeartbeats 4000000 in
theorem R2_arg9 (c : Dev nD) : R2 m c (Proc.devRef .tc main_arg9) = m ((c : Thread nD τ).loc main_arg9) := by
  after_results_simp

set_option maxHeartbeats 4000000 in
theorem R2_arg10 (c : Dev nD) : R2 m c (Proc.devRef .tc main_arg10) = m ((c : Thread nD τ).loc main_arg10) := by
  after_results_simp

set_option maxHeartbeats 4000000 in
theorem R2_arg11 (c : Dev nD) : R2 m c (Proc.devRef .tc main_arg11) = m ((c : Thread nD τ).loc main_arg11) := by
  after_results_simp

set_option maxHeartbeats 4000000 in
theorem R2_arg12 (c : Dev nD) : R2 m c (Proc.devRef .tc main_arg12) = m ((c : Thread nD τ).loc main_arg12) := by
  after_results_simp

set_option maxHeartbeats 4000000 in
theorem R3_arg13 (c : Dev nD) : R3 m c (Proc.devRef .tc main_arg13) = m ((c : Thread nD τ).loc main_arg13) := by
  after_results_simp

set_option maxHeartbeats 4000000 in
theorem R3_arg14 (c : Dev nD) : R3 m c (Proc.devRef .tc main_arg14) = m ((c : Thread nD τ).loc main_arg14) := by
  after_results_simp

set_option maxHeartbeats 4000000 in
theorem R4_arg15 (c : Dev nD) : R4 m c (Proc.devRef .tc main_arg15) = m ((c : Thread nD τ).loc main_arg15) := by
  after_results_simp

set_option maxHeartbeats 4000000 in
theorem R4_arg16 (c : Dev nD) : R4 m c (Proc.devRef .tc main_arg16) = m ((c : Thread nD τ).loc main_arg16) := by
  after_results_simp

set_option maxHeartbeats 4000000 in
theorem R5_arg17 (c : Dev nD) : R5 m c (Proc.devRef .tc main_arg17) = m ((c : Thread nD τ).loc main_arg17) := by
  after_results_simp

set_option maxHeartbeats 4000000 in
theorem R5_arg18 (c : Dev nD) : R5 m c (Proc.devRef .tc main_arg18) = m ((c : Thread nD τ).loc main_arg18) := by
  after_results_simp

end StepsA

open StepsA

set_option maxHeartbeats 4000000 in
theorem R1_agg1 (c : Dev nD) : R1 m c (Proc.devRef .tc main_v36) = agg1 m c := by
  show StableHlo.after st0 (R0 m c) (Proc.devRef .tc main_v36) = _
  after_results_simp
  rfl

theorem R2_z1 (c : Dev nD) : R2 m c (Proc.devRef .tc main_v42) = z1 m c := by
  show StableHlo.after st1 (R1 m c) (Proc.devRef .tc main_v42) = _
  rw [embed1_out, R1_agg1, R1_arg0, R1_arg7, R1_arg8]
  exact combine64_eq _ _ _ _

theorem R3_agg2 (c : Dev nD) : R3 m c (Proc.devRef .tc main_v79) = agg2 m c := by
  show StableHlo.after st3 (StableHlo.after st2 (R2 m c)) (Proc.devRef .tc main_v79) = _
  rw [aggregate2_out, R2_z1, R2_arg1, R2_arg2, R2_arg9, R2_arg10, R2_arg11, R2_arg12]
  rfl

/-- The first embedding is still there after the second aggregate. -/
theorem StepsA.R3_z1 (c : Dev nD) : R3 m c (Proc.devRef .tc main_v42) = z1 m c :=
  (aggregate2_keeps (R2 m c)).trans (R2_z1 m c)

theorem R4_z2 (c : Dev nD) : R4 m c (Proc.devRef .tc main_v85) = z2 m c := by
  show StableHlo.after st4 (R3 m c) (Proc.devRef .tc main_v85) = _
  rw [embed2_out, R3_agg2, R3_z1, R3_arg13, R3_arg14]
  exact combine32_eq _ _ _ _

theorem R5_zf (c : Dev nD) : R5 m c (Proc.devRef .tc main_v90) = zf m c := by
  show StableHlo.after st5 (R4 m c) (Proc.devRef .tc main_v90) = _
  rw [node_out, R4_z2, R4_arg15, R4_arg16]
  exact denseTanh_eq _ _ _

theorem R6_h1 (c : Dev nD) : R6 m c (Proc.devRef .tc main_v94) = h1 m c := by
  show StableHlo.after st6 (R5 m c) (Proc.devRef .tc main_v94) = _
  rw [head1_out, R5_zf, R5_arg17, R5_arg18]
  exact affine_eq _ _ _

end Cert.ReferenceIdeal.Chain

end
-- ==== Proof.RKept.lean ====
import proofs.«401691_j50775103373990_2_alg».proof.Proof.RBounds
import Idealize.ShloMosaic.Lib.StableHlo.Run

/-! The references each stretch of the reference's host operations writes, and so which it leaves alone: a reference no
    operation of a stretch writes holds after the stretch what it held before. -/

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- The references stretch 0's operations write. -/
abbrev wr0 : List (Ref sig .tc) := [main_v0, main_v1, main_c, main_v2, main_v3, main_c_0, main_v4, main_v5, main_v6, main_v7, main_v8, main_v9, main_v10, main_v11, main_v12, main_v13, main_v14, main_cst, main_v15, main_v16, main_v17, main_v18, main_v19, main_c_1, main_v20, main_v21, main_c_2, main_v22, main_v23, main_v24, main_v25, main_v26, main_v27, main_v28, main_v29, main_v30, main_v31, main_v32, main_cst_3, main_v33, main_v34, main_v35, main_v36]
theorem st0_writes : (st0 : List (HloOp τ sig (Elt F))).Forall fun op => op.writes ⊆ ((wr0).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 0 does not write keeps its contents across it. -/
theorem st0_keeps {r : Ref sig .tc} (h : r ∉ wr0) (V : Valuation τ sig (Elt F)) :
    StableHlo.after st0 V (Proc.devRef .tc r) = V (Proc.devRef .tc r) :=
  StableHlo.after_of_writes_sub st0 V st0_writes h

/-- The references stretch 1's operations write. -/
abbrev wr1 : List (Ref sig .tc) := [main_v37, main_v38, main_v39, main_v40, main_v41, main_v42]
theorem st1_writes : (st1 : List (HloOp τ sig (Elt F))).Forall fun op => op.writes ⊆ ((wr1).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 1 does not write keeps its contents across it. -/
theorem st1_keeps {r : Ref sig .tc} (h : r ∉ wr1) (V : Valuation τ sig (Elt F)) :
    StableHlo.after st1 V (Proc.devRef .tc r) = V (Proc.devRef .tc r) :=
  StableHlo.after_of_writes_sub st1 V st1_writes h

/-- The references stretch 2's operations write. -/
abbrev wr2 : List (Ref sig .tc) := [main_v43, main_v44, main_c_4, main_v45, main_v46, main_c_5, main_v47, main_v48, main_v49, main_v50, main_v51]
theorem st2_writes : (st2 : List (HloOp τ sig (Elt F))).Forall fun op => op.writes ⊆ ((wr2).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 2 does not write keeps its contents across it. -/
theorem st2_keeps {r : Ref sig .tc} (h : r ∉ wr2) (V : Valuation τ sig (Elt F)) :
    StableHlo.after st2 V (Proc.devRef .tc r) = V (Proc.devRef .tc r) :=
  StableHlo.after_of_writes_sub st2 V st2_writes h

/-- The references stretch 3's operations write. -/
abbrev wr3 : List (Ref sig .tc) := [main_v52, main_v53, main_v54, main_v55, main_v56, main_v57, main_cst_6, main_v58, main_v59, main_v60, main_v61, main_v62, main_c_7, main_v63, main_v64, main_c_8, main_v65, main_v66, main_v67, main_v68, main_v69, main_v70, main_v71, main_v72, main_v73, main_v74, main_v75, main_cst_9, main_v76, main_v77, main_v78, main_v79]
theorem st3_writes : (st3 : List (HloOp τ sig (Elt F))).Forall fun op => op.writes ⊆ ((wr3).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 3 does not write keeps its contents across it. -/
theorem st3_keeps {r : Ref sig .tc} (h : r ∉ wr3) (V : Valuation τ sig (Elt F)) :
    StableHlo.after st3 V (Proc.devRef .tc r) = V (Proc.devRef .tc r) :=
  StableHlo.after_of_writes_sub st3 V st3_writes h

/-- The references stretch 4's operations write. -/
abbrev wr4 : List (Ref sig .tc) := [main_v80, main_v81, main_v82, main_v83, main_v84, main_v85]
theorem st4_writes : (st4 : List (HloOp τ sig (Elt F))).Forall fun op => op.writes ⊆ ((wr4).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 4 does not write keeps its contents across it. -/
theorem st4_keeps {r : Ref sig .tc} (h : r ∉ wr4) (V : Valuation τ sig (Elt F)) :
    StableHlo.after st4 V (Proc.devRef .tc r) = V (Proc.devRef .tc r) :=
  StableHlo.after_of_writes_sub st4 V st4_writes h

/-- The references stretch 5's operations write. -/
abbrev wr5 : List (Ref sig .tc) := [main_v86, main_v87, main_v88, main_v89, main_v90]
theorem st5_writes : (st5 : List (HloOp τ sig (Elt F))).Forall fun op => op.writes ⊆ ((wr5).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 5 does not write keeps its contents across it. -/
theorem st5_keeps {r : Ref sig .tc} (h : r ∉ wr5) (V : Valuation τ sig (Elt F)) :
    StableHlo.after st5 V (Proc.devRef .tc r) = V (Proc.devRef .tc r) :=
  StableHlo.after_of_writes_sub st5 V st5_writes h

/-- The references stretch 6's operations write. -/
abbrev wr6 : List (Ref sig .tc) := [main_v91, main_v92, main_v93, main_v94]
theorem st6_writes : (st6 : List (HloOp τ sig (Elt F))).Forall fun op => op.writes ⊆ ((wr6).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 6 does not write keeps its contents across it. -/
theorem st6_keeps {r : Ref sig .tc} (h : r ∉ wr6) (V : Valuation τ sig (Elt F)) :
    StableHlo.after st6 V (Proc.devRef .tc r) = V (Proc.devRef .tc r) :=
  StableHlo.after_of_writes_sub st6 V st6_writes h

/-- The references stretch 7's operations write. -/
abbrev wr7 : List (Ref sig .tc) := [main_cst_10, main_v95, main_cst_11, main_v96, main_v97, main_c_12]
theorem st7_writes : (st7 : List (HloOp τ sig (Elt F))).Forall fun op => op.writes ⊆ ((wr7).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 7 does not write keeps its contents across it. -/
theorem st7_keeps {r : Ref sig .tc} (h : r ∉ wr7) (V : Valuation τ sig (Elt F)) :
    StableHlo.after st7 V (Proc.devRef .tc r) = V (Proc.devRef .tc r) :=
  StableHlo.after_of_writes_sub st7 V st7_writes h

/-- The references stretch 8's operations write. -/
abbrev wr8 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v98]
theorem st8_writes : (st8 : List (HloOp τ sig (Elt F))).Forall fun op => op.writes ⊆ ((wr8).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 8 does not write keeps its contents across it. -/
theorem st8_keeps {r : Ref sig .tc} (h : r ∉ wr8) (V : Valuation τ sig (Elt F)) :
    StableHlo.after st8 V (Proc.devRef .tc r) = V (Proc.devRef .tc r) :=
  StableHlo.after_of_writes_sub st8 V st8_writes h

/-- The references stretch 9's operations write. -/
abbrev wr9 : List (Ref sig .tc) := [main_v99, main_v100, main_v101, main_cst_13, main_v102, main_v103]
theorem st9_writes : (st9 : List (HloOp τ sig (Elt F))).Forall fun op => op.writes ⊆ ((wr9).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 9 does not write keeps its contents across it. -/
theorem st9_keeps {r : Ref sig .tc} (h : r ∉ wr9) (V : Valuation τ sig (Elt F)) :
    StableHlo.after st9 V (Proc.devRef .tc r) = V (Proc.devRef .tc r) :=
  StableHlo.after_of_writes_sub st9 V st9_writes h

/-- The references stretch 10's operations write. -/
abbrev wr10 : List (Ref sig .tc) := [main_v104, main_v105, main_v106, main_v107, main_v108, main_v109, main_v110, main_v111, main_v112, main_v113]
theorem st10_writes : (st10 : List (HloOp τ sig (Elt F))).Forall fun op => op.writes ⊆ ((wr10).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 10 does not write keeps its contents across it. -/
theorem st10_keeps {r : Ref sig .tc} (h : r ∉ wr10) (V : Valuation τ sig (Elt F)) :
    StableHlo.after st10 V (Proc.devRef .tc r) = V (Proc.devRef .tc r) :=
  StableHlo.after_of_writes_sub st10 V st10_writes h

/-- The references stretch 11's operations write. -/
abbrev wr11 : List (Ref sig .tc) := [main_call1_cst, main_call1_v0, main_v114]
theorem st11_writes : (st11 : List (HloOp τ sig (Elt F))).Forall fun op => op.writes ⊆ ((wr11).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 11 does not write keeps its contents across it. -/
theorem st11_keeps {r : Ref sig .tc} (h : r ∉ wr11) (V : Valuation τ sig (Elt F)) :
    StableHlo.after st11 V (Proc.devRef .tc r) = V (Proc.devRef .tc r) :=
  StableHlo.after_of_writes_sub st11 V st11_writes h

/-- The references stretch 12's operations write. -/
abbrev wr12 : List (Ref sig .tc) := [main_v115, main_v116, main_v117, main_v118]
theorem st12_writes : (st12 : List (HloOp τ sig (Elt F))).Forall fun op => op.writes ⊆ ((wr12).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 12 does not write keeps its contents across it. -/
theorem st12_keeps {r : Ref sig .tc} (h : r ∉ wr12) (V : Valuation τ sig (Elt F)) :
    StableHlo.after st12 V (Proc.devRef .tc r) = V (Proc.devRef .tc r) :=
  StableHlo.after_of_writes_sub st12 V st12_writes h

/-- The references stretch 13's operations write. -/
abbrev wr13 : List (Ref sig .tc) := [main_cst_14, main_v119, main_cst_15, main_v120, main_v121, main_c_16]
theorem st13_writes : (st13 : List (HloOp τ sig (Elt F))).Forall fun op => op.writes ⊆ ((wr13).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 13 does not write keeps its contents across it. -/
theorem st13_keeps {r : Ref sig .tc} (h : r ∉ wr13) (V : Valuation τ sig (Elt F)) :
    StableHlo.after st13 V (Proc.devRef .tc r) = V (Proc.devRef .tc r) :=
  StableHlo.after_of_writes_sub st13 V st13_writes h

/-- The references stretch 14's operations write. -/
abbrev wr14 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v122]
theorem st14_writes : (st14 : List (HloOp τ sig (Elt F))).Forall fun op => op.writes ⊆ ((wr14).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 14 does not write keeps its contents across it. -/
theorem st14_keeps {r : Ref sig .tc} (h : r ∉ wr14) (V : Valuation τ sig (Elt F)) :
    StableHlo.after st14 V (Proc.devRef .tc r) = V (Proc.devRef .tc r) :=
  StableHlo.after_of_writes_sub st14 V st14_writes h

/-- The references stretch 15's operations write. -/
abbrev wr15 : List (Ref sig .tc) := [main_v123, main_v124, main_v125, main_cst_17, main_v126, main_v127, main_v128, main_v129, main_v130, main_v131, main_v132, main_v133, main_v134, main_v135, main_v136, main_v137]
theorem st15_writes : (st15 : List (HloOp τ sig (Elt F))).Forall fun op => op.writes ⊆ ((wr15).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 15 does not write keeps its contents across it. -/
theorem st15_keeps {r : Ref sig .tc} (h : r ∉ wr15) (V : Valuation τ sig (Elt F)) :
    StableHlo.after st15 V (Proc.devRef .tc r) = V (Proc.devRef .tc r) :=
  StableHlo.after_of_writes_sub st15 V st15_writes h

/-- The references stretch 16's operations write. -/
abbrev wr16 : List (Ref sig .tc) := [main_call3_cst, main_call3_v0, main_v138]
theorem st16_writes : (st16 : List (HloOp τ sig (Elt F))).Forall fun op => op.writes ⊆ ((wr16).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 16 does not write keeps its contents across it. -/
theorem st16_keeps {r : Ref sig .tc} (h : r ∉ wr16) (V : Valuation τ sig (Elt F)) :
    StableHlo.after st16 V (Proc.devRef .tc r) = V (Proc.devRef .tc r) :=
  StableHlo.after_of_writes_sub st16 V st16_writes h

/-- The references stretch 17's operations write. -/
abbrev wr17 : List (Ref sig .tc) := [main_v139, main_v140, main_v141, main_v142, main_v143, main_v144, main_cst_18, main_v145, main_v146, main_cst_19, main_v147, main_v148]
theorem st17_writes : (st17 : List (HloOp τ sig (Elt F))).Forall fun op => op.writes ⊆ ((wr17).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference stretch 17 does not write keeps its contents across it. -/
theorem st17_keeps {r : Ref sig .tc} (h : r ∉ wr17) (V : Valuation τ sig (Elt F)) :
    StableHlo.after st17 V (Proc.devRef .tc r) = V (Proc.devRef .tc r) :=
  StableHlo.after_of_writes_sub st17 V st17_writes h

variable (m : (ℓ : Loc nD τ sig) → Buf (Elt F) ℓ)

/-- A reference none of stretches 0 to 8 writes holds, after them, what it held at launch. -/
theorem R7_of_kept {r : Ref sig .tc} (h : ∀ W ∈ [wr0, wr1, wr2, wr3, wr4, wr5, wr6, wr7, wr8], r ∉ W) (c : Dev nD) :
    R7 m c (Proc.devRef .tc r) = R0 m c (Proc.devRef .tc r) := by
  show StableHlo.after st8 (StableHlo.after st7 (StableHlo.after st6 (StableHlo.after st5 (StableHlo.after st4 (StableHlo.after st3 (StableHlo.after st2 (StableHlo.after st1 (StableHlo.after st0 (R0 m c))))))))) (Proc.devRef .tc r) = _
  rw [st8_keeps (h wr8 (by simp)), st7_keeps (h wr7 (by simp)), st6_keeps (h wr6 (by simp)), st5_keeps (h wr5 (by simp)),
    st4_keeps (h wr4 (by simp)), st3_keeps (h wr3 (by simp)), st2_keeps (h wr2 (by simp)), st1_keeps (h wr1 (by simp)),
    st0_keeps (h wr0 (by simp))]

/-- A reference none of stretches 9 to 14 writes holds, after them, what it held before them. -/
theorem R9_of_kept {r : Ref sig .tc} (h : ∀ W ∈ [wr9, wr10, wr11, wr12, wr13, wr14], r ∉ W) (c : Dev nD) :
    R9 m c (Proc.devRef .tc r) = R7 m c (Proc.devRef .tc r) := by
  show StableHlo.after st14 (StableHlo.after st13 (StableHlo.after st12 (StableHlo.after st11 (StableHlo.after st10 (StableHlo.after st9 (R7 m c)))))) (Proc.devRef .tc r) = _
  rw [st14_keeps (h wr14 (by simp)), st13_keeps (h wr13 (by simp)), st12_keeps (h wr12 (by simp)),
    st11_keeps (h wr11 (by simp)), st10_keeps (h wr10 (by simp)), st9_keeps (h wr9 (by simp))]

/-- A reference none of stretches 6 to 17 writes holds at the end of the run what it held after stretch 5. -/
theorem R10_of_kept {r : Ref sig .tc}
    (h : ∀ W ∈ [wr6, wr7, wr8, wr9, wr10, wr11, wr12, wr13, wr14, wr15, wr16, wr17], r ∉ W) (c : Dev nD) :
    R10 m c (Proc.devRef .tc r) = R5 m c (Proc.devRef .tc r) := by
  show StableHlo.after st17 (StableHlo.after st16 (StableHlo.after st15 (StableHlo.after st14 (StableHlo.after st13 (StableHlo.after st12 (StableHlo.after st11 (StableHlo.after st10 (StableHlo.after st9 (StableHlo.after st8 (StableHlo.after st7 (StableHlo.after st6 (R5 m c)))))))))))) (Proc.devRef .tc r) = _
  rw [st17_keeps (h wr17 (by simp)), st16_keeps (h wr16 (by simp)), st15_keeps (h wr15 (by simp)),
    st14_keeps (h wr14 (by simp)), st13_keeps (h wr13 (by simp)), st12_keeps (h wr12 (by simp)),
    st11_keeps (h wr11 (by simp)), st10_keeps (h wr10 (by simp)), st9_keeps (h wr9 (by simp)),
    st8_keeps (h wr8 (by simp)), st7_keeps (h wr7 (by simp)), st6_keeps (h wr6 (by simp))]

end Cert.ReferenceIdeal.RV

end
-- ==== Proof.RStepsB.lean ====
import proofs.«401691_j50775103373990_2_alg».proof.Proof.RStepsA
import proofs.«401691_j50775103373990_2_alg».proof.Proof.RKept
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

/-!
# The reference's run, second half: the head's two normalised layers and the node embedding kept to the end

The head's second pre-activation and the probability, as the reference composes them from host operations, are the
specification's `bnDense` and `bnDenseSig` of the previous layer, its column means and variances and the launch
contents of the weights; and the node embedding, written before the head, is still there at the end of the run.
First the two layers are read index by index over variables; then each stretch of host operations is read at the
buffers it ends in, over any contents before it; then the run's contents are followed from point to point.
-/

noncomputable section

open scoped BigOperators

namespace Cert.ReferenceIdeal.Chain

open Cert.ReferenceIdeal Cert.ReferenceIdeal.Gen Cert.ReferenceIdeal.Host Cert.ReferenceIdeal.RV Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The layers of the head, index by index -/

/-- A vector of 64 features laid as one row and repeated down the 100000 rows, read at (p, n): the vector at n. -/
theorem bias64N_apply (b : FVec Ideal S64 .f32) (p : Fin 100000) (n : Fin 64) : bias64N b (ix2 p n) = b (ix1 n) := by
  unfold bias64N
  rw [broadcastInDim_apply ![0, 1] bcast_S1x64_S100000x64_0_1 _ (ix2 p n) (ix2 0 n)
        (fun a => by match a with | ⟨0, _⟩ => rfl | ⟨1, _⟩ => rfl),
    broadcastInDim_apply ![1] bcast_S64_S1x64_1 b (ix2 0 n) (ix1 n) (fun a => by match a with | ⟨0, _⟩ => rfl)]

/-- A one-entry vector laid as one row and repeated down the 100000 rows, read at (p, n): the vector at n. -/
theorem bias1N_apply (b : FVec Ideal S1 .f32) (p : Fin 100000) (n : Fin 1) : bias1N b (ix2 p n) = b (ix1 n) := by
  unfold bias1N
  rw [broadcastInDim_apply ![0, 1] bcast_S1x1_S100000x1_0_1 _ (ix2 p n) (ix2 0 n)
        (fun a => by match a with | ⟨0, _⟩ => rfl | ⟨1, _⟩ => show n.val = 0; exact Fin.val_eq_zero n),
    broadcastInDim_apply ![1] bcast_S1_S1x1_1 b (ix2 0 n) (ix1 n)
        (fun a => by match a with | ⟨0, _⟩ => show n.val = 0; exact Fin.val_eq_zero n)]

/-- The reference's normalise, scale, shift and rectify, as it composes them from host operations. -/
def hostBnRelu (h : FVec Ideal S100000x64 .f32) (mean var g beta : FVec Ideal S64 .f32) : FVec Ideal S100000x64 .f32 :=
  maximumf
    (addf (mulf (mulf (subf h (bias64N mean))
        (bias64N (Host.rsqrt (addf var (broadcastInDim S64 ![] bcast_S_S64 (constant (F := Ideal) S_ .f32 0x3727C5AC#32))))))
      (bias64N g)) (bias64N beta))
    (broadcastInDim S100000x64 ![] bcast_S_S100000x64 (constant (F := Ideal) S_ .f32 0x00000000#32))

/-- It is the specification's: max (((h − mean) · rsqrt (var + ε)) · g + beta) 0, feature by feature. -/
theorem hostBnRelu_eq (h : FVec Ideal S100000x64 .f32) (mean var g beta : FVec Ideal S64 .f32) :
    hostBnRelu h mean var g beta
      = Cert.Spec.bnRelu h (Cert.Spec.asRow mean) (Cert.Spec.asRow var) (Cert.Spec.asRow g) (Cert.Spec.asRow beta) := by
  funext i
  obtain ⟨p, n, rfl⟩ : ∃ (p : Fin 100000) (n : Fin 64), i = ix2 p n := ⟨i 0, i 1, eq_ix2 i⟩
  unfold hostBnRelu
  rw [maximumf_apply, addf_apply, mulf_apply, mulf_apply, subf_apply, bias64N_apply, bias64N_apply, bias64N_apply,
    bias64N_apply]
  show max ((((h (ix2 p n) - mean (ix1 n)) * Ideal.rsqrt (var (ix1 n) + Ideal.ofBits .f32 0x3727C5AC#32)) * g (ix1 n))
    + beta (ix1 n)) (Ideal.ofBits .f32 0x00000000#32) = _
  rw [Ideal.ofBits_zero_f32]
  rfl

/-- The affine layer after it, with the 64-by-64 weights, is the specification's `bnDense`. -/
theorem hostBnDense_eq (h : FVec Ideal S100000x64 .f32) (mean var g beta : FVec Ideal S64 .f32)
    (W : FVec Ideal S64x64 .f32) (b : FVec Ideal S64 .f32) :
    addf (Host.dotGeneral (φ₂ := .f32) dot_S100000x64_S64x64_S100000x64_1_0_0_1_n_n none (hostBnRelu h mean var g beta) W)
        (bias64N b)
      = Cert.Spec.bnDense h (Cert.Spec.asRow mean) (Cert.Spec.asRow var) (Cert.Spec.asRow g) (Cert.Spec.asRow beta) W
          (Cert.Spec.asRow b) := by
  funext i
  obtain ⟨p, n, rfl⟩ : ∃ (p : Fin 100000) (n : Fin 64), i = ix2 p n := ⟨i 0, i 1, eq_ix2 i⟩
  rw [addf_apply, bias64N_apply, hostBnRelu_eq]
  refine (congrArg (· + b (ix1 n)) (Cert.DotPlain.dot_plain_apply dot_S100000x64_S64x64_S100000x64_1_0_0_1_n_n
    rfl rfl rfl rfl rfl rfl none _ _ W p n)).trans ?_
  rfl

/-- The reciprocal of one plus the exponential of the negation, as the reference composes the logistic. -/
def hostLogistic (y : FVec Ideal S100000x1 .f32) : FVec Ideal S100000x1 .f32 :=
  Host.divf (broadcastInDim S100000x1 ![] bcast_S_S100000x1 (constant (F := Ideal) S_ .f32 0x3F800000#32))
    (addf (broadcastInDim S100000x1 ![] bcast_S_S100000x1 (constant (F := Ideal) S_ .f32 0x3F800000#32))
      (Host.exp (Host.negf y)))

/-- It is the logistic, entry by entry. -/
theorem hostLogistic_apply (y : FVec Ideal S100000x1 .f32) (i : S100000x1.Idx) :
    hostLogistic y i = Ideal.logistic (y i) := by
  show Ideal.div (Ideal.ofBits .f32 0x3F800000#32) (Ideal.ofBits .f32 0x3F800000#32 + Ideal.exp (-(y i))) = _
  rw [Ideal.ofBits_one_f32]
  rfl

/-- The affine layer with the 64-by-1 weights after the normalise-and-rectify, then the logistic, is the specification's
    `bnDenseSig`. -/
theorem hostBnDenseSig_eq (h : FVec Ideal S100000x64 .f32) (mean var g beta : FVec Ideal S64 .f32)
    (W : FVec Ideal S64x1 .f32) (b : FVec Ideal S1 .f32) :
    hostLogistic (addf (Host.dotGeneral (φ₂ := .f32) dot_S100000x64_S64x1_S100000x1_1_0_0_1_n_n none
        (hostBnRelu h mean var g beta) W) (bias1N b))
      = Cert.Spec.bnDenseSig h (Cert.Spec.asRow mean) (Cert.Spec.asRow var) (Cert.Spec.asRow g) (Cert.Spec.asRow beta) W
          (Cert.Spec.asRow b) := by
  funext i
  obtain ⟨p, n, rfl⟩ : ∃ (p : Fin 100000) (n : Fin 1), i = ix2 p n := ⟨i 0, i 1, eq_ix2 i⟩
  rw [hostLogistic_apply, addf_apply, bias1N_apply, hostBnRelu_eq]
  refine congrArg Ideal.logistic ?_
  refine (congrArg (· + b (ix1 n)) (Cert.DotPlain.dot_plain_apply dot_S100000x64_S64x1_S100000x1_1_0_0_1_n_n
    rfl rfl rfl rfl rfl rfl none _ _ W p n)).trans ?_
  rfl

/-! ## Each stretch of host operations, read at the buffers it ends in, over any contents before it -/

set_option maxHeartbeats 4000000 in
/-- The column means: stretch 7 at its result. -/
theorem st7_mean (W : Valuation τ sig (Elt Ideal)) :
    StableHlo.after st7 W (Proc.devRef .tc main_v97) = meanOf (W (Proc.devRef .tc main_v94)) := by
  after_results_simp
  rfl

set_option maxHeartbeats 4000000 in
/-- The column variances: stretches 7 and 8 at their result. -/
theorem st8_var (W : Valuation τ sig (Elt Ideal)) :
    StableHlo.after st8 (StableHlo.after st7 W) (Proc.devRef .tc main_v98) = varOf (W (Proc.devRef .tc main_v94)) := by
  after_results_simp
  rfl

set_option maxHeartbeats 4000000 in
/-- The second pre-activation: stretches 9 to 12 at their result. -/
theorem st12_dense (W : Valuation τ sig (Elt Ideal)) :
    StableHlo.after st12 (StableHlo.after st11 (StableHlo.after st10 (StableHlo.after st9 W))) (Proc.devRef .tc main_v118)
      = addf (Host.dotGeneral (φ₂ := .f32) dot_S100000x64_S64x64_S100000x64_1_0_0_1_n_n none
          (hostBnRelu (W (Proc.devRef .tc main_v94)) (W (Proc.devRef .tc main_v97)) (W (Proc.devRef .tc main_v98))
            (W (Proc.devRef .tc main_arg19)) (W (Proc.devRef .tc main_arg20))) (W (Proc.devRef .tc main_arg21)))
          (bias64N (W (Proc.devRef .tc main_arg22))) := by
  after_results_simp
  rfl

set_option maxHeartbeats 4000000 in
/-- The column means of the second pre-activation: stretch 13 at its result. -/
theorem st13_mean (W : Valuation τ sig (Elt Ideal)) :
    StableHlo.after st13 W (Proc.devRef .tc main_v121) = meanOf (W (Proc.devRef .tc main_v118)) := by
  after_results_simp
  rfl

set_option maxHeartbeats 4000000 in
/-- Its column variances: stretches 13 and 14 at their result. -/
theorem st14_var (W : Valuation τ sig (Elt Ideal)) :
    StableHlo.after st14 (StableHlo.after st13 W) (Proc.devRef .tc main_v122) = varOf (W (Proc.devRef .tc main_v118)) := by
  after_results_simp
  rfl

set_option maxHeartbeats 4000000 in
/-- The probability: stretches 15 to 17 at their result. -/
theorem st17_prob (W : Valuation τ sig (Elt Ideal)) :
    StableHlo.after st17 (StableHlo.after st16 (StableHlo.after st15 W)) (Proc.devRef .tc main_v148)
      = hostLogistic (addf (Host.dotGeneral (φ₂ := .f32) dot_S100000x64_S64x1_S100000x1_1_0_0_1_n_n none
          (hostBnRelu (W (Proc.devRef .tc main_v118)) (W (Proc.devRef .tc main_v121)) (W (Proc.devRef .tc main_v122))
            (W (Proc.devRef .tc main_arg23)) (W (Proc.devRef .tc main_arg24))) (W (Proc.devRef .tc main_arg25)))
          (bias1N (W (Proc.devRef .tc main_arg26)))) := by
  after_results_simp
  rfl

/-! ## The run's contents, from point to point -/

/-- The weights of the head's second layer are, after stretches 0 to 8, as launched. -/
theorem R7_arg19 (c : Dev nD) : R7 m c (Proc.devRef .tc main_arg19) = m ((c : Thread nD τ).loc main_arg19) :=
  R7_of_kept m (by decide) c
theorem R7_arg20 (c : Dev nD) : R7 m c (Proc.devRef .tc main_arg20) = m ((c : Thread nD τ).loc main_arg20) :=
  R7_of_kept m (by decide) c
theorem R7_arg21 (c : Dev nD) : R7 m c (Proc.devRef .tc main_arg21) = m ((c : Thread nD τ).loc main_arg21) :=
  R7_of_kept m (by decide) c
theorem R7_arg22 (c : Dev nD) : R7 m c (Proc.devRef .tc main_arg22) = m ((c : Thread nD τ).loc main_arg22) :=
  R7_of_kept m (by decide) c

/-- The weights of the head's last layer are, after stretches 0 to 14, as launched. -/
theorem R9_arg23 (c : Dev nD) : R9 m c (Proc.devRef .tc main_arg23) = m ((c : Thread nD τ).loc main_arg23) :=
  (R9_of_kept m (by decide) c).trans (R7_of_kept m (by decide) c)
theorem R9_arg24 (c : Dev nD) : R9 m c (Proc.devRef .tc main_arg24) = m ((c : Thread nD τ).loc main_arg24) :=
  (R9_of_kept m (by decide) c).trans (R7_of_kept m (by decide) c)
theorem R9_arg25 (c : Dev nD) : R9 m c (Proc.devRef .tc main_arg25) = m ((c : Thread nD τ).loc main_arg25) :=
  (R9_of_kept m (by decide) c).trans (R7_of_kept m (by decide) c)
theorem R9_arg26 (c : Dev nD) : R9 m c (Proc.devRef .tc main_arg26) = m ((c : Thread nD τ).loc main_arg26) :=
  (R9_of_kept m (by decide) c).trans (R7_of_kept m (by decide) c)

/-- The first pre-activation is still there after its mean and variance are taken. -/
theorem R7_h1 (c : Dev nD) : R7 m c (Proc.devRef .tc main_v94) = h1 m c := by
  show StableHlo.after st8 (StableHlo.after st7 (R6 m c)) (Proc.devRef .tc main_v94) = _
  rw [st8_keeps (by decide), st7_keeps (by decide)]
  exact R6_h1 m c

/-- Its column means. -/
theorem R7_mean (c : Dev nD) : R7 m c (Proc.devRef .tc main_v97) = meanOf (h1 m c) := by
  show StableHlo.after st8 (StableHlo.after st7 (R6 m c)) (Proc.devRef .tc main_v97) = _
  rw [st8_keeps (by decide), st7_mean, R6_h1]

/-- Its column variances. -/
theorem R7_var (c : Dev nD) : R7 m c (Proc.devRef .tc main_v98) = varOf (h1 m c) := by
  show StableHlo.after st8 (StableHlo.after st7 (R6 m c)) (Proc.devRef .tc main_v98) = _
  rw [st8_var, R6_h1]

/-- THE SECOND PRE-ACTIVATION. -/
theorem R8_h2 (c : Dev nD) : R8 m c (Proc.devRef .tc main_v118) = h2 m c := by
  show StableHlo.after st12 (StableHlo.after st11 (StableHlo.after st10 (StableHlo.after st9 (R7 m c))))
    (Proc.devRef .tc main_v118) = _
  rw [st12_dense, R7_h1, R7_mean, R7_var, R7_arg19, R7_arg20, R7_arg21, R7_arg22]
  exact hostBnDense_eq _ _ _ _ _ _ _

/-- The second pre-activation is still there after its mean and variance are taken. -/
theorem R9_h2 (c : Dev nD) : R9 m c (Proc.devRef .tc main_v118) = h2 m c := by
  show StableHlo.after st14 (StableHlo.after st13 (R8 m c)) (Proc.devRef .tc main_v118) = _
  rw [st14_keeps (by decide), st13_keeps (by decide)]
  exact R8_h2 m c

/-- Its column means. -/
theorem R9_mean (c : Dev nD) : R9 m c (Proc.devRef .tc main_v121) = meanOf (h2 m c) := by
  show StableHlo.after st14 (StableHlo.after st13 (R8 m c)) (Proc.devRef .tc main_v121) = _
  rw [st14_keeps (by decide), st13_mean, R8_h2]

/-- Its column variances. -/
theorem R9_var (c : Dev nD) : R9 m c (Proc.devRef .tc main_v122) = varOf (h2 m c) := by
  show StableHlo.after st14 (StableHlo.after st13 (R8 m c)) (Proc.devRef .tc main_v122) = _
  rw [st14_var, R8_h2]

/-- THE PROBABILITY. -/
theorem R10_prob (c : Dev nD) : R10 m c (Proc.devRef .tc main_v148) = prob m c := by
  show StableHlo.after st17 (StableHlo.after st16 (StableHlo.after st15 (R9 m c))) (Proc.devRef .tc main_v148) = _
  rw [st17_prob, R9_h2, R9_mean, R9_var, R9_arg23, R9_arg24, R9_arg25, R9_arg26]
  exact hostBnDenseSig_eq _ _ _ _ _ _ _

/-- THE NODE EMBEDDING is, at the end of the run, what it was when written: no later operation writes its buffer. -/
theorem R10_zf (c : Dev nD) : R10 m c (Proc.devRef .tc main_v90) = zf m c :=
  (R10_of_kept m (by decide) c).trans (R5_zf m c)

end Cert.ReferenceIdeal.Chain

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.Bridge.lean ====
import proofs.«401691_j50775103373990_2_alg».proof.Proof.KHost
import proofs.«401691_j50775103373990_2_alg».proof.Proof.RHost
import proofs.«401691_j50775103373990_2_alg».proof.Proof.KDefs
import proofs.«401691_j50775103373990_2_alg».proof.Proof.RDefs
import proofs.«401691_j50775103373990_2_alg».proof.Proof.Spec
import proofs.«401691_j50775103373990_2_alg».proof.Proof.LibSegment
import proofs.«401691_j50775103373990_2_alg».proof.Proof.LibMatmulPlain
import proofs.«401691_j50775103373990_2_alg».proof.Proof.LibDotPlain
import Idealize.ShloMosaic.Lib.Pipeline.Value

set_option maxRecDepth 16384

noncomputable section

namespace Cert.Bridge

open Idealize.ShloMosaic Idealize.ShloMosaic.TcCoe

open Idealize.ShloMosaic.ValueIdx in
/-- A vector of `c` entries reshaped to one row of `c` columns reads, at (0, n), the vector at n: the two indices
    have the same row-major position. -/
theorem shapeCast_row {c : Nat} (b : Cert.Spec.Row c) (h : (⟨1, ![c]⟩ : Shape).ShapeCasts ⟨2, ![1, c]⟩) :
    shapeCast ⟨2, ![1, c]⟩ b h = Cert.Spec.asRow b := by
  funext i
  unfold Cert.Spec.asRow
  refine shapeCast_apply b h i (ix1 (Cert.Spec.col i)) ?_
  rw [Shape.rowMajor_val_one, Shape.rowMajor_val_two]
  have h0 : (i 0).val < 1 := idx2_lt0 i
  show (i 1).val = (i 0).val * c + (i 1).val
  rw [show (i 0).val = 0 by omega]
  omega

theorem row32_eq (b : Cert.Spec.Row 32) : Cert.KernelIdeal.Host.row32 b = Cert.Spec.asRow b :=
  shapeCast_row b _
theorem row64_eq (b : Cert.Spec.Row 64) : Cert.KernelIdeal.Host.row64 b = Cert.Spec.asRow b :=
  shapeCast_row b _
theorem row1_eq (b : Cert.Spec.Row 1) : Cert.KernelIdeal.Host.row1 b = Cert.Spec.asRow b :=
  shapeCast_row b _

open Idealize.ShloMosaic.ValueIdx in
/-- Of two 32-column matrices side by side, a column below 32 is the first matrix's. -/
theorem sideBySide_lo {R : Nat} (a b : Cert.Spec.Mat R 32) (p : Fin R) (n : Fin 64) (h : n.val < 32) :
    Cert.Spec.sideBySide a b (ix2 p n) = a (ix2 p ⟨n.val, h⟩) := by
  unfold Cert.Spec.sideBySide
  exact dif_pos h

open Idealize.ShloMosaic.ValueIdx in
/-- Of two 32-column matrices side by side, a column from 32 on is the second matrix's, 32 columns back. -/
theorem sideBySide_hi {R : Nat} (a b : Cert.Spec.Mat R 32) (p : Fin R) (n : Fin 64) (h : ¬ n.val < 32) :
    Cert.Spec.sideBySide a b (ix2 p n) = b (ix2 p ⟨n.val - 32, by have := n.isLt; omega⟩) := by
  unfold Cert.Spec.sideBySide
  exact dif_neg h

open Idealize.ShloMosaic.ValueIdx in
/-- Columns 0–31 of two 32-column matrices side by side, read at (p, n): the first matrix there. -/
theorem sliceLo_sideBySide_apply (a b : Cert.Spec.Mat 100000 32) (p : Fin 100000) (n : Fin 32) :
    Cert.KernelIdeal.Host.sliceLo (Cert.Spec.sideBySide a b) (ix2 p n) = a (ix2 p n) := by
  unfold Cert.KernelIdeal.Host.sliceLo
  have h1 : n.val < 32 := n.isLt
  refine (extractStridedSlice_apply _ _ _ (ix2 p n) (ix2 p (⟨n.val, by omega⟩ : Fin 64)) ?_).trans ?_
  · refine Fin.forall_fin_two.2 ⟨?_, ?_⟩
    · show p.val = 0 + p.val
      omega
    · show n.val = 0 + n.val
      omega
  · exact sideBySide_lo a b p ⟨n.val, by omega⟩ h1

open Idealize.ShloMosaic.ValueIdx in
theorem sliceLo_sideBySide (a b : Cert.Spec.Mat 100000 32) : Cert.KernelIdeal.Host.sliceLo (Cert.Spec.sideBySide a b) = a := by
  funext i
  obtain ⟨p, n, rfl⟩ : ∃ p n, i = ix2 p n := ⟨_, _, eq_ix2 i⟩
  exact sliceLo_sideBySide_apply a b p n

open Idealize.ShloMosaic.ValueIdx in
/-- Columns 32–63 of two 32-column matrices side by side, read at (p, n): the second matrix there. -/
theorem sliceHi_sideBySide_apply (a b : Cert.Spec.Mat 100000 32) (p : Fin 100000) (n : Fin 32) :
    Cert.KernelIdeal.Host.sliceHi (Cert.Spec.sideBySide a b) (ix2 p n) = b (ix2 p n) := by
  unfold Cert.KernelIdeal.Host.sliceHi
  have h1 : n.val < 32 := n.isLt
  refine (extractStridedSlice_apply _ _ _ (ix2 p n) (ix2 p (⟨32 + n.val, by omega⟩ : Fin 64)) ?_).trans ?_
  · refine Fin.forall_fin_two.2 ⟨?_, ?_⟩
    · show p.val = 0 + p.val
      omega
    · show 32 + n.val = 32 + n.val
      rfl
  · rw [sideBySide_hi a b p ⟨32 + n.val, by omega⟩ (by show ¬ 32 + n.val < 32; omega)]
    refine congrArg (fun m : Fin 32 => b (ix2 p m)) (Fin.ext ?_)
    show 32 + n.val - 32 = n.val
    omega

open Idealize.ShloMosaic.ValueIdx in
theorem sliceHi_sideBySide (a b : Cert.Spec.Mat 100000 32) : Cert.KernelIdeal.Host.sliceHi (Cert.Spec.sideBySide a b) = b := by
  funext i
  obtain ⟨p, n, rfl⟩ : ∃ p n, i = ix2 p n := ⟨_, _, eq_ix2 i⟩
  exact sliceHi_sideBySide_apply a b p n

open Idealize.ShloMosaic.ValueIdx Idealize.ShloMosaic.StableHlo.Predicate in
/-- THE ONE IDENTITY. The rows of `x · W + b` gathered at a column of (clamped) start indices are the gathered rows of
    `x` times `W`, plus `b` on every row: at (e, k) both sides are the sum over q of x(r, q) · W(q, k), plus b(k),
    where r is the start index of e, read signed and clamped into the table. -/
theorem gather_affine {N K C E : Nat} (hN : 0 < N)
    (dg : GatherDims ⟨2, ![N, C]⟩ ⟨2, ![E, 1]⟩ ⟨2, ![E, C]⟩)
    (hg1 : dg.offsetDims = [1]) (hg2 : dg.collapsedSliceDims = [0]) (hg3 : dg.operandBatchingDims = [])
    (hg4 : dg.startIndexMap = [0]) (hg5 : dg.indexVectorDim = 1)
    (dx : GatherDims ⟨2, ![N, K]⟩ ⟨2, ![E, 1]⟩ ⟨2, ![E, K]⟩)
    (hx1 : dx.offsetDims = [1]) (hx2 : dx.collapsedSliceDims = [0]) (hx3 : dx.operandBatchingDims = [])
    (hx4 : dx.startIndexMap = [0]) (hx5 : dx.indexVectorDim = 1)
    (D : DotDims ⟨2, ![E, K]⟩ ⟨2, ![K, C]⟩ ⟨2, ![E, C]⟩)
    (hlc : D.lhsContracting = [1]) (hrc : D.rhsContracting = [0])
    (hln : D.lhsNonContracting = [0]) (hrn : D.rhsNonContracting = [1]) (hlb : D.lhsBatch = []) (hrb : D.rhsBatch = [])
    (x : Cert.Spec.Mat N K) (W : Cert.Spec.Mat K C) (b : Cert.Spec.Row C) (idx : IVec ⟨2, ![E, 1]⟩ 32)
    (bias : Cert.Spec.Mat E C) (hbias : ∀ (r : Fin E) (k : Fin C), bias (ix2 r k) = b (ix1 k)) :
    (Host.gather dg (Cert.Spec.affine x W (Cert.Spec.asRow b)) idx : FVec Ideal ⟨2, ![E, C]⟩ .f32)
      = addf (Host.dotGeneral (φ₂ := .f32) D none
          (Host.gather dx x idx : FVec Ideal ⟨2, ![E, K]⟩ .f32) (W : FVec Ideal ⟨2, ![K, C]⟩ .f32))
          (bias : FVec Ideal ⟨2, ![E, C]⟩ .f32) := by
  funext i
  obtain ⟨r, k, rfl⟩ : ∃ r k, i = ix2 r k := ⟨_, _, eq_ix2 i⟩
  unfold Host.dotGeneral
  rw [addf_apply, Cert.Segment.gather_rows dg hg1 hg2 hg3 hg4 hg5 _ idx r k hN, hbias,
    Cert.DotPlain.dot_plain_apply D hlc hrc hln hrn hlb hrb none .single _ _ r k]
  refine congrArg₂ (· + ·) (Finset.sum_congr rfl fun q _ => ?_) rfl
  rw [Cert.Segment.gather_rows dx hx1 hx2 hx3 hx4 hx5 x idx r q hN]
  rfl

open Idealize.ShloMosaic.ValueIdx in
/-- A 32-vector broadcast to one row and then down 1000000 rows reads, at (e, k), the vector at k. -/
theorem bias32E_apply (b : Cert.Spec.Row 32) (r : Fin 1000000) (k : Fin 32) :
    Cert.ReferenceIdeal.Host.bias32E b (ix2 r k) = b (ix1 k) := by
  unfold Cert.ReferenceIdeal.Host.bias32E
  refine (broadcastInDim_apply _ _ _ (ix2 r k) (ix2 (0 : Fin 1) k) ?_).trans ?_
  · exact Fin.forall_fin_two.2 ⟨rfl, rfl⟩
  · refine broadcastInDim_apply _ _ b (ix2 (0 : Fin 1) k) (ix1 k) ?_
    intro a
    match a with
    | ⟨0, _⟩ => rfl

theorem msg64 (x : Cert.Spec.Mat 100000 64) (W : Cert.Spec.Mat 64 32) (b : Cert.Spec.Row 32) (e : IVec ⟨2, ![2, 1000000]⟩ 32) :
    Cert.KernelIdeal.Host.gatherRows32 (Cert.Spec.affine x W (Cert.Spec.asRow b)) e
      = addf (Host.dotGeneral (φ₂ := .f32) Cert.ReferenceIdeal.dot_S1000000x64_S64x32_S1000000x32_1_0_0_1_n_n none (Cert.ReferenceIdeal.Host.gatherRows64 x e) (W : FVec Ideal Cert.ReferenceIdeal.S64x32 .f32))
          (Cert.ReferenceIdeal.Host.bias32E b) :=
  gather_affine (by omega) Cert.KernelIdeal.gather_S100000x32_S1000000x1_S1000000x32_1_0_n_n_0_1_132 rfl rfl rfl rfl rfl
    Cert.ReferenceIdeal.gather_S100000x64_S1000000x1_S1000000x64_1_0_n_n_0_1_164 rfl rfl rfl rfl rfl
    Cert.ReferenceIdeal.dot_S1000000x64_S64x32_S1000000x32_1_0_0_1_n_n rfl rfl rfl rfl rfl rfl
    x W b (Cert.ReferenceIdeal.Host.srcCol e) (Cert.ReferenceIdeal.Host.bias32E b) (bias32E_apply b)
theorem msg32 (x : Cert.Spec.Mat 100000 32) (W : Cert.Spec.Mat 32 32) (b : Cert.Spec.Row 32) (e : IVec ⟨2, ![2, 1000000]⟩ 32) :
    Cert.KernelIdeal.Host.gatherRows32 (Cert.Spec.affine x W (Cert.Spec.asRow b)) e
      = addf (Host.dotGeneral (φ₂ := .f32) Cert.ReferenceIdeal.dot_S1000000x32_S32x32_S1000000x32_1_0_0_1_n_n none (Cert.ReferenceIdeal.Host.gatherRows32 x e) (W : FVec Ideal Cert.ReferenceIdeal.S32x32 .f32))
          (Cert.ReferenceIdeal.Host.bias32E b) :=
  gather_affine (by omega) Cert.KernelIdeal.gather_S100000x32_S1000000x1_S1000000x32_1_0_n_n_0_1_132 rfl rfl rfl rfl rfl
    Cert.ReferenceIdeal.gather_S100000x32_S1000000x1_S1000000x32_1_0_n_n_0_1_132 rfl rfl rfl rfl rfl
    Cert.ReferenceIdeal.dot_S1000000x32_S32x32_S1000000x32_1_0_0_1_n_n rfl rfl rfl rfl rfl rfl
    x W b (Cert.ReferenceIdeal.Host.srcCol e) (Cert.ReferenceIdeal.Host.bias32E b) (bias32E_apply b)
theorem segSum_eq (e : IVec ⟨2, ![2, 1000000]⟩ 32) (msg : Cert.Spec.Mat 1000000 32) :
    Cert.KernelIdeal.Host.segSum e msg = Cert.ReferenceIdeal.Host.segSum e msg := rfl
theorem meanOf_eq (h : Cert.Spec.Mat 100000 64) : Cert.KernelIdeal.Host.meanOf h = Cert.ReferenceIdeal.Host.meanOf h := rfl
theorem varOf_eq (h : Cert.Spec.Mat 100000 64) : Cert.KernelIdeal.Host.varOf h = Cert.ReferenceIdeal.Host.varOf h := rfl

end Cert.Bridge

end
-- ==== Proof.Sim.lean ====
import proofs.«401691_j50775103373990_2_alg».proof.Proof.KDefs
import proofs.«401691_j50775103373990_2_alg».proof.Proof.RDefs
import proofs.«401691_j50775103373990_2_alg».proof.Proof.Bridge
import proofs.«401691_j50775103373990_2_alg».proof.Proof.Spec

/-!
# The two programs compute the same two arrays

Both programs' results are written out as functions of the 27 argument arrays (a record `Args`). The kernel
program's and the reference's differ in three places only: a bias is reshaped to one row (kernel) or read as
a row (reference) — the same matrix; the kernel slices the two halves out of its side-by-side message table —
the halves are the two tables; and, per graph layer and per relation, the kernel gathers the rows of the
projected table `x · W + b` at the edges' source nodes where the reference projects the gathered rows of
`x` — row for row the same numbers, because a gathered row of `x · W + b` is that row of `x` times `W` plus `b`.
Everything else is the same layer applied to equal arrays.
-/

set_option maxRecDepth 16384

noncomputable section

namespace Cert.Sim

open Idealize.ShloMosaic Idealize.ShloMosaic.TcCoe Idealize.SL.Sem

/-- The 27 argument arrays. -/
structure Args where
  a0 : Cert.Spec.Mat 100000 64
  a1 : IVec ⟨2, ![2, 1000000]⟩ 32
  a2 : IVec ⟨2, ![2, 1000000]⟩ 32
  a3 : Cert.Spec.Mat 64 32
  a4 : Cert.Spec.Row 32
  a5 : Cert.Spec.Mat 64 32
  a6 : Cert.Spec.Row 32
  a7 : Cert.Spec.Mat 64 32
  a8 : Cert.Spec.Row 32
  a9 : Cert.Spec.Mat 32 32
  a10 : Cert.Spec.Row 32
  a11 : Cert.Spec.Mat 32 32
  a12 : Cert.Spec.Row 32
  a13 : Cert.Spec.Mat 32 32
  a14 : Cert.Spec.Row 32
  a15 : Cert.Spec.Mat 32 64
  a16 : Cert.Spec.Row 64
  a17 : Cert.Spec.Mat 64 64
  a18 : Cert.Spec.Row 64
  a19 : Cert.Spec.Row 64
  a20 : Cert.Spec.Row 64
  a21 : Cert.Spec.Mat 64 64
  a22 : Cert.Spec.Row 64
  a23 : Cert.Spec.Row 64
  a24 : Cert.Spec.Row 64
  a25 : Cert.Spec.Mat 64 1
  a26 : Cert.Spec.Row 1

/-! ## The kernel program's layers over the arguments -/

def Kout0 (A : Args) : Cert.Spec.Mat 100000 64 :=
  Cert.Spec.sideBySide (Cert.Spec.affine A.a0 A.a3 (Cert.KernelIdeal.Host.row32 A.a4)) (Cert.Spec.affine A.a0 A.a5 (Cert.KernelIdeal.Host.row32 A.a6))
def Kagg1 (A : Args) : Cert.Spec.Mat 100000 32 :=
  addf (Cert.KernelIdeal.Host.segSum A.a1 (Cert.KernelIdeal.Host.gatherRows32 (Cert.KernelIdeal.Host.sliceLo (Kout0 A)) A.a1)) (Cert.KernelIdeal.Host.segSum A.a2 (Cert.KernelIdeal.Host.gatherRows32 (Cert.KernelIdeal.Host.sliceHi (Kout0 A)) A.a2))
def Kz1 (A : Args) : Cert.Spec.Mat 100000 32 := Cert.Spec.combine (Kagg1 A) A.a0 A.a7 (Cert.KernelIdeal.Host.row32 A.a8)
def Kout2 (A : Args) : Cert.Spec.Mat 100000 64 :=
  Cert.Spec.sideBySide (Cert.Spec.affine (Kz1 A) A.a9 (Cert.KernelIdeal.Host.row32 A.a10)) (Cert.Spec.affine (Kz1 A) A.a11 (Cert.KernelIdeal.Host.row32 A.a12))
def Kagg2 (A : Args) : Cert.Spec.Mat 100000 32 :=
  addf (Cert.KernelIdeal.Host.segSum A.a1 (Cert.KernelIdeal.Host.gatherRows32 (Cert.KernelIdeal.Host.sliceLo (Kout2 A)) A.a1)) (Cert.KernelIdeal.Host.segSum A.a2 (Cert.KernelIdeal.Host.gatherRows32 (Cert.KernelIdeal.Host.sliceHi (Kout2 A)) A.a2))
def Kz2 (A : Args) : Cert.Spec.Mat 100000 32 := Cert.Spec.combine (Kagg2 A) (Kz1 A) A.a13 (Cert.KernelIdeal.Host.row32 A.a14)
def Kzf (A : Args) : Cert.Spec.Mat 100000 64 := Cert.Spec.denseTanh (Kz2 A) A.a15 (Cert.KernelIdeal.Host.row64 A.a16)
def Kh1 (A : Args) : Cert.Spec.Mat 100000 64 := Cert.Spec.affine (Kzf A) A.a17 (Cert.KernelIdeal.Host.row64 A.a18)
def Kh2 (A : Args) : Cert.Spec.Mat 100000 64 :=
  Cert.Spec.bnDense (Kh1 A) (Cert.KernelIdeal.Host.row64 (Cert.KernelIdeal.Host.meanOf (Kh1 A))) (Cert.KernelIdeal.Host.row64 (Cert.KernelIdeal.Host.varOf (Kh1 A))) (Cert.KernelIdeal.Host.row64 A.a19) (Cert.KernelIdeal.Host.row64 A.a20) A.a21 (Cert.KernelIdeal.Host.row64 A.a22)
def Kprob (A : Args) : Cert.Spec.Mat 100000 1 :=
  Cert.Spec.bnDenseSig (Kh2 A) (Cert.KernelIdeal.Host.row64 (Cert.KernelIdeal.Host.meanOf (Kh2 A))) (Cert.KernelIdeal.Host.row64 (Cert.KernelIdeal.Host.varOf (Kh2 A))) (Cert.KernelIdeal.Host.row64 A.a23) (Cert.KernelIdeal.Host.row64 A.a24) A.a25 (Cert.KernelIdeal.Host.row1 A.a26)

/-! ## The reference's layers over the arguments -/

def Ragg1 (A : Args) : Cert.Spec.Mat 100000 32 :=
  addf (Cert.ReferenceIdeal.Host.segSum A.a1 (addf (Host.dotGeneral (φ₂ := .f32) Cert.ReferenceIdeal.dot_S1000000x64_S64x32_S1000000x32_1_0_0_1_n_n none (Cert.ReferenceIdeal.Host.gatherRows64 A.a0 A.a1) (A.a3 : FVec Ideal Cert.ReferenceIdeal.S64x32 .f32)) (Cert.ReferenceIdeal.Host.bias32E A.a4)))
    (Cert.ReferenceIdeal.Host.segSum A.a2 (addf (Host.dotGeneral (φ₂ := .f32) Cert.ReferenceIdeal.dot_S1000000x64_S64x32_S1000000x32_1_0_0_1_n_n none (Cert.ReferenceIdeal.Host.gatherRows64 A.a0 A.a2) (A.a5 : FVec Ideal Cert.ReferenceIdeal.S64x32 .f32)) (Cert.ReferenceIdeal.Host.bias32E A.a6)))
def Rz1 (A : Args) : Cert.Spec.Mat 100000 32 := Cert.Spec.combine (Ragg1 A) A.a0 A.a7 (Cert.Spec.asRow A.a8)
def Ragg2 (A : Args) : Cert.Spec.Mat 100000 32 :=
  addf (Cert.ReferenceIdeal.Host.segSum A.a1 (addf (Host.dotGeneral (φ₂ := .f32) Cert.ReferenceIdeal.dot_S1000000x32_S32x32_S1000000x32_1_0_0_1_n_n none (Cert.ReferenceIdeal.Host.gatherRows32 (Rz1 A) A.a1) (A.a9 : FVec Ideal Cert.ReferenceIdeal.S32x32 .f32)) (Cert.ReferenceIdeal.Host.bias32E A.a10)))
    (Cert.ReferenceIdeal.Host.segSum A.a2 (addf (Host.dotGeneral (φ₂ := .f32) Cert.ReferenceIdeal.dot_S1000000x32_S32x32_S1000000x32_1_0_0_1_n_n none (Cert.ReferenceIdeal.Host.gatherRows32 (Rz1 A) A.a2) (A.a11 : FVec Ideal Cert.ReferenceIdeal.S32x32 .f32)) (Cert.ReferenceIdeal.Host.bias32E A.a12)))
def Rz2 (A : Args) : Cert.Spec.Mat 100000 32 := Cert.Spec.combine (Ragg2 A) (Rz1 A) A.a13 (Cert.Spec.asRow A.a14)
def Rzf (A : Args) : Cert.Spec.Mat 100000 64 := Cert.Spec.denseTanh (Rz2 A) A.a15 (Cert.Spec.asRow A.a16)
def Rh1 (A : Args) : Cert.Spec.Mat 100000 64 := Cert.Spec.affine (Rzf A) A.a17 (Cert.Spec.asRow A.a18)
def Rh2 (A : Args) : Cert.Spec.Mat 100000 64 :=
  Cert.Spec.bnDense (Rh1 A) (Cert.Spec.asRow (Cert.ReferenceIdeal.Host.meanOf (Rh1 A))) (Cert.Spec.asRow (Cert.ReferenceIdeal.Host.varOf (Rh1 A))) (Cert.Spec.asRow A.a19) (Cert.Spec.asRow A.a20) A.a21 (Cert.Spec.asRow A.a22)
def Rprob (A : Args) : Cert.Spec.Mat 100000 1 :=
  Cert.Spec.bnDenseSig (Rh2 A) (Cert.Spec.asRow (Cert.ReferenceIdeal.Host.meanOf (Rh2 A))) (Cert.Spec.asRow (Cert.ReferenceIdeal.Host.varOf (Rh2 A))) (Cert.Spec.asRow A.a23) (Cert.Spec.asRow A.a24) A.a25 (Cert.Spec.asRow A.a26)

/-! ## Layer by layer the two are equal -/

theorem agg1_eq (A : Args) : Kagg1 A = Ragg1 A := by
  unfold Kagg1 Ragg1 Kout0
  rw [Cert.Bridge.sliceLo_sideBySide, Cert.Bridge.sliceHi_sideBySide, Cert.Bridge.row32_eq, Cert.Bridge.row32_eq,
    Cert.Bridge.msg64, Cert.Bridge.msg64, Cert.Bridge.segSum_eq, Cert.Bridge.segSum_eq]

theorem z1_eq (A : Args) : Kz1 A = Rz1 A := by
  unfold Kz1 Rz1
  rw [agg1_eq, Cert.Bridge.row32_eq]

theorem agg2_eq (A : Args) : Kagg2 A = Ragg2 A := by
  unfold Kagg2 Ragg2 Kout2
  rw [Cert.Bridge.sliceLo_sideBySide, Cert.Bridge.sliceHi_sideBySide, Cert.Bridge.row32_eq, Cert.Bridge.row32_eq,
    Cert.Bridge.msg32, Cert.Bridge.msg32, Cert.Bridge.segSum_eq, Cert.Bridge.segSum_eq, z1_eq]

theorem z2_eq (A : Args) : Kz2 A = Rz2 A := by
  unfold Kz2 Rz2
  rw [agg2_eq, z1_eq, Cert.Bridge.row32_eq]

/-- The node embedding. -/
theorem zf_eq (A : Args) : Kzf A = Rzf A := by
  unfold Kzf Rzf
  rw [z2_eq, Cert.Bridge.row64_eq]

theorem h1_eq (A : Args) : Kh1 A = Rh1 A := by
  unfold Kh1 Rh1
  rw [zf_eq, Cert.Bridge.row64_eq]

theorem h2_eq (A : Args) : Kh2 A = Rh2 A := by
  unfold Kh2 Rh2
  rw [h1_eq, Cert.Bridge.meanOf_eq, Cert.Bridge.varOf_eq]
  simp only [Cert.Bridge.row64_eq]

/-- The probability. -/
theorem prob_eq (A : Args) : Kprob A = Rprob A := by
  unfold Kprob Rprob
  rw [h2_eq, Cert.Bridge.meanOf_eq, Cert.Bridge.varOf_eq]
  simp only [Cert.Bridge.row64_eq, Cert.Bridge.row1_eq]

/-! ## The programs' own layer functions are these, at their memories' argument arrays -/

variable (mK : (ℓ : Loc Cert.KernelIdeal.nD Cert.KernelIdeal.τ Cert.KernelIdeal.sig) → Buf (Elt Ideal) ℓ)
variable (mR : (ℓ : Loc Cert.ReferenceIdeal.nD Cert.ReferenceIdeal.τ Cert.ReferenceIdeal.sig) → Buf (Elt Ideal) ℓ)

/-- The kernel program's argument arrays in a memory. -/
def argsK (c : Dev Cert.KernelIdeal.nD) : Args where
  a0 := mK ((c.tc : Thread Cert.KernelIdeal.nD Cert.KernelIdeal.τ).loc Cert.KernelIdeal.main_arg0)
  a1 := mK ((c.tc : Thread Cert.KernelIdeal.nD Cert.KernelIdeal.τ).loc Cert.KernelIdeal.main_arg1)
  a2 := mK ((c.tc : Thread Cert.KernelIdeal.nD Cert.KernelIdeal.τ).loc Cert.KernelIdeal.main_arg2)
  a3 := mK ((c.tc : Thread Cert.KernelIdeal.nD Cert.KernelIdeal.τ).loc Cert.KernelIdeal.main_arg3)
  a4 := mK ((c.tc : Thread Cert.KernelIdeal.nD Cert.KernelIdeal.τ).loc Cert.KernelIdeal.main_arg4)
  a5 := mK ((c.tc : Thread Cert.KernelIdeal.nD Cert.KernelIdeal.τ).loc Cert.KernelIdeal.main_arg5)
  a6 := mK ((c.tc : Thread Cert.KernelIdeal.nD Cert.KernelIdeal.τ).loc Cert.KernelIdeal.main_arg6)
  a7 := mK ((c.tc : Thread Cert.KernelIdeal.nD Cert.KernelIdeal.τ).loc Cert.KernelIdeal.main_arg7)
  a8 := mK ((c.tc : Thread Cert.KernelIdeal.nD Cert.KernelIdeal.τ).loc Cert.KernelIdeal.main_arg8)
  a9 := mK ((c.tc : Thread Cert.KernelIdeal.nD Cert.KernelIdeal.τ).loc Cert.KernelIdeal.main_arg9)
  a10 := mK ((c.tc : Thread Cert.KernelIdeal.nD Cert.KernelIdeal.τ).loc Cert.KernelIdeal.main_arg10)
  a11 := mK ((c.tc : Thread Cert.KernelIdeal.nD Cert.KernelIdeal.τ).loc Cert.KernelIdeal.main_arg11)
  a12 := mK ((c.tc : Thread Cert.KernelIdeal.nD Cert.KernelIdeal.τ).loc Cert.KernelIdeal.main_arg12)
  a13 := mK ((c.tc : Thread Cert.KernelIdeal.nD Cert.KernelIdeal.τ).loc Cert.KernelIdeal.main_arg13)
  a14 := mK ((c.tc : Thread Cert.KernelIdeal.nD Cert.KernelIdeal.τ).loc Cert.KernelIdeal.main_arg14)
  a15 := mK ((c.tc : Thread Cert.KernelIdeal.nD Cert.KernelIdeal.τ).loc Cert.KernelIdeal.main_arg15)
  a16 := mK ((c.tc : Thread Cert.KernelIdeal.nD Cert.KernelIdeal.τ).loc Cert.KernelIdeal.main_arg16)
  a17 := mK ((c.tc : Thread Cert.KernelIdeal.nD Cert.KernelIdeal.τ).loc Cert.KernelIdeal.main_arg17)
  a18 := mK ((c.tc : Thread Cert.KernelIdeal.nD Cert.KernelIdeal.τ).loc Cert.KernelIdeal.main_arg18)
  a19 := mK ((c.tc : Thread Cert.KernelIdeal.nD Cert.KernelIdeal.τ).loc Cert.KernelIdeal.main_arg19)
  a20 := mK ((c.tc : Thread Cert.KernelIdeal.nD Cert.KernelIdeal.τ).loc Cert.KernelIdeal.main_arg20)
  a21 := mK ((c.tc : Thread Cert.KernelIdeal.nD Cert.KernelIdeal.τ).loc Cert.KernelIdeal.main_arg21)
  a22 := mK ((c.tc : Thread Cert.KernelIdeal.nD Cert.KernelIdeal.τ).loc Cert.KernelIdeal.main_arg22)
  a23 := mK ((c.tc : Thread Cert.KernelIdeal.nD Cert.KernelIdeal.τ).loc Cert.KernelIdeal.main_arg23)
  a24 := mK ((c.tc : Thread Cert.KernelIdeal.nD Cert.KernelIdeal.τ).loc Cert.KernelIdeal.main_arg24)
  a25 := mK ((c.tc : Thread Cert.KernelIdeal.nD Cert.KernelIdeal.τ).loc Cert.KernelIdeal.main_arg25)
  a26 := mK ((c.tc : Thread Cert.KernelIdeal.nD Cert.KernelIdeal.τ).loc Cert.KernelIdeal.main_arg26)

/-- The reference's argument arrays in a memory. -/
def argsR (c : Dev Cert.ReferenceIdeal.nD) : Args where
  a0 := mR ((c.tc : Thread Cert.ReferenceIdeal.nD Cert.ReferenceIdeal.τ).loc Cert.ReferenceIdeal.main_arg0)
  a1 := mR ((c.tc : Thread Cert.ReferenceIdeal.nD Cert.ReferenceIdeal.τ).loc Cert.ReferenceIdeal.main_arg1)
  a2 := mR ((c.tc : Thread Cert.ReferenceIdeal.nD Cert.ReferenceIdeal.τ).loc Cert.ReferenceIdeal.main_arg2)
  a3 := mR ((c.tc : Thread Cert.ReferenceIdeal.nD Cert.ReferenceIdeal.τ).loc Cert.ReferenceIdeal.main_arg3)
  a4 := mR ((c.tc : Thread Cert.ReferenceIdeal.nD Cert.ReferenceIdeal.τ).loc Cert.ReferenceIdeal.main_arg4)
  a5 := mR ((c.tc : Thread Cert.ReferenceIdeal.nD Cert.ReferenceIdeal.τ).loc Cert.ReferenceIdeal.main_arg5)
  a6 := mR ((c.tc : Thread Cert.ReferenceIdeal.nD Cert.ReferenceIdeal.τ).loc Cert.ReferenceIdeal.main_arg6)
  a7 := mR ((c.tc : Thread Cert.ReferenceIdeal.nD Cert.ReferenceIdeal.τ).loc Cert.ReferenceIdeal.main_arg7)
  a8 := mR ((c.tc : Thread Cert.ReferenceIdeal.nD Cert.ReferenceIdeal.τ).loc Cert.ReferenceIdeal.main_arg8)
  a9 := mR ((c.tc : Thread Cert.ReferenceIdeal.nD Cert.ReferenceIdeal.τ).loc Cert.ReferenceIdeal.main_arg9)
  a10 := mR ((c.tc : Thread Cert.ReferenceIdeal.nD Cert.ReferenceIdeal.τ).loc Cert.ReferenceIdeal.main_arg10)
  a11 := mR ((c.tc : Thread Cert.ReferenceIdeal.nD Cert.ReferenceIdeal.τ).loc Cert.ReferenceIdeal.main_arg11)
  a12 := mR ((c.tc : Thread Cert.ReferenceIdeal.nD Cert.ReferenceIdeal.τ).loc Cert.ReferenceIdeal.main_arg12)
  a13 := mR ((c.tc : Thread Cert.ReferenceIdeal.nD Cert.ReferenceIdeal.τ).loc Cert.ReferenceIdeal.main_arg13)
  a14 := mR ((c.tc : Thread Cert.ReferenceIdeal.nD Cert.ReferenceIdeal.τ).loc Cert.ReferenceIdeal.main_arg14)
  a15 := mR ((c.tc : Thread Cert.ReferenceIdeal.nD Cert.ReferenceIdeal.τ).loc Cert.ReferenceIdeal.main_arg15)
  a16 := mR ((c.tc : Thread Cert.ReferenceIdeal.nD Cert.ReferenceIdeal.τ).loc Cert.ReferenceIdeal.main_arg16)
  a17 := mR ((c.tc : Thread Cert.ReferenceIdeal.nD Cert.ReferenceIdeal.τ).loc Cert.ReferenceIdeal.main_arg17)
  a18 := mR ((c.tc : Thread Cert.ReferenceIdeal.nD Cert.ReferenceIdeal.τ).loc Cert.ReferenceIdeal.main_arg18)
  a19 := mR ((c.tc : Thread Cert.ReferenceIdeal.nD Cert.ReferenceIdeal.τ).loc Cert.ReferenceIdeal.main_arg19)
  a20 := mR ((c.tc : Thread Cert.ReferenceIdeal.nD Cert.ReferenceIdeal.τ).loc Cert.ReferenceIdeal.main_arg20)
  a21 := mR ((c.tc : Thread Cert.ReferenceIdeal.nD Cert.ReferenceIdeal.τ).loc Cert.ReferenceIdeal.main_arg21)
  a22 := mR ((c.tc : Thread Cert.ReferenceIdeal.nD Cert.ReferenceIdeal.τ).loc Cert.ReferenceIdeal.main_arg22)
  a23 := mR ((c.tc : Thread Cert.ReferenceIdeal.nD Cert.ReferenceIdeal.τ).loc Cert.ReferenceIdeal.main_arg23)
  a24 := mR ((c.tc : Thread Cert.ReferenceIdeal.nD Cert.ReferenceIdeal.τ).loc Cert.ReferenceIdeal.main_arg24)
  a25 := mR ((c.tc : Thread Cert.ReferenceIdeal.nD Cert.ReferenceIdeal.τ).loc Cert.ReferenceIdeal.main_arg25)
  a26 := mR ((c.tc : Thread Cert.ReferenceIdeal.nD Cert.ReferenceIdeal.τ).loc Cert.ReferenceIdeal.main_arg26)

theorem K_zf (c : Dev Cert.KernelIdeal.nD) : Cert.KernelIdeal.Chain.zf mK c = Kzf (argsK mK c) := rfl
theorem K_prob (c : Dev Cert.KernelIdeal.nD) : Cert.KernelIdeal.Chain.prob mK c = Kprob (argsK mK c) := rfl
theorem R_zf (c : Dev Cert.ReferenceIdeal.nD) : Cert.ReferenceIdeal.Chain.zf mR c = Rzf (argsR mR c) := rfl
theorem R_prob (c : Dev Cert.ReferenceIdeal.nD) : Cert.ReferenceIdeal.Chain.prob mR c = Rprob (argsR mR c) := rfl

/-- Memories that agree on the arguments give the same argument record. -/
theorem args_eq (c : Dev Cert.KernelIdeal.nD)
    (h : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)
      ∧ mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)
      ∧ mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)
      ∧ mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)
      ∧ mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)
      ∧ mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)
      ∧ mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6)
      ∧ mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7)
      ∧ mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8)
      ∧ mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)
      ∧ mR ((c.tc : Thread Cert.ReferenceIdeal.nD Cert.ReferenceIdeal.τ).loc Cert.ReferenceIdeal.main_arg10) = mK ((c.tc : Thread Cert.KernelIdeal.nD Cert.KernelIdeal.τ).loc Cert.KernelIdeal.main_arg10)
      ∧ mR ((c.tc : Thread Cert.ReferenceIdeal.nD Cert.ReferenceIdeal.τ).loc Cert.ReferenceIdeal.main_arg11) = mK ((c.tc : Thread Cert.KernelIdeal.nD Cert.KernelIdeal.τ).loc Cert.KernelIdeal.main_arg11)
      ∧ mR ((c.tc : Thread Cert.ReferenceIdeal.nD Cert.ReferenceIdeal.τ).loc Cert.ReferenceIdeal.main_arg12) = mK ((c.tc : Thread Cert.KernelIdeal.nD Cert.KernelIdeal.τ).loc Cert.KernelIdeal.main_arg12)
      ∧ mR ((c.tc : Thread Cert.ReferenceIdeal.nD Cert.ReferenceIdeal.τ).loc Cert.ReferenceIdeal.main_arg13) = mK ((c.tc : Thread Cert.KernelIdeal.nD Cert.KernelIdeal.τ).loc Cert.KernelIdeal.main_arg13)
      ∧ mR ((c.tc : Thread Cert.ReferenceIdeal.nD Cert.ReferenceIdeal.τ).loc Cert.ReferenceIdeal.main_arg14) = mK ((c.tc : Thread Cert.KernelIdeal.nD Cert.KernelIdeal.τ).loc Cert.KernelIdeal.main_arg14)
      ∧ mR ((c.tc : Thread Cert.ReferenceIdeal.nD Cert.ReferenceIdeal.τ).loc Cert.ReferenceIdeal.main_arg15) = mK ((c.tc : Thread Cert.KernelIdeal.nD Cert.KernelIdeal.τ).loc Cert.KernelIdeal.main_arg15)
      ∧ mR ((c.tc : Thread Cert.ReferenceIdeal.nD Cert.ReferenceIdeal.τ).loc Cert.ReferenceIdeal.main_arg16) = mK ((c.tc : Thread Cert.KernelIdeal.nD Cert.KernelIdeal.τ).loc Cert.KernelIdeal.main_arg16)
      ∧ mR ((c.tc : Thread Cert.ReferenceIdeal.nD Cert.ReferenceIdeal.τ).loc Cert.ReferenceIdeal.main_arg17) = mK ((c.tc : Thread Cert.KernelIdeal.nD Cert.KernelIdeal.τ).loc Cert.KernelIdeal.main_arg17)
      ∧ mR ((c.tc : Thread Cert.ReferenceIdeal.nD Cert.ReferenceIdeal.τ).loc Cert.ReferenceIdeal.main_arg18) = mK ((c.tc : Thread Cert.KernelIdeal.nD Cert.KernelIdeal.τ).loc Cert.KernelIdeal.main_arg18)
      ∧ mR ((c.tc : Thread Cert.ReferenceIdeal.nD Cert.ReferenceIdeal.τ).loc Cert.ReferenceIdeal.main_arg19) = mK ((c.tc : Thread Cert.KernelIdeal.nD Cert.KernelIdeal.τ).loc Cert.KernelIdeal.main_arg19)
      ∧ mR ((c.tc : Thread Cert.ReferenceIdeal.nD Cert.ReferenceIdeal.τ).loc Cert.ReferenceIdeal.main_arg20) = mK ((c.tc : Thread Cert.KernelIdeal.nD Cert.KernelIdeal.τ).loc Cert.KernelIdeal.main_arg20)
      ∧ mR ((c.tc : Thread Cert.ReferenceIdeal.nD Cert.ReferenceIdeal.τ).loc Cert.ReferenceIdeal.main_arg21) = mK ((c.tc : Thread Cert.KernelIdeal.nD Cert.KernelIdeal.τ).loc Cert.KernelIdeal.main_arg21)
      ∧ mR ((c.tc : Thread Cert.ReferenceIdeal.nD Cert.ReferenceIdeal.τ).loc Cert.ReferenceIdeal.main_arg22) = mK ((c.tc : Thread Cert.KernelIdeal.nD Cert.KernelIdeal.τ).loc Cert.KernelIdeal.main_arg22)
      ∧ mR ((c.tc : Thread Cert.ReferenceIdeal.nD Cert.ReferenceIdeal.τ).loc Cert.ReferenceIdeal.main_arg23) = mK ((c.tc : Thread Cert.KernelIdeal.nD Cert.KernelIdeal.τ).loc Cert.KernelIdeal.main_arg23)
      ∧ mR ((c.tc : Thread Cert.ReferenceIdeal.nD Cert.ReferenceIdeal.τ).loc Cert.ReferenceIdeal.main_arg24) = mK ((c.tc : Thread Cert.KernelIdeal.nD Cert.KernelIdeal.τ).loc Cert.KernelIdeal.main_arg24)
      ∧ mR ((c.tc : Thread Cert.ReferenceIdeal.nD Cert.ReferenceIdeal.τ).loc Cert.ReferenceIdeal.main_arg25) = mK ((c.tc : Thread Cert.KernelIdeal.nD Cert.KernelIdeal.τ).loc Cert.KernelIdeal.main_arg25)
      ∧ mR ((c.tc : Thread Cert.ReferenceIdeal.nD Cert.ReferenceIdeal.τ).loc Cert.ReferenceIdeal.main_arg26) = mK ((c.tc : Thread Cert.KernelIdeal.nD Cert.KernelIdeal.τ).loc Cert.KernelIdeal.main_arg26)) :
    argsR mR c = argsK mK c := by
  obtain ⟨h0, h1, h2, h3, h4, h5, h6, h7, h8, h9, h10, h11, h12, h13, h14, h15, h16, h17, h18, h19, h20, h21, h22, h23, h24, h25, h26⟩ := h
  unfold argsR argsK
  rw [h0, h1, h2, h3, h4, h5, h6, h7, h8, h9, h10, h11, h12, h13, h14, h15, h16, h17, h18, h19, h20, h21, h22, h23, h24, h25, h26]

end Cert.Sim

end
-- ==== Proof.lean ====
/-
  The kernel program and the jnp reference compute the same two arrays over the extended reals.

  The model: two layers of a signed graph convolution — per relation (positive, negative edges) a linear map of the
  source node's row, summed at the target node, plus a linear map of the node's own row, through tanh —, a linear
  layer through tanh (the node embedding, the first result), and a three-layer head with two batch normalisations
  (column mean and variance over all rows) and a final logistic (the second result).

  The kernel program applies each relation's linear map to the whole node table first and gathers the projected
  rows; the reference gathers the rows and projects them. A gathered row of x · W + b is that row of x times W plus
  b, entry for entry, so the messages are the same numbers and the sums at the targets — one host operation applied
  to equal arrays — agree. Every other layer is the same expression on both sides, computed by a pallas_call block
  of rows at a time in the kernel program and over the whole table in the reference. No finiteness is used.

  The modules: `Spec` (the layers as functions of whole arrays), `KReg0 … KReg7` (each pallas_call's output array
  is its layer of its input arrays), `KChainA`, `KChainB` (the kernel program's buffers at each point of its
  run), `KRun` (its run with the result buffers read), `ROps`, `RBounds`, `RRun` (the reference's operations and
  its run), `RStepsA`, `RStepsB` (the reference's buffers at each point of its run), `Bridge` and `Sim` (the two
  sides' layer functions are equal).
-/
import proofs.«401691_j50775103373990_2_alg».proof.Defs
import proofs.«401691_j50775103373990_2_alg».proof.Proof.Gen.Kernel
import proofs.«401691_j50775103373990_2_alg».proof.Proof.Gen.Kernel.Frame
import proofs.«401691_j50775103373990_2_alg».proof.Proof.Gen.KernelIdeal
import proofs.«401691_j50775103373990_2_alg».proof.Proof.Gen.KernelIdeal.Frame
import proofs.«401691_j50775103373990_2_alg».proof.Proof.Gen.ReferenceIdeal
import proofs.«401691_j50775103373990_2_alg».proof.Proof.Gen.Pre_finite_inputs
import proofs.«401691_j50775103373990_2_alg».proof.Proof.KRun
import proofs.«401691_j50775103373990_2_alg».proof.Proof.KRegAll
import proofs.«401691_j50775103373990_2_alg».proof.Proof.KChainB
import proofs.«401691_j50775103373990_2_alg».proof.Proof.RRun
import proofs.«401691_j50775103373990_2_alg».proof.Proof.RStepsB
import proofs.«401691_j50775103373990_2_alg».proof.Proof.Sim

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RV.R10_arg m c 0),
     (h c Cert.ReferenceIdeal.main_arg1).trans (Cert.ReferenceIdeal.RV.R10_arg m c 1),
     (h c Cert.ReferenceIdeal.main_arg2).trans (Cert.ReferenceIdeal.RV.R10_arg m c 2),
     (h c Cert.ReferenceIdeal.main_arg3).trans (Cert.ReferenceIdeal.RV.R10_arg m c 3),
     (h c Cert.ReferenceIdeal.main_arg4).trans (Cert.ReferenceIdeal.RV.R10_arg m c 4),
     (h c Cert.ReferenceIdeal.main_arg5).trans (Cert.ReferenceIdeal.RV.R10_arg m c 5),
     (h c Cert.ReferenceIdeal.main_arg6).trans (Cert.ReferenceIdeal.RV.R10_arg m c 6),
     (h c Cert.ReferenceIdeal.main_arg7).trans (Cert.ReferenceIdeal.RV.R10_arg m c 7),
     (h c Cert.ReferenceIdeal.main_arg8).trans (Cert.ReferenceIdeal.RV.R10_arg m c 8),
     (h c Cert.ReferenceIdeal.main_arg9).trans (Cert.ReferenceIdeal.RV.R10_arg m c 9),
     (h c Cert.ReferenceIdeal.main_arg10).trans (Cert.ReferenceIdeal.RV.R10_arg m c 10),
     (h c Cert.ReferenceIdeal.main_arg11).trans (Cert.ReferenceIdeal.RV.R10_arg m c 11),
     (h c Cert.ReferenceIdeal.main_arg12).trans (Cert.ReferenceIdeal.RV.R10_arg m c 12),
     (h c Cert.ReferenceIdeal.main_arg13).trans (Cert.ReferenceIdeal.RV.R10_arg m c 13),
     (h c Cert.ReferenceIdeal.main_arg14).trans (Cert.ReferenceIdeal.RV.R10_arg m c 14),
     (h c Cert.ReferenceIdeal.main_arg15).trans (Cert.ReferenceIdeal.RV.R10_arg m c 15),
     (h c Cert.ReferenceIdeal.main_arg16).trans (Cert.ReferenceIdeal.RV.R10_arg m c 16),
     (h c Cert.ReferenceIdeal.main_arg17).trans (Cert.ReferenceIdeal.RV.R10_arg m c 17),
     (h c Cert.ReferenceIdeal.main_arg18).trans (Cert.ReferenceIdeal.RV.R10_arg m c 18),
     (h c Cert.ReferenceIdeal.main_arg19).trans (Cert.ReferenceIdeal.RV.R10_arg m c 19),
     (h c Cert.ReferenceIdeal.main_arg20).trans (Cert.ReferenceIdeal.RV.R10_arg m c 20),
     (h c Cert.ReferenceIdeal.main_arg21).trans (Cert.ReferenceIdeal.RV.R10_arg m c 21),
     (h c Cert.ReferenceIdeal.main_arg22).trans (Cert.ReferenceIdeal.RV.R10_arg m c 22),
     (h c Cert.ReferenceIdeal.main_arg23).trans (Cert.ReferenceIdeal.RV.R10_arg m c 23),
     (h c Cert.ReferenceIdeal.main_arg24).trans (Cert.ReferenceIdeal.RV.R10_arg m c 24),
     (h c Cert.ReferenceIdeal.main_arg25).trans (Cert.ReferenceIdeal.RV.R10_arg m c 25),
     (h c Cert.ReferenceIdeal.main_arg26).trans (Cert.ReferenceIdeal.RV.R10_arg m c 26)⟩)
    (Cert.ReferenceIdeal.RV.run (F := Ideal) m ρ)

/-- The ideal pass rewrote nothing. -/
theorem preserves : Cert.preserves_Kernel_KernelIdeal := trivial

/-- Both programs end with the node embedding and the probability at the same arrays: the kernel program's layer
    functions of its arguments, which the reference's are equal to when the arguments agree. -/
theorem algebraic : Cert.algebraic_KernelIdeal_ReferenceIdeal := by
  intro m ρ m' ρ' _ hagree
  refine ⟨fun c => Cert.KernelIdeal.Chain.zf m c, fun c => Cert.KernelIdeal.Chain.prob m c, ?_, ?_⟩
  · refine (θ_run Cert.KernelIdeal.defs _ _).mono (fun r h c => ?_) (Cert.KernelIdeal.Out.run_out (F := Ideal) m ρ)
    obtain ⟨h73, h95, hargs⟩ := h c
    exact ⟨h73.trans (Cert.KernelIdeal.Chain.W20_zf m ρ Cert.KernelIdeal.Regions.values c),
      h95.trans (Cert.KernelIdeal.Chain.W20_prob m ρ Cert.KernelIdeal.Regions.values c), hargs⟩
  · refine (θ_run Cert.ReferenceIdeal.defs _ _).mono (fun r h c => ?_) (Cert.ReferenceIdeal.RV.run (F := Ideal) m' ρ')
    have hA : Cert.Sim.argsR m' c = Cert.Sim.argsK m c := Cert.Sim.args_eq m m' c (hagree c)
    have hz : Cert.ReferenceIdeal.Chain.zf m' c = Cert.KernelIdeal.Chain.zf m c := by
      rw [Cert.Sim.R_zf, Cert.Sim.K_zf, hA, Cert.Sim.zf_eq]
    have hp : Cert.ReferenceIdeal.Chain.prob m' c = Cert.KernelIdeal.Chain.prob m c := by
      rw [Cert.Sim.R_prob, Cert.Sim.K_prob, hA, Cert.Sim.prob_eq]
    exact ⟨(h c Cert.ReferenceIdeal.main_v90).trans ((Cert.ReferenceIdeal.Chain.R10_zf m' c).trans hz),
      (h c Cert.ReferenceIdeal.main_v148).trans ((Cert.ReferenceIdeal.Chain.R10_prob m' c).trans hp),
      (h c Cert.ReferenceIdeal.main_arg0).trans (Cert.ReferenceIdeal.RV.R10_arg m' c 0),
      (h c Cert.ReferenceIdeal.main_arg1).trans (Cert.ReferenceIdeal.RV.R10_arg m' c 1),
      (h c Cert.ReferenceIdeal.main_arg2).trans (Cert.ReferenceIdeal.RV.R10_arg m' c 2),
      (h c Cert.ReferenceIdeal.main_arg3).trans (Cert.ReferenceIdeal.RV.R10_arg m' c 3),
      (h c Cert.ReferenceIdeal.main_arg4).trans (Cert.ReferenceIdeal.RV.R10_arg m' c 4),
      (h c Cert.ReferenceIdeal.main_arg5).trans (Cert.ReferenceIdeal.RV.R10_arg m' c 5),
      (h c Cert.ReferenceIdeal.main_arg6).trans (Cert.ReferenceIdeal.RV.R10_arg m' c 6),
      (h c Cert.ReferenceIdeal.main_arg7).trans (Cert.ReferenceIdeal.RV.R10_arg m' c 7),
      (h c Cert.ReferenceIdeal.main_arg8).trans (Cert.ReferenceIdeal.RV.R10_arg m' c 8),
      (h c Cert.ReferenceIdeal.main_arg9).trans (Cert.ReferenceIdeal.RV.R10_arg m' c 9),
      (h c Cert.ReferenceIdeal.main_arg10).trans (Cert.ReferenceIdeal.RV.R10_arg m' c 10),
      (h c Cert.ReferenceIdeal.main_arg11).trans (Cert.ReferenceIdeal.RV.R10_arg m' c 11),
      (h c Cert.ReferenceIdeal.main_arg12).trans (Cert.ReferenceIdeal.RV.R10_arg m' c 12),
      (h c Cert.ReferenceIdeal.main_arg13).trans (Cert.ReferenceIdeal.RV.R10_arg m' c 13),
      (h c Cert.ReferenceIdeal.main_arg14).trans (Cert.ReferenceIdeal.RV.R10_arg m' c 14),
      (h c Cert.ReferenceIdeal.main_arg15).trans (Cert.ReferenceIdeal.RV.R10_arg m' c 15),
      (h c Cert.ReferenceIdeal.main_arg16).trans (Cert.ReferenceIdeal.RV.R10_arg m' c 16),
      (h c Cert.ReferenceIdeal.main_arg17).trans (Cert.ReferenceIdeal.RV.R10_arg m' c 17),
      (h c Cert.ReferenceIdeal.main_arg18).trans (Cert.ReferenceIdeal.RV.R10_arg m' c 18),
      (h c Cert.ReferenceIdeal.main_arg19).trans (Cert.ReferenceIdeal.RV.R10_arg m' c 19),
      (h c Cert.ReferenceIdeal.main_arg20).trans (Cert.ReferenceIdeal.RV.R10_arg m' c 20),
      (h c Cert.ReferenceIdeal.main_arg21).trans (Cert.ReferenceIdeal.RV.R10_arg m' c 21),
      (h c Cert.ReferenceIdeal.main_arg22).trans (Cert.ReferenceIdeal.RV.R10_arg m' c 22),
      (h c Cert.ReferenceIdeal.main_arg23).trans (Cert.ReferenceIdeal.RV.R10_arg m' c 23),
      (h c Cert.ReferenceIdeal.main_arg24).trans (Cert.ReferenceIdeal.RV.R10_arg m' c 24),
      (h c Cert.ReferenceIdeal.main_arg25).trans (Cert.ReferenceIdeal.RV.R10_arg m' c 25),
      (h c Cert.ReferenceIdeal.main_arg26).trans (Cert.ReferenceIdeal.RV.R10_arg m' c 26)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
